-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x8 : Shape := ⟨2, ![100000, 8]⟩
abbrev S128x128 : Shape := ⟨2, ![128, 128]⟩
abbrev S128x1 : Shape := ⟨2, ![128, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S100000x8 : S_.BroadcastsInDim S100000x8 (![] : Fin 0 → Fin S100000x8.rank)
  reducesTo_S100000x8_S_d0_1 : S100000x8.ReducesTo [0, 1] S_

variable [Facts]

def fn_part1 {F : FTy → Type} [FloatOps F] (main_arg2 : IVec S100000x8 32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_c_6 : IVec S_ 32 := constantI S_ 32 0#32
  let main_v19 : IVec S100000x8 32 := broadcastInDim S100000x8 ![] bcast_S_S100000x8 main_c_6
  let main_v20 : IVec S100000x8 1 := cmpi .sge main_arg2 main_v19
  let main_c_7 : IVec S_ 1 := constantI S_ 1 1#1
  let main_v21 : IVec S_ 1 := (fun x v => Host.reduce IntOp.andi x v reducesTo_S100000x8_S_d0_1 h_S_) main_v20 main_c_7
  let main_v22 : IVec S_ 1 := andi main_v18 main_v21
  let main_c_8 : IVec S_ 32 := constantI S_ 32 100000#32
  let main_v23 : IVec S100000x8 32 := broadcastInDim S100000x8 ![] bcast_S_S100000x8 main_c_8
  let main_v24 : IVec S100000x8 1 := cmpi .slt main_arg2 main_v23
  let main_c_9 : IVec S_ 1 := constantI S_ 1 1#1
  let main_v25 : IVec S_ 1 := (fun x v => Host.reduce IntOp.andi x v reducesTo_S100000x8_S_d0_1 h_S_) main_v24 main_c_9
  let main_v26 : IVec S_ 1 := andi main_v22 main_v25
  main_v26

def fn {F : FTy → Type} [FloatOps F] (main_arg0 : FVec F S100000x128 .f32) (main_arg1 : FVec F S100000x128 .f32) (main_arg2 : IVec S100000x8 32) (main_arg3 : IVec S100000x8 1) (main_arg4 : FVec F S128x128 .f32) (main_arg5 : FVec F S128x1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg2 main_v13 main_v16
-- ==== Kernel.lean ====
abbrev S100000x128 : Shape := ⟨2, ![100000, 128]⟩
abbrev S100000x8 : Shape := ⟨2, ![100000, 8]⟩
abbrev S128x128 : Shape := ⟨2, ![128, 128]⟩
abbrev S128x1 : Shape := ⟨2, ![128, 1]⟩
abbrev S128 : Shape := ⟨1, ![128]⟩
abbrev S100000x1 : Shape := ⟨2, ![100000, 1]⟩
abbrev S10000x128 : Shape := ⟨2, ![10000, 128]⟩
abbrev S10000x1 : Shape := ⟨2, ![10000, 1]⟩
abbrev S1x128 : Shape := ⟨2, ![1, 128]⟩
abbrev S10000 : Shape := ⟨1, ![10000]⟩
abbrev S100000 : Shape := ⟨1, ![100000]⟩
abbrev S_ : Shape := ⟨0, ![]⟩
abbrev S100000x8x1 : Shape := ⟨3, ![100000, 8, 1]⟩
abbrev S8 : Shape := ⟨1, ![8]⟩
abbrev S1x8 : Shape := ⟨2, ![1, 8]⟩
abbrev S100000x8x2 : Shape := ⟨3, ![100000, 8, 2]⟩
abbrev S2x8x128 : Shape := ⟨3, ![2, 8, 128]⟩
abbrev S10000x8 : Shape := ⟨2, ![10000, 8]⟩
abbrev S1x8x128 : Shape := ⟨3, ![1, 8, 128]⟩
abbrev S8x128 : Shape := ⟨2, ![8, 128]⟩

abbrev nBuf : Space → Nat
  | .hbm => 76
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x8, .i32⟩
  | .hbm, ⟨3, _⟩ => ⟨S100000x8, .i1⟩
  | .hbm, ⟨4, _⟩ => ⟨S128x128, .f32⟩
  | .hbm, ⟨5, _⟩ => ⟨S128x1, .f32⟩
  | .hbm, ⟨6, _⟩ => ⟨S128, .f32⟩
  | .hbm, ⟨7, _⟩ => ⟨S100000x128, .bf16⟩
  | .hbm, ⟨8, _⟩ => ⟨S100000x1, .f32⟩
  | .hbm, ⟨9, _⟩ => ⟨S100000, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S100000x8, .i32⟩
  | .hbm, ⟨14, _⟩ => ⟨S100000x8, .i32⟩
  | .hbm, ⟨15, _⟩ => ⟨S_, .i32⟩
  | .hbm, ⟨16, _⟩ => ⟨S100000x8, .i32⟩
  | .hbm, ⟨17, _⟩ => ⟨S100000x8, .i32⟩
  | .hbm, ⟨18, _⟩ => ⟨S_, .i32⟩
  | .hbm, ⟨19, _⟩ => ⟨S100000x8, .i32⟩
  | .hbm, ⟨20, _⟩ => ⟨S100000x8, .i1⟩
  | .hbm, ⟨21, _⟩ => ⟨S_, .i32⟩
  | .hbm, ⟨22, _⟩ => ⟨S100000x8, .i32⟩
  | .hbm, ⟨23, _⟩ => ⟨S100000x8, .i32⟩
  | .hbm, ⟨24, _⟩ => ⟨S100000x8, .i32⟩
  | .hbm, ⟨25, _⟩ => ⟨S100000x8x1, .i32⟩
  | .hbm, ⟨26, _⟩ => ⟨S100000x8, .f32⟩
  | .hbm, ⟨27, _⟩ => ⟨S_, .f32⟩
  | .hbm, ⟨28, _⟩ => ⟨S100000x8, .f32⟩
  | .hbm, ⟨29, _⟩ => ⟨S100000x8, .f32⟩
  | .hbm, ⟨30, _⟩ => ⟨S_, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x8, .f32⟩
  | .hbm, ⟨37, _⟩ => ⟨S100000x8, .f32⟩
  | .hbm, ⟨38, _⟩ => ⟨S100000x8, .f32⟩
  | .hbm, ⟨39, _⟩ => ⟨S_, .f32⟩
  | .hbm, ⟨40, _⟩ => ⟨S100000, .f32⟩
  | .hbm, ⟨41, _⟩ => ⟨S100000x1, .f32⟩
  | .hbm, ⟨42, _⟩ => ⟨S100000x8, .f32⟩
  | .hbm, ⟨43, _⟩ => ⟨S100000x8, .f32⟩
  | .hbm, ⟨44, _⟩ => ⟨S_, .f32⟩
  | .hbm, ⟨45, _⟩ => ⟨S100000x8, .f32⟩
  | .hbm, ⟨46, _⟩ => ⟨S100000x8, .f32⟩
  | .hbm, ⟨47, _⟩ => ⟨S8, .i32⟩
  | .hbm, ⟨48, _⟩ => ⟨S1x8, .i32⟩
  | .hbm, ⟨49, _⟩ => ⟨S100000x8, .i32⟩
  | .hbm, ⟨50, _⟩ => ⟨S_, .f32⟩
  | .hbm, ⟨51, _⟩ => ⟨S100000x8, .f32⟩
  | .hbm, ⟨52, _⟩ => ⟨S_, .i32⟩
  | .hbm, ⟨53, _⟩ => ⟨S100000x8, .i32⟩
  | .hbm, ⟨54, _⟩ => ⟨S100000x8, .i1⟩
  | .hbm, ⟨55, _⟩ => ⟨S_, .i32⟩
  | .hbm, ⟨56, _⟩ => ⟨S100000x8, .i32⟩
  | .hbm, ⟨57, _⟩ => ⟨S100000x8, .i32⟩
  | .hbm, ⟨58, _⟩ => ⟨S100000x8, .i32⟩
  | .hbm, ⟨59, _⟩ => ⟨S_, .i32⟩
  | .hbm, ⟨60, _⟩ => ⟨S100000x8, .i32⟩
  | .hbm, ⟨61, _⟩ => ⟨S100000x8, .i1⟩
  | .hbm, ⟨62, _⟩ => ⟨S_, .i32⟩
  | .hbm, ⟨63, _⟩ => ⟨S100000x8, .i32⟩
  | .hbm, ⟨64, _⟩ => ⟨S100000x8, .i32⟩
  | .hbm, ⟨65, _⟩ => ⟨S100000x8, .i32⟩
  | .hbm, ⟨66, _⟩ => ⟨S100000x8x1, .i32⟩
  | .hbm, ⟨67, _⟩ => ⟨S100000x8x1, .i32⟩
  | .hbm, ⟨68, _⟩ => ⟨S100000x8x2, .i32⟩
  | .hbm, ⟨69, _⟩ => ⟨S100000x8, .f32⟩
  | .hbm, ⟨70, _⟩ => ⟨S2x8x128, .f32⟩
  | .hbm, ⟨71, _⟩ => ⟨S1x8x128, .f32⟩
  | .hbm, ⟨72, _⟩ => ⟨S8x128, .f32⟩
  | .hbm, ⟨73, _⟩ => ⟨S1x8x128, .f32⟩
  | .hbm, ⟨74, _⟩ => ⟨S8x128, .f32⟩
  | .hbm, ⟨75, _⟩ => ⟨S8x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .bf16⟩
  | .local _ .vmem, ⟨5, _⟩ => ⟨S10000x128, .bf16⟩
  | .local _ .vmem, ⟨6, _⟩ => ⟨S10000x1, .f32⟩
  | .local _ .vmem, ⟨7, _⟩ => ⟨S10000x1, .f32⟩
  | .local _ .vmem, ⟨8, _⟩ => ⟨S10000x8, .f32⟩
  | .local _ .vmem, ⟨9, _⟩ => ⟨S10000x8, .f32⟩
  | .local _ .vmem, ⟨10, _⟩ => ⟨S10000x128, .bf16⟩
  | .local _ .vmem, ⟨11, _⟩ => ⟨S10000x128, .bf16⟩
  | .local _ .vmem, ⟨12, _⟩ => ⟨S1x8x128, .f32⟩
  | .local _ .vmem, ⟨13, _⟩ => ⟨S1x8x128, .f32⟩
  | .local _ .vmem, ⟨14, _⟩ => ⟨S8x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_c_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_call1_v0 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_call2_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_7 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_c_9 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_10 : Ref sig .tc := ⟨.hbm, 59, rfl⟩
abbrev main_v33 : Ref sig .tc := ⟨.hbm, 60, rfl⟩
abbrev main_v34 : Ref sig .tc := ⟨.hbm, 61, rfl⟩
abbrev main_c_11 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 5], ![false, false]⟩

def k1_cond2 (i : grid1.Coords) : BitVec 1 :=
  let arg1 : BitVec 32 := BitVec.ofNat 32 (i 1).val
  let c4_i32 : BitVec 32 := 4#32
  let v14 : BitVec 1 := Scalar.cmpi .eq arg1 c4_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S128x1_S128 : S128x1.ShapeCasts S128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S10000x128 : S1x128.Broadcasts S10000x128
  reduces_S10000x128_S10000 : S10000x128.Reduces [1] S10000
  shapeCasts_S10000_S10000x1 : S10000.ShapeCasts S10000x1
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  bcast_S_S100000x8 : S_.BroadcastsInDim S100000x8 (![] : Fin 0 → Fin S100000x8.rank)
  bcast_S100000x8_S100000x8x1_0_1 : S100000x8.BroadcastsInDim S100000x8x1 (![0, 1] : Fin 2 → Fin S100000x8x1.rank)
  reducesTo_S100000x8_S100000_d1 : S100000x8.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  concatenates_S100000x8x1_S100000x8x1_S100000x8x2_d2 : Shape.Concatenates [S100000x8x1, S100000x8x1] S100000x8x2 2
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  shapeCasts_S10000x128_S10000x128 : S10000x128.ShapeCasts S10000x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S1x8x128_0_0_0 : S2x8x128.Slices ![0, 0, 0] S1x8x128
  slices_S2x8x128_S1x8x128_1_0_0 : S2x8x128.Slices ![1, 0, 0] S1x8x128
  dot_S10000x128_S128x128_S10000x128_1_0_0_1_n_n_wf : DotDims.WF S10000x128 S128x128 S10000x128 [1] [0] [0] [1] [] []
  gather_S100000_S100000x8x1_S100000x8_n_0_n_n_0_2_1_wf : GatherDims.WF S100000 S100000x8x1 S100000x8 [] [0] [] [0] [] 2 ![1]
  scatter_S100000x8_S100000x8x2_S100000x8_n_01_01_2_wf : ScatterDims.WF S100000x8 S100000x8x2 S100000x8 [] [0, 1] [0, 1] 2
  dot_S10000x8_S10000x128_S8x128_0_0_1_1_n_n_wf : DotDims.WF S10000x8 S10000x128 S8x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .bf16 = 32 ∨ (Rect.block (s := S100000x128) S10000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x1.size a ≤ S100000x1.size a
  hwx0_4 : ∀ i : grid0.Coords, EltTy.bits .f32 = 32 ∨ (Rect.block (s := S100000x1) S10000x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x8.size a ≤ S100000x8.size a
  hwx1_0 : ∀ i : grid1.Coords, EltTy.bits .f32 = 32 ∨ (Rect.block (s := S100000x8) S10000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .bf16 = 32 ∨ (Rect.block (s := S100000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x128.size a ≤ S2x8x128.size a
  hwx1_2 : ∀ i : grid1.Coords, EltTy.bits .f32 = 32 ∨ (Rect.block (s := S2x8x128) S1x8x128.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000_S100000x8x1_S100000x8_n_0_n_n_0_2_1 : GatherDims S100000 S100000x8x1 S100000x8 where
  offsetDims := []
  collapsedSliceDims := [0]
  operandBatchingDims := []
  startIndicesBatchingDims := []
  startIndexMap := [0]
  indexVectorDim := 2
  sliceSizes := ![1]
  wf := gather_S100000_S100000x8x1_S100000x8_n_0_n_n_0_2_1_wf
def scatter_S100000x8_S100000x8x2_S100000x8_n_01_01_2 : ScatterDims S100000x8 S100000x8x2 S100000x8 where
  updateWindowDims := []
  insertedWindowDims := [0, 1]
  scatterDimsToOperandDims := [0, 1]
  indexVectorDim := 2
  wf := scatter_S100000x8_S100000x8x2_S100000x8_n_01_01_2_wf
def dot_S10000x8_S10000x128_S8x128_0_0_1_1_n_n : DotDims S10000x8 S10000x128 S8x128 where
  lhsContracting := [0]
  rhsContracting := [0]
  lhsNonContracting := [1]
  rhsNonContracting := [1]
  lhsBatch := []
  rhsBatch := []
  wf := dot_S10000x8_S10000x128_S8x128_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S10000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S10000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S100000x8 : Shape := ⟨2, ![100000, 8]⟩
abbrev S128x128 : Shape := ⟨2, ![128, 128]⟩
abbrev S128x1 : Shape := ⟨2, ![128, 1]⟩
abbrev S_ : Shape := ⟨0, ![]⟩
abbrev S100000x8x1 : Shape := ⟨3, ![100000, 8, 1]⟩
abbrev S100000x8x128 : Shape := ⟨3, ![100000, 8, 128]⟩
abbrev S100000x1 : Shape := ⟨2, ![100000, 1]⟩
abbrev S100000x1x1 : Shape := ⟨3, ![100000, 1, 1]⟩
abbrev S8x128 : Shape := ⟨2, ![8, 128]⟩

abbrev nBuf : Space → Nat
  | .hbm => 54
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x8, .i32⟩
  | .hbm, ⟨3, _⟩ => ⟨S100000x8, .i1⟩
  | .hbm, ⟨4, _⟩ => ⟨S128x128, .f32⟩
  | .hbm, ⟨5, _⟩ => ⟨S128x1, .f32⟩
  | .hbm, ⟨6, _⟩ => ⟨S100000x128, .f32⟩
  | .hbm, ⟨7, _⟩ => ⟨S_, .i32⟩
  | .hbm, ⟨8, _⟩ => ⟨S100000x8, .i32⟩
  | .hbm, ⟨9, _⟩ => ⟨S100000x8, .i1⟩
  | .hbm, ⟨10, _⟩ => ⟨S_, .i32⟩
  | .hbm, ⟨11, _⟩ => ⟨S100000x8, .i32⟩
  | .hbm, ⟨12, _⟩ => ⟨S100000x8, .i32⟩
  | .hbm, ⟨13, _⟩ => ⟨S100000x8, .i32⟩
  | .hbm, ⟨14, _⟩ => ⟨S100000x8x1, .i32⟩
  | .hbm, ⟨15, _⟩ => ⟨S100000x8x128, .f32⟩
  | .hbm, ⟨16, _⟩ => ⟨S_, .f32⟩
  | .hbm, ⟨17, _⟩ => ⟨S_, .f32⟩
  | .hbm, ⟨18, _⟩ => ⟨S100000x8x128, .f32⟩
  | .hbm, ⟨19, _⟩ => ⟨S100000x8x128, .i1⟩
  | .hbm, ⟨20, _⟩ => ⟨S_, .f32⟩
  | .hbm, ⟨21, _⟩ => ⟨S100000x8x128, .f32⟩
  | .hbm, ⟨22, _⟩ => ⟨S100000x8x128, .f32⟩
  | .hbm, ⟨23, _⟩ => ⟨S100000x8x128, .f32⟩
  | .hbm, ⟨24, _⟩ => ⟨S100000x8x1, .f32⟩
  | .hbm, ⟨25, _⟩ => ⟨S100000x8x1, .i1⟩
  | .hbm, ⟨26, _⟩ => ⟨S_, .f32⟩
  | .hbm, ⟨27, _⟩ => ⟨S_, .f32⟩
  | .hbm, ⟨28, _⟩ => ⟨S100000x8x1, .f32⟩
  | .hbm, ⟨29, _⟩ => ⟨S100000x8x1, .f32⟩
  | .hbm, ⟨30, _⟩ => ⟨S_, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x1x1, .f32⟩
  | .hbm, ⟨36, _⟩ => ⟨S100000x8x1, .f32⟩
  | .hbm, ⟨37, _⟩ => ⟨S100000x8x1, .f32⟩
  | .hbm, ⟨38, _⟩ => ⟨S100000x8x1, .f32⟩
  | .hbm, ⟨39, _⟩ => ⟨S_, .f32⟩
  | .hbm, ⟨40, _⟩ => ⟨S100000x1, .f32⟩
  | .hbm, ⟨41, _⟩ => ⟨S100000x1x1, .f32⟩
  | .hbm, ⟨42, _⟩ => ⟨S100000x8x1, .f32⟩
  | .hbm, ⟨43, _⟩ => ⟨S100000x8x1, .f32⟩
  | .hbm, ⟨44, _⟩ => ⟨S100000x8x1, .i1⟩
  | .hbm, ⟨45, _⟩ => ⟨S_, .f32⟩
  | .hbm, ⟨46, _⟩ => ⟨S_, .f32⟩
  | .hbm, ⟨47, _⟩ => ⟨S100000x8x128, .i1⟩
  | .hbm, ⟨48, _⟩ => ⟨S100000x8x128, .f32⟩
  | .hbm, ⟨49, _⟩ => ⟨S100000x8x128, .f32⟩
  | .hbm, ⟨50, _⟩ => ⟨S100000x8x128, .f32⟩
  | .hbm, ⟨51, _⟩ => ⟨S100000x8x128, .f32⟩
  | .hbm, ⟨52, _⟩ => ⟨S_, .f32⟩
  | .hbm, ⟨53, _⟩ => ⟨S8x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_6 : Ref sig .tc := ⟨.hbm, 52, rfl⟩
abbrev main_v27 : Ref sig .tc := ⟨.hbm, 53, rfl⟩

abbrev nD : Nat := 1
abbrev τ : Topo := Topo.v7x

variable {F : FTy → Type} [FloatOps F]

class Facts₀ : Prop where
  bcast_S_S100000x8 : S_.BroadcastsInDim S100000x8 (![] : Fin 0 → Fin S100000x8.rank)
  bcast_S100000x8_S100000x8x1_0_1 : S100000x8.BroadcastsInDim S100000x8x1 (![0, 1] : Fin 2 → Fin S100000x8x1.rank)
  bcast_S_S100000x8x128 : S_.BroadcastsInDim S100000x8x128 (![] : Fin 0 → Fin S100000x8x128.rank)
  bcast_S_S100000x8x1 : S_.BroadcastsInDim S100000x8x1 (![] : Fin 0 → Fin S100000x8x1.rank)
  reducesTo_S100000x8x1_S100000x1_d1 : S100000x8x1.ReducesTo [1] S100000x1
  h_S_ : 0 < S_.numel
  bcast_S_S100000x1 : S_.BroadcastsInDim S100000x1 (![] : Fin 0 → Fin S100000x1.rank)
  bcast_S100000x1_S100000x1x1_0_2 : S100000x1.BroadcastsInDim S100000x1x1 (![0, 2] : Fin 2 → Fin S100000x1x1.rank)
  bcast_S100000x1x1_S100000x8x1_0_1_2 : S100000x1x1.BroadcastsInDim S100000x8x1 (![0, 1, 2] : Fin 3 → Fin S100000x8x1.rank)
  bcast_S100000x8x1_S100000x8x128_0_1_2 : S100000x8x1.BroadcastsInDim S100000x8x128 (![0, 1, 2] : Fin 3 → Fin S100000x8x128.rank)
  reducesTo_S100000x8x128_S8x128_d0 : S100000x8x128.ReducesTo [0] S8x128
  dot_S100000x128_S128x128_S100000x128_1_0_0_1_n_n_wf : DotDims.WF S100000x128 S128x128 S100000x128 [1] [0] [0] [1] [] []
  gather_S100000x128_S100000x8x1_S100000x8x128_2_0_n_n_0_2_1128_wf : GatherDims.WF S100000x128 S100000x8x1 S100000x8x128 [2] [0] [] [0] [] 2 ![1, 128]
  dot_S100000x8x128_S128x1_S100000x8x1_2_0_01_1_n_n_wf : DotDims.WF S100000x8x128 S128x1 S100000x8x1 [2] [0] [0, 1] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S100000x8x1_S100000x8x128_2_0_n_n_0_2_1128 : GatherDims S100000x128 S100000x8x1 S100000x8x128 where
  offsetDims := [2]
  collapsedSliceDims := [0]
  operandBatchingDims := []
  startIndicesBatchingDims := []
  startIndexMap := [0]
  indexVectorDim := 2
  sliceSizes := ![1, 128]
  wf := gather_S100000x128_S100000x8x1_S100000x8x128_2_0_n_n_0_2_1128_wf
def dot_S100000x8x128_S128x1_S100000x8x1_2_0_01_1_n_n : DotDims S100000x8x128 S128x1 S100000x8x1 where
  lhsContracting := [2]
  rhsContracting := [0]
  lhsNonContracting := [0, 1]
  rhsNonContracting := [1]
  lhsBatch := []
  rhsBatch := []
  wf := dot_S100000x8x128_S128x1_S100000x8x1_2_0_01_1_n_n_wf

class Facts : Prop extends Facts₀ where

variable [Facts]
-- ==== Proof.K.Dats.lean ====
/-
  The proof data of the two pipelines and the buffer contents between @main's items.

  Region 0 (grid of 10 row tiles): at tile t the body reads the node tile X_t (10000 x 128), the whole
  weight matrix W and the score vector a, and leaves in its two output buffers the tile's product X_t W
  (kept in the narrow format) and the column of scores  sum_f leaky (X_t W)[r, f] * a[f].
  Region 1 (grid 2 x 5): a scratch accumulator (8 x 128) is carried from point to point; at the first
  point of each half it restarts from zero, at every point it gains  (w tile)^T (Wh tile), and at the
  last point of a half the output block receives the accumulator.
  Between the items every unscoped buffer is known: the launch contents, then each host stretch's
  operations applied, then what a region's write-backs leave in its arrays.
-/
import proofs.«406324_j84542136254541_3_alg».proof.Proof.Gen.Kernel.Launch
import proofs.«406324_j84542136254541_3_alg».proof.Proof.Gen.Kernel.Skeleton
import proofs.«406324_j84542136254541_3_alg».proof.Proof.Gen.Kernel.Points
import Idealize.ShloMosaic.Lib.Pipeline.FrameBody
import Idealize.ShloMosaic.Lib.Pipeline.FrameSuffix
import Idealize.ShloMosaic.Lib.Pipeline.Kit

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions

-- the TensorCore's buffer contents when a region is entered
variable (V : (c : Dev nD) → (b : Ref sig .tc) → Buf (Elt F) ((c : Thread nD τ).loc b))

/-! ## Region 0 -/

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node tile, the weight matrix and the score vector as the body loads them at tile `t`. -/
abbrev nodeBlk (c : Dev nD) (t : Fin cfg0.N) : Vec F S10000x128 .f32 := iblk0 V c 0 t
abbrev wgtBlk (c : Dev nD) (t : Fin cfg0.N) : Vec F S128x128 .f32 := iblk0 V c 1 t
abbrev vecBlk (c : Dev nD) (t : Fin cfg0.N) : Vec F S128 .f32 := iblk0 V c 2 t

/-- Pipeline 0's proof data: the inputs' buffers keep their blocks; the product tile and the score
    column are the body's two stored values of the loaded blocks; nothing is carried between tiles. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (nodeBlk V c t) (wgtBlk V c t)
    | ⟨4, _⟩ => k0_pay2 (nodeBlk V c t) (wgtBlk V c t) (vecBlk V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (nodeBlk V c t) (wgtBlk V c t) := by dsimp only [dat0]
theorem after0_4 (c : Dev nD) (t : Fin cfg0.N) :
    (dat0 V c).after 4 t = k0_pay2 (nodeBlk V c t) (wgtBlk V c t) (vecBlk V c t) := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weight tile (10000 x 8) and the feature tile (10000 x 128) the body loads at point `t`. -/
abbrev wTile (c : Dev nD) (t : Fin cfg1.N) : Vec F S10000x8 .f32 := iblk1 V c 0 t
abbrev whTile (c : Dev nD) (t : Fin cfg1.N) : Vec F S10000x128 .bf16 := iblk1 V c 1 t

/-- The scratch accumulator after point `n`: restarted from zero at the first point of each half
    (n a multiple of 5), otherwise continued from the point before; each point adds its tiles' product. -/
def accAt (c : Dev nD) : (n : ℕ) → n < cfg1.N → Vec F S8x128 .f32
  | 0, hn => k1_pay2 (wTile V c ⟨0, hn⟩) (whTile V c ⟨0, hn⟩) (k1_pay1 (F := F))
  | n + 1, hn =>
    k1_pay2 (wTile V c ⟨n + 1, hn⟩) (whTile V c ⟨n + 1, hn⟩)
      (if (n + 1) % 5 = 0 then (k1_pay1 (F := F)) else accAt c n (Nat.lt_of_succ_lt hn))

theorem accAt_zero (c : Dev nD) (hn : 0 < cfg1.N) :
    accAt V c 0 hn = k1_pay2 (wTile V c ⟨0, hn⟩) (whTile V c ⟨0, hn⟩) (k1_pay1 (F := F)) := rfl
theorem accAt_succ (c : Dev nD) (n : ℕ) (hn : n + 1 < cfg1.N) :
    accAt V c (n + 1) hn = k1_pay2 (wTile V c ⟨n + 1, hn⟩) (whTile V c ⟨n + 1, hn⟩)
      (if (n + 1) % 5 = 0 then (k1_pay1 (F := F)) else accAt V c n (Nat.lt_of_succ_lt hn)) := rfl

/-- The scratch buffer the kernel carries between points. -/
abbrev scM : Memref sig .tc .vmem S8x128 .f32 := Memref.whole cc1_scratch0

/-- The scoped buffers no window of pipeline 1 stages, the scratch apart: each at some contents. -/
abbrev restBut (c : Dev nD) : sProp 𝕄 :=
  Pipeline.scopedRestBut (Ix := Unit) (Name := ℕ) (U := UR sig nD τ) (Lvl := ℕ) (Val := Elt F) spec1 c [cc1_scratch0]

/-- The region invariant before position `n`: before the first point the scoped rest at anything;
    afterwards the scratch at the accumulator the point before left, the other scoped buffers at anything,
    and the generator register. -/
def PhiS (c : Dev nD) : (n : ℕ) → n ≤ cfg1.N → sProp 𝕄
  | 0, _ => Pipeline.ΦA spec1 c
  | n + 1, hn => iprop(owns (c : Thread nD τ) scM fullShare (accAt V c n hn) ∗ restBut (F := F) c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM fullShare (accAt V c n hn) ∗ restBut (F := F) c ∗ (∃ r, prngReg c r)) := rfl
theorem PhiS_pos (c : Dev nD) (n : ℕ) (h : n ≤ cfg1.N) (hz : n ≠ 0) :
    PhiS V c n h = iprop(owns (c : Thread nD τ) scM fullShare (accAt V c (n - 1) (by omega)) ∗ restBut (F := F) c ∗ (∃ r, prngReg c r)) := by
  cases n with
  | zero => exact absurd rfl hz
  | succ n => rfl

/-- Pipeline 1's proof data: the inputs' buffers keep their blocks; the output buffer, where the body
    stores it (the last point of a half), receives the accumulator; the invariant carries the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay3 (accAt V c t.val t.isLt) := by dsimp only [dat1]
theorem PhiS_castSucc (c : Dev nD) (t : Fin cfg1.N) :
    (dat1 V c).Φ t.castSucc = PhiS V c t.val (Nat.le_of_lt t.isLt) := by
  dsimp only [dat1]; simp only [Fin.coe_castSucc]

end Regions

/-! ## The buffer contents at each boundary between @main's items -/

variable (m : (ℓ : Loc nD τ sig) → Buf (Elt F) ℓ)

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the write-backs leave, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After each host stretch between the regions. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
/-- Region 1's entry. -/
abbrev W9 : Dev nD → Valuation τ sig (Elt F) := fun c => StableHlo.after hostOps1_6 (W8 m c)
abbrev V9 : (c : Dev nD) → (b : Ref sig .tc) → Buf (Elt F) ((c : Thread nD τ).loc b) := fun c b => W9 m c b
/-- At region 1's exit. -/
def W10 (c : Dev nD) : Valuation τ sig (Elt F) :=
  Pipeline.withArrays spec1 c (W9 m c) fun w => (dat1 (V9 m) c).arrAt w cfg1.N
abbrev V10 : (c : Dev nD) → (b : Ref sig .tc) → Buf (Elt F) ((c : Thread nD τ).loc b) := fun c b => W10 m c b
/-- After the last host stretch: what @main returns from. -/
abbrev W11 : Dev nD → Valuation τ sig (Elt F) := fun c => StableHlo.after hostOps2 (W10 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W10_arr (c : Dev nD) (w : Fin cfg1.W) :
    W10 m c (Proc.devRef .tc (Pipeline.arrRef spec1 w)) = (dat1 (V9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb

end Cert.Kernel.Hand

end
-- ==== Proof.K.Region0.lean ====
/-
  Region 0's body obligation: at every row tile the body, handed the node tile, the weight matrix and the
  score vector in its input buffers, leaves the product tile and the score column in its output buffers.

  The three inputs' buffers hold their blocks at every tile: the node tile is fetched at each one, and the
  weight matrix and the score vector, fetched once, have a block index that never moves, so the buffer still
  holds the block. The body reads the three buffers whole, reads each output buffer (the value is dropped) and
  then overwrites each output buffer whole with one stored value. A single store that covers a buffer leaves
  exactly its stored value, and a read of a whole buffer is its contents, so the outputs end at the product
  tile in the narrow format and at the score column of the loaded blocks.
-/
import proofs.«406324_j84542136254541_3_alg».proof.Proof.K.Dats
import Idealize.ShloMosaic.Lib.Tactic
import Idealize.ShloMosaic.Lib.Ring
import Idealize.ShloMosaic.Lib.Pipeline.FrameBody
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks at every tile -/

/-- The node tile's buffer holds the tile's block: it is fetched at every tile. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the matrix at every tile: fetched at the first tile, and its block index
    is the same at all of them. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The score vector's buffer holds the vector at every tile, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, from the zero offset -/

abbrev r0_node : Rect S10000x128 := Rect.unit (s := S10000x128) ![0, 0] S10000x128.size inb_S10000x128_S10000x128_0_0
abbrev r0_wgt : Rect S128x128 := Rect.unit (s := S128x128) ![0, 0] S128x128.size inb_S128x128_S128x128_0_0
abbrev r0_vec : Rect S128 := Rect.unit (s := S128) ![0] S128.size inb_S128_S128_0
abbrev r0_col : Rect S10000x1 := Rect.unit (s := S10000x1) ![0, 0] S10000x1.size inb_S10000x1_S10000x1_0_0

/-- The offsets of these accesses are zero along every axis. -/
theorem zero_off0_2 : (![0, 0] : Fin 2 → Nat) = fun _ => 0 := by
  funext a; fin_cases a <;> rfl
theorem zero_off0_1 : (![0] : Fin 1 → Nat) = fun _ => 0 := by
  funext a; fin_cases a; rfl

/-! ## What the body leaves in each output buffer -/

/-- The product tile's buffer after the body: its one store as a piece over the loaded blocks. -/
def out0_3 (x0 : Vec F S10000x128 .f32) (x1 : Vec F S128x128 .f32) : Vec F S10000x128 .bf16 :=
  View.canon [⟨r0_node, k0_pay3 (View.ld x0 r0_node) (View.ld x1 r0_wgt)⟩]

/-- The score column's buffer after the body: its one store as a piece over the loaded blocks. -/
def out0_4 (x0 : Vec F S10000x128 .f32) (x1 : Vec F S128x128 .f32) (x2 : Vec F S128 .f32) : Vec F S10000x1 .f32 :=
  View.canon [⟨r0_col, k0_pay2 (View.ld x0 r0_node) (View.ld x1 r0_wgt) (View.ld x2 r0_vec)⟩]

/-- The one store covers the product tile's buffer. -/
theorem cover0_3 (p0 : Vec F S10000x128 .bf16) (y : S10000x128.Idx) :
    ∃ pc ∈ ([⟨r0_node, p0⟩] : List (View.Piece (Elt F) S10000x128 .bf16)), y ∈ pc.1.set :=
  View.cover_of_tiled [⟨r0_node, p0⟩] S10000x128.size (by rfl) y

/-- The one store covers the score column's buffer. -/
theorem cover0_4 (p0 : Vec F S10000x1 .f32) (y : S10000x1.Idx) :
    ∃ pc ∈ ([⟨r0_col, p0⟩] : List (View.Piece (Elt F) S10000x1 .f32)), y ∈ pc.1.set :=
  View.cover_of_tiled [⟨r0_col, p0⟩] S10000x1.size (by rfl) y

/-- A store of the whole buffer leaves its value, and a load of a whole buffer is its contents: the product
    tile's buffer ends at the narrowed product of the node tile and the weight matrix. -/
theorem out0_3_eq (x0 : Vec F S10000x128 .f32) (x1 : Vec F S128x128 .f32) : out0_3 x0 x1 = k0_pay3 x0 x1 := by
  unfold out0_3
  rw [View.canon_unit_zero zero_off0_2]
  simp only [View.ld_unit_zero (S := S10000x128) zero_off0_2, View.ld_unit_zero (S := S128x128) zero_off0_2]

/-- Likewise the score column's buffer ends at the scores of the node tile, the weight matrix and the vector. -/
theorem out0_4_eq (x0 : Vec F S10000x128 .f32) (x1 : Vec F S128x128 .f32) (x2 : Vec F S128 .f32) :
    out0_4 x0 x1 x2 = k0_pay2 x0 x1 x2 := by
  unfold out0_4
  rw [View.canon_unit_zero zero_off0_2]
  simp only [View.ld_unit_zero (S := S10000x128) zero_off0_2, View.ld_unit_zero (S := S128x128) zero_off0_2,
    View.ld_unit_zero (S := S128) zero_off0_1]

/-! ## The body's triple -/

set_option maxHeartbeats 1000000 in
/-- The body on whole buffers, the inputs' at contents x0, x1, x2 and the outputs' at anything, runs to the
    continuation holding the inputs' as they were and each output's at its one store over the inputs'. -/
theorem sound_kernel0 (c : Dev nD) (E : Set ℕ) (i : grid0.Coords)
    (arg1 : Memref sig .tc .vmem S10000x128 .f32) (harg1 : arg1.IsWhole)
    (arg2 : Memref sig .tc .vmem S128x128 .f32) (harg2 : arg2.IsWhole)
    (arg3 : Memref sig .tc .vmem S128 .f32) (harg3 : arg3.IsWhole)
    (arg4 : Memref sig .tc .vmem S10000x128 .bf16) (harg4 : arg4.IsWhole)
    (arg5 : Memref sig .tc .vmem S10000x1 .f32) (harg5 : arg5.IsWhole)
    (x0 : Vec F S10000x128 .f32) (x1 : Vec F S128x128 .f32) (x2 : Vec F S128 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1)
            ∗ owns (c : Thread nD τ) arg5 fullShare (out0_4 x0 x1 x2)) -∗ K ⟨⟩))
      ⊢ wp frame (wpE (defs₀ (F := F)) Variants.none c none) E
          (cc0__wh_score_kernel i arg1 harg1 arg2 harg2 arg3 harg3 arg4 harg4 arg5 harg5) K := by
  simp only [cc0__wh_score_kernel_eq_skeleton]; unfold cc0__wh_score_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The proof data's buffers at a tile -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the proof data says the body leaves in the product tile's buffer is its one store over the blocks. -/
theorem after0_3_out (c : Dev nD) (t : Fin cfg0.N) :
    (dat0 V c).after 3 t = out0_3 (iblk0 V c 0 t) (iblk0 V c 1 t) :=
  (after0_3 V c t).trans (out0_3_eq (nodeBlk V c t) (wgtBlk V c t)).symm

/-- And in the score column's buffer. -/
theorem after0_4_out (c : Dev nD) (t : Fin cfg0.N) :
    (dat0 V c).after 4 t = out0_4 (iblk0 V c 0 t) (iblk0 V c 1 t) (iblk0 V c 2 t) :=
  (after0_4 V c t).trans (out0_4_eq (nodeBlk V c t) (wgtBlk V c t) (vecBlk V c t)).symm

/-! ## The body obligation, at a generic tile -/

/-- What the body is called with at tile t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any tile: the inputs' buffers hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3_out, after0_4_out]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every tile. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1's body obligation: at every point the body adds its tiles' product to the carried accumulator
  (restarted at the first point of each half) and, at the last point of a half, stores the accumulator into
  the output block; elsewhere the output buffer is handed back as found.
-/
import proofs.«406324_j84542136254541_3_alg».proof.Proof.K.Dats
import Idealize.ShloMosaic.Lib.Tactic
import Idealize.ShloMosaic.Lib.Ring
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions over the grid -/

/-- The first branch's condition, as the body computes it from the second grid coordinate. -/
abbrev cond1_0 (i : grid1.Coords) : Prop :=
  (Scalar.cmpi .ne (Scalar.extui (Scalar.cmpi .eq (BitVec.ofNat 32 (i 1).val) 0#32)) 0#32) = 1#1
/-- It holds exactly at the first point of each half. -/
theorem hcond1_0 : ∀ t : Fin cfg1.N, cond1_0 (grid1.coords t) ↔ t.val % 5 = 0 :=
  (by decide +kernel : ∀ t : Fin grid1.N, cond1_0 (grid1.coords t) ↔ t.val % 5 = 0)

/-- The second branch's condition. -/
abbrev cond1_1 (i : grid1.Coords) : Prop := k1_cond2 i = 1#1
/-- It holds exactly at the last point of each half. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last point of a half the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point of a half it is live. -/
theorem liveAt1_2 : ∀ t : Fin cfg1.N, cond1_1 (grid1.coords t) → cfg1.idle 2 (grid1.coords t) = false := by decide +kernel

/-! ## The staging memrefs at a point -/

abbrev ms1_0 (t : Fin cfg1.N) : Memref sig .tc .vmem S10000x8 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x128 .f32 := win1_2.stage (cfg1.slots t 2)
abbrev hs1_2 (t : Fin cfg1.N) : (ms1_2 t).IsWhole := hstage1_2 ((cfg1.slots t 2).cast nbuf1_2)

/-! ## The inputs' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## Whole-buffer rectangles: the zero offsets, however spelt -/

theorem zero2 : (![0, 0] : Fin 2 → Nat) = fun _ => 0 := by decide
theorem zero3 : (![0, 0, 0] : Fin 3 → Nat) = fun _ => 0 := by decide

/-- A list of stores whose last one is through the whole-buffer rectangle covers the buffer. -/
theorem cover_whole_last {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

/-! ## The class invariant, split at the scratch -/

/-- What the launch hands the region: the scratch at anything, the other scoped buffers at anything, and the
    generator register. -/
theorem PhiA1_eq (c : Dev nD) :
    (Pipeline.ΦA spec1 c : sProp 𝕄)
      = iprop(((∃ d, owns (c : Thread nD τ) scM fullShare d) ∗ restBut (F := F) c) ∗ (∃ r, prngReg c r)) := by
  unfold Pipeline.ΦA restBut
  rw [Pipeline.scopedRest_split_of_list spec1 c [cc1_scratch0] (by decide) (by decide)]
  simp only [bigSepL_singleton, scM, owns_whole]; try rfl

/-! ## The accumulator, point by point -/

/-- At the first point of a half the accumulator restarts: it is this point's product alone. -/
theorem accAt_first (c : Dev nD) (t : Fin cfg1.N) (h0 : t.val % 5 = 0) :
    accAt V c t.val t.isLt = k1_pay2 (wTile V c t) (whTile V c t) (k1_pay1 (F := F)) := by
  obtain ⟨n, hn⟩ := t
  cases n with
  | zero => exact accAt_zero V c hn
  | succ n =>
    dsimp only at h0
    exact (accAt_succ V c n hn).trans (by rw [if_pos h0])

/-- At any other point it is what the point before left, plus this point's product. -/
theorem accAt_next (c : Dev nD) (t : Fin cfg1.N) (h0 : ¬t.val % 5 = 0) :
    accAt V c t.val t.isLt
      = k1_pay2 (wTile V c t) (whTile V c t) (accAt V c (t.val - 1) (Nat.lt_of_le_of_lt (Nat.sub_le _ _) t.isLt)) := by
  obtain ⟨n, hn⟩ := t
  cases n with
  | zero => exact absurd (Nat.zero_mod _) h0
  | succ n =>
    dsimp only at h0
    exact (accAt_succ V c n hn).trans (by rw [if_neg h0]; rfl)

/-! ## The body's run, case by case -/

set_option maxHeartbeats 1000000 in
/-- The body at the first point of a half, on any whole buffers: the two inputs at `x3` and `x6`, the output
    buffer at `xi`, the scratch at anything. The scratch is set to zero, read back, and ends at zero plus the
    product of the tiles; the output buffer is not touched. -/
theorem kernelRun1_A (c : Dev nD) (i : grid1.Coords) (arg2 : Memref sig .tc .vmem S10000x8 .f32) (harg2 : arg2.IsWhole)
    (arg3 : Memref sig .tc .vmem S10000x128 .bf16) (harg3 : arg3.IsWhole)
    (arg4 : Memref sig .tc .vmem S1x8x128 .f32) (harg4 : arg4.IsWhole)
    (arg5 : Memref sig .tc .vmem S8x128 .f32) (harg5 : arg5.IsWhole) (hc0 : cond1_0 i) (hc1 : ¬cond1_1 i)
    (x3 : Vec F S10000x8 .f32) (x6 : Vec F S10000x128 .bf16) (xi : Vec F S1x8x128 .f32) (E : Set ℕ) (K : PUnit → sProp 𝕄) :
    iprop(owns (c : Thread nD τ) arg2 fullShare x3 ∗ owns (c : Thread nD τ) arg3 fullShare x6 ∗ owns (c : Thread nD τ) arg4 fullShare xi ∗ (∃ d, owns (c : Thread nD τ) arg5 fullShare d)
        ∗ (iprop(owns (c : Thread nD τ) arg2 fullShare x3 ∗ owns (c : Thread nD τ) arg3 fullShare x6 ∗ owns (c : Thread nD τ) arg4 fullShare xi ∗ owns (c : Thread nD τ) arg5 fullShare (k1_pay2 x3 x6 (k1_pay1 (F := F)))) -∗ K ⟨⟩))
      ⊢ wp frame (wpE (defs₀ (F := F)) Variants.none c none) E (cc1__final_kernel i arg2 harg2 arg3 harg3 arg4 harg4 arg5 harg5) K := by
  simp only [cc1__final_kernel_eq_skeleton]; unfold cc1__final_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (cover_whole_last zero2 _ _ _), View.canon_cons_unit_zero (S := S8x128) zero2]
  simp only [View.readAt_eq_ld, harg2.read_unread, harg3.read_unread,
    View.ld_unit_zero (S := S10000x8) zero2, View.ld_unit_zero (S := S10000x128) zero2,
    View.readCov_unit_zero (S := S8x128) _ zero2]

set_option maxHeartbeats 1000000 in
/-- The body at a middle point of a half: the scratch at `z` ends at `z` plus the product of the tiles; the
    output buffer is not touched. -/
theorem kernelRun1_B (c : Dev nD) (i : grid1.Coords) (arg2 : Memref sig .tc .vmem S10000x8 .f32) (harg2 : arg2.IsWhole)
    (arg3 : Memref sig .tc .vmem S10000x128 .bf16) (harg3 : arg3.IsWhole)
    (arg4 : Memref sig .tc .vmem S1x8x128 .f32) (harg4 : arg4.IsWhole)
    (arg5 : Memref sig .tc .vmem S8x128 .f32) (harg5 : arg5.IsWhole) (hc0 : ¬cond1_0 i) (hc1 : ¬cond1_1 i)
    (x3 : Vec F S10000x8 .f32) (x6 : Vec F S10000x128 .bf16) (xi : Vec F S1x8x128 .f32) (z : Vec F S8x128 .f32) (E : Set ℕ) (K : PUnit → sProp 𝕄) :
    iprop(owns (c : Thread nD τ) arg2 fullShare x3 ∗ owns (c : Thread nD τ) arg3 fullShare x6 ∗ owns (c : Thread nD τ) arg4 fullShare xi ∗ owns (c : Thread nD τ) arg5 fullShare z
        ∗ (iprop(owns (c : Thread nD τ) arg2 fullShare x3 ∗ owns (c : Thread nD τ) arg3 fullShare x6 ∗ owns (c : Thread nD τ) arg4 fullShare xi ∗ owns (c : Thread nD τ) arg5 fullShare (k1_pay2 x3 x6 z)) -∗ K ⟨⟩))
      ⊢ wp frame (wpE (defs₀ (F := F)) Variants.none c none) E (cc1__final_kernel i arg2 harg2 arg3 harg3 arg4 harg4 arg5 harg5) K := by
  simp only [cc1__final_kernel_eq_skeleton]; unfold cc1__final_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  rw [View.read_writes_eq_canon _ _ _ (cover_whole_last zero2 _ _ _),
    View.canon_unit_zero zero2]
  simp only [View.readAt_eq_ld, harg2.read_unread, harg3.read_unread, harg5.read_unread,
    View.ld_unit_zero (S := S10000x8) zero2, View.ld_unit_zero (S := S10000x128) zero2, View.ld_unit_zero (S := S8x128) zero2]

set_option maxHeartbeats 1000000 in
/-- The body at the last point of a half: the scratch at `z` ends at `z` plus the product of the tiles, and the
    output buffer, whatever it held, ends at that new accumulator as a block of one row. -/
theorem kernelRun1_C (c : Dev nD) (i : grid1.Coords) (arg2 : Memref sig .tc .vmem S10000x8 .f32) (harg2 : arg2.IsWhole)
    (arg3 : Memref sig .tc .vmem S10000x128 .bf16) (harg3 : arg3.IsWhole)
    (arg4 : Memref sig .tc .vmem S1x8x128 .f32) (harg4 : arg4.IsWhole)
    (arg5 : Memref sig .tc .vmem S8x128 .f32) (harg5 : arg5.IsWhole) (hc0 : ¬cond1_0 i) (hc1 : cond1_1 i)
    (x3 : Vec F S10000x8 .f32) (x6 : Vec F S10000x128 .bf16) (z : Vec F S8x128 .f32) (E : Set ℕ) (K : PUnit → sProp 𝕄) :
    iprop(owns (c : Thread nD τ) arg2 fullShare x3 ∗ owns (c : Thread nD τ) arg3 fullShare x6 ∗ (∃ d, owns (c : Thread nD τ) arg4 fullShare d) ∗ owns (c : Thread nD τ) arg5 fullShare z
        ∗ (iprop(owns (c : Thread nD τ) arg2 fullShare x3 ∗ owns (c : Thread nD τ) arg3 fullShare x6 ∗ owns (c : Thread nD τ) arg4 fullShare (k1_pay3 (k1_pay2 x3 x6 z)) ∗ owns (c : Thread nD τ) arg5 fullShare (k1_pay2 x3 x6 z)) -∗ K ⟨⟩))
      ⊢ wp frame (wpE (defs₀ (F := F)) Variants.none c none) E (cc1__final_kernel i arg2 harg2 arg3 harg3 arg4 harg4 arg5 harg5) K := by
  simp only [cc1__final_kernel_eq_skeleton]; unfold cc1__final_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (cover_whole_last zero3 _ _ _), View.canon_unit_zero (S := S1x8x128) zero3]
    simp only [View.readAt_eq_ld, harg2.read_unread, harg3.read_unread, harg5.read_unread,
      View.ld_unit_zero (S := S10000x8) zero2, View.ld_unit_zero (S := S10000x128) zero2, View.ld_unit_zero (S := S8x128) zero2,
      View.readCov_unit_zero (S := S8x128) _ zero2]
  iexists _; isplitr
  swap; · iexact HS0
  ipureintro
  sl_unfold_words
  rw [View.read_writes_eq_canon _ _ _ (cover_whole_last zero2 _ _ _), View.canon_unit_zero (S := S8x128) zero2]
  simp only [View.readAt_eq_ld, harg2.read_unread, harg3.read_unread, harg5.read_unread,
    View.ld_unit_zero (S := S10000x8) zero2, View.ld_unit_zero (S := S10000x128) zero2, View.ld_unit_zero (S := S8x128) zero2]

/-! ## The body obligation at a generic point -/

/-- What the body is called with at point `t`: the invariant, what the core owes, and each window's buffer. -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- What it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The two inputs' buffers hold their tiles. By the point's position in its half:
    at the first point the accumulator restarts (whatever the scratch held: anything at the very first point,
    the previous half's total afterwards) and the output buffer is handed back as found; at a middle point the
    accumulator continues from what the point before left, the output buffer again untouched; at the last point
    it continues likewise and the output buffer receives the new accumulator. The other scoped buffers and the
    generator register pass through; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 10 := lt_of_lt_of_eq t.isLt (show cfg1.N = 10 from N_1)
  by_cases h0 : t.val % 5 = 0
  · have h1 : ¬t.val % 5 = 4 := by omega
    rw [Dat.leavesExact_idle (dat1 V c) 2 t (idleAt1_2 t (fun h => h1 ((hcond1_1 t).mp h))) (noFlush1_2 t (fun h => h1 ((hcond1_1 t).mp h)))]
    rw [accAt_first V c t h0]
    by_cases hz : t.val = 0
    · rw [PhiS_castSucc V c t, PhiS_zero V c _ _ hz, PhiA1_eq]
      iintro ⟨⟨⟨HS0, Hrest⟩, Hg⟩, Ho, ⟨%d0, H0⟩, ⟨%d1, H1⟩, ⟨%d2, H2⟩⟩
      iapply (kernelRun1_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexact HS0
      iintro ⟨H0, H1, H2, HS0⟩
      isplitl [HS0 Hrest Hg]
      · isplitl [HS0]; · iexact HS0
        isplitl [Hrest]; · iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨HS0, Hrest, Hg⟩, Ho, ⟨%d0, H0⟩, ⟨%d1, H1⟩, ⟨%d2, H2⟩⟩
      iapply (kernelRun1_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hrest Hg]
      · isplitl [HS0]; · iexact HS0
        isplitl [Hrest]; · iexact Hrest
        iexact Hg
      isplitl [Ho]; · iexact Ho
      isplitl [H0]; · iexact H0
      isplitl [H1]; · iexact H1
      iexists _; iexact H2
  · have hz : t.val ≠ 0 := fun h => h0 (by rw [h])
    rw [accAt_next V c t h0]
    rw [PhiS_castSucc V c t, PhiS_pos V c _ _ hz]
    by_cases h1 : t.val % 5 = 4
    · rw [show (dat1 V c).leavesExact 2 t = owns (c : Thread nD τ) (ms1_2 t) fullShare ((dat1 V c).after 2 t) from by
        unfold Dat.leavesExact; rw [liveAt1_2 t ((hcond1_1 t).mpr h1)], after1_2]
      rw [accAt_next V c t h0]
      iintro ⟨⟨HS0, Hrest, Hg⟩, Ho, ⟨%d0, H0⟩, ⟨%d1, H1⟩, ⟨%d2, H2⟩⟩
      iapply (kernelRun1_C c (grid1.coords t) _ _ _ _ _ _ _ _ (fun h => h0 ((hcond1_0 t).mp h)) ((hcond1_1 t).mpr h1) (iblk1 V c 0 t) (iblk1 V c 1 t) (accAt V c (t.val - 1) (Nat.lt_of_le_of_lt (Nat.sub_le _ _) t.isLt)) Set.univ _)
      isplitl [H0]; · iexact H0
      isplitl [H1]; · iexact H1
      isplitl [H2]; · iexists _; iexact H2
      isplitl [HS0]; · iexact HS0
      iintro ⟨H0, H1, H2, HS0⟩
      isplitl [HS0 Hrest Hg]
      · isplitl [HS0]; · iexact HS0
        isplitl [Hrest]; · iexact Hrest
        iexact Hg
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      iintro ⟨⟨HS0, Hrest, Hg⟩, Ho, ⟨%d0, H0⟩, ⟨%d1, H1⟩, ⟨%d2, H2⟩⟩
      iapply (kernelRun1_B c (grid1.coords t) _ _ _ _ _ _ _ _ (fun h => h0 ((hcond1_0 t).mp h)) (fun h => h1 ((hcond1_1 t).mp h)) (iblk1 V c 0 t) (iblk1 V c 1 t) _ (accAt V c (t.val - 1) (Nat.lt_of_le_of_lt (Nat.sub_le _ _) t.isLt)) Set.univ _)
      isplitl [H0]; · iexact H0
      isplitl [H1]; · iexact H1
      isplitl [H2]; · iexact H2
      isplitl [HS0]; · iexact HS0
      iintro ⟨H0, H1, H2, HS0⟩
      isplitl [HS0 Hrest Hg]
      · isplitl [HS0]; · iexact HS0
        isplitl [Hrest]; · iexact Hrest
        iexact Hg
      isplitl [Ho]; · iexact Ho
      isplitl [H0]; · iexact H0
      isplitl [H1]; · iexact H1
      iexists _; iexact H2

theorem body_obligation1 (c : Dev nD) :
    BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the scoped rest back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, Hrest, Hg⟩
  isplitl [HS0 Hrest]
  · isplitl [HS0]
    · iexists _; iexact HS0
    iexact Hrest
  iexact Hg

/-- After the last point the invariant gives the scoped rest back: the accumulator's contents are forgotten. -/
theorem hout1 (c : Dev nD) : (dat1 V c).Φ (Fin.last cfg1.N) ⊢ Pipeline.ΦA spec1 c :=
  Phi_out1 V c _ (by rw [Fin.val_last]; have : cfg1.N = 10 := N_1; omega)

end Cert.Kernel.Hand

end
-- ==== Proof.KI.Dats.lean ====
/-
  The proof data of the two pipelines and the buffer contents between @main's items.

  Region 0 (grid of 10 row tiles): at tile t the body reads the node tile X_t (10000 x 128), the whole
  weight matrix W and the score vector a, and leaves in its two output buffers the tile's product X_t W
  (kept in the narrow format) and the column of scores  sum_f leaky (X_t W)[r, f] * a[f].
  Region 1 (grid 2 x 5): a scratch accumulator (8 x 128) is carried from point to point; at the first
  point of each half it restarts from zero, at every point it gains  (w tile)^T (Wh tile), and at the
  last point of a half the output block receives the accumulator.
  Between the items every unscoped buffer is known: the launch contents, then each host stretch's
  operations applied, then what a region's write-backs leave in its arrays.
-/
import proofs.«406324_j84542136254541_3_alg».proof.Proof.Gen.KernelIdeal.Launch
import proofs.«406324_j84542136254541_3_alg».proof.Proof.Gen.KernelIdeal.Skeleton
import proofs.«406324_j84542136254541_3_alg».proof.Proof.Gen.KernelIdeal.Points
import Idealize.ShloMosaic.Lib.Pipeline.FrameBody
import Idealize.ShloMosaic.Lib.Pipeline.FrameSuffix
import Idealize.ShloMosaic.Lib.Pipeline.Kit

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions

-- the TensorCore's buffer contents when a region is entered
variable (V : (c : Dev nD) → (b : Ref sig .tc) → Buf (Elt F) ((c : Thread nD τ).loc b))

/-! ## Region 0 -/

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node tile, the weight matrix and the score vector as the body loads them at tile `t`. -/
abbrev nodeBlk (c : Dev nD) (t : Fin cfg0.N) : Vec F S10000x128 .f32 := iblk0 V c 0 t
abbrev wgtBlk (c : Dev nD) (t : Fin cfg0.N) : Vec F S128x128 .f32 := iblk0 V c 1 t
abbrev vecBlk (c : Dev nD) (t : Fin cfg0.N) : Vec F S128 .f32 := iblk0 V c 2 t

/-- Pipeline 0's proof data: the inputs' buffers keep their blocks; the product tile and the score
    column are the body's two stored values of the loaded blocks; nothing is carried between tiles. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (nodeBlk V c t) (wgtBlk V c t)
    | ⟨4, _⟩ => k0_pay2 (nodeBlk V c t) (wgtBlk V c t) (vecBlk V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (nodeBlk V c t) (wgtBlk V c t) := by dsimp only [dat0]
theorem after0_4 (c : Dev nD) (t : Fin cfg0.N) :
    (dat0 V c).after 4 t = k0_pay2 (nodeBlk V c t) (wgtBlk V c t) (vecBlk V c t) := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weight tile (10000 x 8) and the feature tile (10000 x 128) the body loads at point `t`. -/
abbrev wTile (c : Dev nD) (t : Fin cfg1.N) : Vec F S10000x8 .f32 := iblk1 V c 0 t
abbrev whTile (c : Dev nD) (t : Fin cfg1.N) : Vec F S10000x128 .bf16 := iblk1 V c 1 t

/-- The scratch accumulator after point `n`: restarted from zero at the first point of each half
    (n a multiple of 5), otherwise continued from the point before; each point adds its tiles' product. -/
def accAt (c : Dev nD) : (n : ℕ) → n < cfg1.N → Vec F S8x128 .f32
  | 0, hn => k1_pay2 (wTile V c ⟨0, hn⟩) (whTile V c ⟨0, hn⟩) (k1_pay1 (F := F))
  | n + 1, hn =>
    k1_pay2 (wTile V c ⟨n + 1, hn⟩) (whTile V c ⟨n + 1, hn⟩)
      (if (n + 1) % 5 = 0 then (k1_pay1 (F := F)) else accAt c n (Nat.lt_of_succ_lt hn))

theorem accAt_zero (c : Dev nD) (hn : 0 < cfg1.N) :
    accAt V c 0 hn = k1_pay2 (wTile V c ⟨0, hn⟩) (whTile V c ⟨0, hn⟩) (k1_pay1 (F := F)) := rfl
theorem accAt_succ (c : Dev nD) (n : ℕ) (hn : n + 1 < cfg1.N) :
    accAt V c (n + 1) hn = k1_pay2 (wTile V c ⟨n + 1, hn⟩) (whTile V c ⟨n + 1, hn⟩)
      (if (n + 1) % 5 = 0 then (k1_pay1 (F := F)) else accAt V c n (Nat.lt_of_succ_lt hn)) := rfl

/-- The scratch buffer the kernel carries between points. -/
abbrev scM : Memref sig .tc .vmem S8x128 .f32 := Memref.whole cc1_scratch0

/-- The scoped buffers no window of pipeline 1 stages, the scratch apart: each at some contents. -/
abbrev restBut (c : Dev nD) : sProp 𝕄 :=
  Pipeline.scopedRestBut (Ix := Unit) (Name := ℕ) (U := UR sig nD τ) (Lvl := ℕ) (Val := Elt F) spec1 c [cc1_scratch0]

/-- The region invariant before position `n`: before the first point the scoped rest at anything;
    afterwards the scratch at the accumulator the point before left, the other scoped buffers at anything,
    and the generator register. -/
def PhiS (c : Dev nD) : (n : ℕ) → n ≤ cfg1.N → sProp 𝕄
  | 0, _ => Pipeline.ΦA spec1 c
  | n + 1, hn => iprop(owns (c : Thread nD τ) scM fullShare (accAt V c n hn) ∗ restBut (F := F) c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM fullShare (accAt V c n hn) ∗ restBut (F := F) c ∗ (∃ r, prngReg c r)) := rfl
theorem PhiS_pos (c : Dev nD) (n : ℕ) (h : n ≤ cfg1.N) (hz : n ≠ 0) :
    PhiS V c n h = iprop(owns (c : Thread nD τ) scM fullShare (accAt V c (n - 1) (by omega)) ∗ restBut (F := F) c ∗ (∃ r, prngReg c r)) := by
  cases n with
  | zero => exact absurd rfl hz
  | succ n => rfl

/-- Pipeline 1's proof data: the inputs' buffers keep their blocks; the output buffer, where the body
    stores it (the last point of a half), receives the accumulator; the invariant carries the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay3 (accAt V c t.val t.isLt) := by dsimp only [dat1]
theorem PhiS_castSucc (c : Dev nD) (t : Fin cfg1.N) :
    (dat1 V c).Φ t.castSucc = PhiS V c t.val (Nat.le_of_lt t.isLt) := by
  dsimp only [dat1]; simp only [Fin.coe_castSucc]

end Regions

/-! ## The buffer contents at each boundary between @main's items -/

variable (m : (ℓ : Loc nD τ sig) → Buf (Elt F) ℓ)

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the write-backs leave, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After each host stretch between the regions. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
/-- Region 1's entry. -/
abbrev W9 : Dev nD → Valuation τ sig (Elt F) := fun c => StableHlo.after hostOps1_6 (W8 m c)
abbrev V9 : (c : Dev nD) → (b : Ref sig .tc) → Buf (Elt F) ((c : Thread nD τ).loc b) := fun c b => W9 m c b
/-- At region 1's exit. -/
def W10 (c : Dev nD) : Valuation τ sig (Elt F) :=
  Pipeline.withArrays spec1 c (W9 m c) fun w => (dat1 (V9 m) c).arrAt w cfg1.N
abbrev V10 : (c : Dev nD) → (b : Ref sig .tc) → Buf (Elt F) ((c : Thread nD τ).loc b) := fun c b => W10 m c b
/-- After the last host stretch: what @main returns from. -/
abbrev W11 : Dev nD → Valuation τ sig (Elt F) := fun c => StableHlo.after hostOps2 (W10 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W10_arr (c : Dev nD) (w : Fin cfg1.W) :
    W10 m c (Proc.devRef .tc (Pipeline.arrRef spec1 w)) = (dat1 (V9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb

end Cert.KernelIdeal.Hand

end
-- ==== Proof.KI.Region0.lean ====
/-
  Region 0's body obligation: at every row tile the body, handed the node tile, the weight matrix and the
  score vector in its input buffers, leaves the product tile and the score column in its output buffers.

  The three inputs' buffers hold their blocks at every tile: the node tile is fetched at each one, and the
  weight matrix and the score vector, fetched once, have a block index that never moves, so the buffer still
  holds the block. The body reads the three buffers whole, reads each output buffer (the value is dropped) and
  then overwrites each output buffer whole with one stored value. A single store that covers a buffer leaves
  exactly its stored value, and a read of a whole buffer is its contents, so the outputs end at the product
  tile in the narrow format and at the score column of the loaded blocks.
-/
import proofs.«406324_j84542136254541_3_alg».proof.Proof.KI.Dats
import Idealize.ShloMosaic.Lib.Tactic
import Idealize.ShloMosaic.Lib.Ring
import Idealize.ShloMosaic.Lib.Pipeline.FrameBody
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks at every tile -/

/-- The node tile's buffer holds the tile's block: it is fetched at every tile. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the matrix at every tile: fetched at the first tile, and its block index
    is the same at all of them. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The score vector's buffer holds the vector at every tile, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, from the zero offset -/

abbrev r0_node : Rect S10000x128 := Rect.unit (s := S10000x128) ![0, 0] S10000x128.size inb_S10000x128_S10000x128_0_0
abbrev r0_wgt : Rect S128x128 := Rect.unit (s := S128x128) ![0, 0] S128x128.size inb_S128x128_S128x128_0_0
abbrev r0_vec : Rect S128 := Rect.unit (s := S128) ![0] S128.size inb_S128_S128_0
abbrev r0_col : Rect S10000x1 := Rect.unit (s := S10000x1) ![0, 0] S10000x1.size inb_S10000x1_S10000x1_0_0

/-- The offsets of these accesses are zero along every axis. -/
theorem zero_off0_2 : (![0, 0] : Fin 2 → Nat) = fun _ => 0 := by
  funext a; fin_cases a <;> rfl
theorem zero_off0_1 : (![0] : Fin 1 → Nat) = fun _ => 0 := by
  funext a; fin_cases a; rfl

/-! ## What the body leaves in each output buffer -/

/-- The product tile's buffer after the body: its one store as a piece over the loaded blocks. -/
def out0_3 (x0 : Vec F S10000x128 .f32) (x1 : Vec F S128x128 .f32) : Vec F S10000x128 .bf16 :=
  View.canon [⟨r0_node, k0_pay3 (View.ld x0 r0_node) (View.ld x1 r0_wgt)⟩]

/-- The score column's buffer after the body: its one store as a piece over the loaded blocks. -/
def out0_4 (x0 : Vec F S10000x128 .f32) (x1 : Vec F S128x128 .f32) (x2 : Vec F S128 .f32) : Vec F S10000x1 .f32 :=
  View.canon [⟨r0_col, k0_pay2 (View.ld x0 r0_node) (View.ld x1 r0_wgt) (View.ld x2 r0_vec)⟩]

/-- The one store covers the product tile's buffer. -/
theorem cover0_3 (p0 : Vec F S10000x128 .bf16) (y : S10000x128.Idx) :
    ∃ pc ∈ ([⟨r0_node, p0⟩] : List (View.Piece (Elt F) S10000x128 .bf16)), y ∈ pc.1.set :=
  View.cover_of_tiled [⟨r0_node, p0⟩] S10000x128.size (by rfl) y

/-- The one store covers the score column's buffer. -/
theorem cover0_4 (p0 : Vec F S10000x1 .f32) (y : S10000x1.Idx) :
    ∃ pc ∈ ([⟨r0_col, p0⟩] : List (View.Piece (Elt F) S10000x1 .f32)), y ∈ pc.1.set :=
  View.cover_of_tiled [⟨r0_col, p0⟩] S10000x1.size (by rfl) y

/-- A store of the whole buffer leaves its value, and a load of a whole buffer is its contents: the product
    tile's buffer ends at the narrowed product of the node tile and the weight matrix. -/
theorem out0_3_eq (x0 : Vec F S10000x128 .f32) (x1 : Vec F S128x128 .f32) : out0_3 x0 x1 = k0_pay3 x0 x1 := by
  unfold out0_3
  rw [View.canon_unit_zero zero_off0_2]
  simp only [View.ld_unit_zero (S := S10000x128) zero_off0_2, View.ld_unit_zero (S := S128x128) zero_off0_2]

/-- Likewise the score column's buffer ends at the scores of the node tile, the weight matrix and the vector. -/
theorem out0_4_eq (x0 : Vec F S10000x128 .f32) (x1 : Vec F S128x128 .f32) (x2 : Vec F S128 .f32) :
    out0_4 x0 x1 x2 = k0_pay2 x0 x1 x2 := by
  unfold out0_4
  rw [View.canon_unit_zero zero_off0_2]
  simp only [View.ld_unit_zero (S := S10000x128) zero_off0_2, View.ld_unit_zero (S := S128x128) zero_off0_2,
    View.ld_unit_zero (S := S128) zero_off0_1]

/-! ## The body's triple -/

set_option maxHeartbeats 1000000 in
/-- The body on whole buffers, the inputs' at contents x0, x1, x2 and the outputs' at anything, runs to the
    continuation holding the inputs' as they were and each output's at its one store over the inputs'. -/
theorem sound_kernel0 (c : Dev nD) (E : Set ℕ) (i : grid0.Coords)
    (arg1 : Memref sig .tc .vmem S10000x128 .f32) (harg1 : arg1.IsWhole)
    (arg2 : Memref sig .tc .vmem S128x128 .f32) (harg2 : arg2.IsWhole)
    (arg3 : Memref sig .tc .vmem S128 .f32) (harg3 : arg3.IsWhole)
    (arg4 : Memref sig .tc .vmem S10000x128 .bf16) (harg4 : arg4.IsWhole)
    (arg5 : Memref sig .tc .vmem S10000x1 .f32) (harg5 : arg5.IsWhole)
    (x0 : Vec F S10000x128 .f32) (x1 : Vec F S128x128 .f32) (x2 : Vec F S128 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1)
            ∗ owns (c : Thread nD τ) arg5 fullShare (out0_4 x0 x1 x2)) -∗ K ⟨⟩))
      ⊢ wp frame (wpE (defs₀ (F := F)) Variants.none c none) E
          (cc0__wh_score_kernel i arg1 harg1 arg2 harg2 arg3 harg3 arg4 harg4 arg5 harg5) K := by
  simp only [cc0__wh_score_kernel_eq_skeleton]; unfold cc0__wh_score_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The proof data's buffers at a tile -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the proof data says the body leaves in the product tile's buffer is its one store over the blocks. -/
theorem after0_3_out (c : Dev nD) (t : Fin cfg0.N) :
    (dat0 V c).after 3 t = out0_3 (iblk0 V c 0 t) (iblk0 V c 1 t) :=
  (after0_3 V c t).trans (out0_3_eq (nodeBlk V c t) (wgtBlk V c t)).symm

/-- And in the score column's buffer. -/
theorem after0_4_out (c : Dev nD) (t : Fin cfg0.N) :
    (dat0 V c).after 4 t = out0_4 (iblk0 V c 0 t) (iblk0 V c 1 t) (iblk0 V c 2 t) :=
  (after0_4 V c t).trans (out0_4_eq (nodeBlk V c t) (wgtBlk V c t) (vecBlk V c t)).symm

/-! ## The body obligation, at a generic tile -/

/-- What the body is called with at tile t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any tile: the inputs' buffers hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3_out, after0_4_out]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every tile. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1's body obligation: at every point the body adds its tiles' product to the carried accumulator
  (restarted at the first point of each half) and, at the last point of a half, stores the accumulator into
  the output block; elsewhere the output buffer is handed back as found.
-/
import proofs.«406324_j84542136254541_3_alg».proof.Proof.KI.Dats
import Idealize.ShloMosaic.Lib.Tactic
import Idealize.ShloMosaic.Lib.Ring
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions over the grid -/

/-- The first branch's condition, as the body computes it from the second grid coordinate. -/
abbrev cond1_0 (i : grid1.Coords) : Prop :=
  (Scalar.cmpi .ne (Scalar.extui (Scalar.cmpi .eq (BitVec.ofNat 32 (i 1).val) 0#32)) 0#32) = 1#1
/-- It holds exactly at the first point of each half. -/
theorem hcond1_0 : ∀ t : Fin cfg1.N, cond1_0 (grid1.coords t) ↔ t.val % 5 = 0 :=
  (by decide +kernel : ∀ t : Fin grid1.N, cond1_0 (grid1.coords t) ↔ t.val % 5 = 0)

/-- The second branch's condition. -/
abbrev cond1_1 (i : grid1.Coords) : Prop := k1_cond2 i = 1#1
/-- It holds exactly at the last point of each half. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last point of a half the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point of a half it is live. -/
theorem liveAt1_2 : ∀ t : Fin cfg1.N, cond1_1 (grid1.coords t) → cfg1.idle 2 (grid1.coords t) = false := by decide +kernel

/-! ## The staging memrefs at a point -/

abbrev ms1_0 (t : Fin cfg1.N) : Memref sig .tc .vmem S10000x8 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x128 .f32 := win1_2.stage (cfg1.slots t 2)
abbrev hs1_2 (t : Fin cfg1.N) : (ms1_2 t).IsWhole := hstage1_2 ((cfg1.slots t 2).cast nbuf1_2)

/-! ## The inputs' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## Whole-buffer rectangles: the zero offsets, however spelt -/

theorem zero2 : (![0, 0] : Fin 2 → Nat) = fun _ => 0 := by decide
theorem zero3 : (![0, 0, 0] : Fin 3 → Nat) = fun _ => 0 := by decide

/-- A list of stores whose last one is through the whole-buffer rectangle covers the buffer. -/
theorem cover_whole_last {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

/-! ## The class invariant, split at the scratch -/

/-- What the launch hands the region: the scratch at anything, the other scoped buffers at anything, and the
    generator register. -/
theorem PhiA1_eq (c : Dev nD) :
    (Pipeline.ΦA spec1 c : sProp 𝕄)
      = iprop(((∃ d, owns (c : Thread nD τ) scM fullShare d) ∗ restBut (F := F) c) ∗ (∃ r, prngReg c r)) := by
  unfold Pipeline.ΦA restBut
  rw [Pipeline.scopedRest_split_of_list spec1 c [cc1_scratch0] (by decide) (by decide)]
  simp only [bigSepL_singleton, scM, owns_whole]; try rfl

/-! ## The accumulator, point by point -/

/-- At the first point of a half the accumulator restarts: it is this point's product alone. -/
theorem accAt_first (c : Dev nD) (t : Fin cfg1.N) (h0 : t.val % 5 = 0) :
    accAt V c t.val t.isLt = k1_pay2 (wTile V c t) (whTile V c t) (k1_pay1 (F := F)) := by
  obtain ⟨n, hn⟩ := t
  cases n with
  | zero => exact accAt_zero V c hn
  | succ n =>
    dsimp only at h0
    exact (accAt_succ V c n hn).trans (by rw [if_pos h0])

/-- At any other point it is what the point before left, plus this point's product. -/
theorem accAt_next (c : Dev nD) (t : Fin cfg1.N) (h0 : ¬t.val % 5 = 0) :
    accAt V c t.val t.isLt
      = k1_pay2 (wTile V c t) (whTile V c t) (accAt V c (t.val - 1) (Nat.lt_of_le_of_lt (Nat.sub_le _ _) t.isLt)) := by
  obtain ⟨n, hn⟩ := t
  cases n with
  | zero => exact absurd (Nat.zero_mod _) h0
  | succ n =>
    dsimp only at h0
    exact (accAt_succ V c n hn).trans (by rw [if_neg h0]; rfl)

/-! ## The body's run, case by case -/

set_option maxHeartbeats 1000000 in
/-- The body at the first point of a half, on any whole buffers: the two inputs at `x3` and `x6`, the output
    buffer at `xi`, the scratch at anything. The scratch is set to zero, read back, and ends at zero plus the
    product of the tiles; the output buffer is not touched. -/
theorem kernelRun1_A (c : Dev nD) (i : grid1.Coords) (arg2 : Memref sig .tc .vmem S10000x8 .f32) (harg2 : arg2.IsWhole)
    (arg3 : Memref sig .tc .vmem S10000x128 .bf16) (harg3 : arg3.IsWhole)
    (arg4 : Memref sig .tc .vmem S1x8x128 .f32) (harg4 : arg4.IsWhole)
    (arg5 : Memref sig .tc .vmem S8x128 .f32) (harg5 : arg5.IsWhole) (hc0 : cond1_0 i) (hc1 : ¬cond1_1 i)
    (x3 : Vec F S10000x8 .f32) (x6 : Vec F S10000x128 .bf16) (xi : Vec F S1x8x128 .f32) (E : Set ℕ) (K : PUnit → sProp 𝕄) :
    iprop(owns (c : Thread nD τ) arg2 fullShare x3 ∗ owns (c : Thread nD τ) arg3 fullShare x6 ∗ owns (c : Thread nD τ) arg4 fullShare xi ∗ (∃ d, owns (c : Thread nD τ) arg5 fullShare d)
        ∗ (iprop(owns (c : Thread nD τ) arg2 fullShare x3 ∗ owns (c : Thread nD τ) arg3 fullShare x6 ∗ owns (c : Thread nD τ) arg4 fullShare xi ∗ owns (c : Thread nD τ) arg5 fullShare (k1_pay2 x3 x6 (k1_pay1 (F := F)))) -∗ K ⟨⟩))
      ⊢ wp frame (wpE (defs₀ (F := F)) Variants.none c none) E (cc1__final_kernel i arg2 harg2 arg3 harg3 arg4 harg4 arg5 harg5) K := by
  simp only [cc1__final_kernel_eq_skeleton]; unfold cc1__final_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (cover_whole_last zero2 _ _ _), View.canon_cons_unit_zero (S := S8x128) zero2]
  simp only [View.readAt_eq_ld, harg2.read_unread, harg3.read_unread,
    View.ld_unit_zero (S := S10000x8) zero2, View.ld_unit_zero (S := S10000x128) zero2,
    View.readCov_unit_zero (S := S8x128) _ zero2]

set_option maxHeartbeats 1000000 in
/-- The body at a middle point of a half: the scratch at `z` ends at `z` plus the product of the tiles; the
    output buffer is not touched. -/
theorem kernelRun1_B (c : Dev nD) (i : grid1.Coords) (arg2 : Memref sig .tc .vmem S10000x8 .f32) (harg2 : arg2.IsWhole)
    (arg3 : Memref sig .tc .vmem S10000x128 .bf16) (harg3 : arg3.IsWhole)
    (arg4 : Memref sig .tc .vmem S1x8x128 .f32) (harg4 : arg4.IsWhole)
    (arg5 : Memref sig .tc .vmem S8x128 .f32) (harg5 : arg5.IsWhole) (hc0 : ¬cond1_0 i) (hc1 : ¬cond1_1 i)
    (x3 : Vec F S10000x8 .f32) (x6 : Vec F S10000x128 .bf16) (xi : Vec F S1x8x128 .f32) (z : Vec F S8x128 .f32) (E : Set ℕ) (K : PUnit → sProp 𝕄) :
    iprop(owns (c : Thread nD τ) arg2 fullShare x3 ∗ owns (c : Thread nD τ) arg3 fullShare x6 ∗ owns (c : Thread nD τ) arg4 fullShare xi ∗ owns (c : Thread nD τ) arg5 fullShare z
        ∗ (iprop(owns (c : Thread nD τ) arg2 fullShare x3 ∗ owns (c : Thread nD τ) arg3 fullShare x6 ∗ owns (c : Thread nD τ) arg4 fullShare xi ∗ owns (c : Thread nD τ) arg5 fullShare (k1_pay2 x3 x6 z)) -∗ K ⟨⟩))
      ⊢ wp frame (wpE (defs₀ (F := F)) Variants.none c none) E (cc1__final_kernel i arg2 harg2 arg3 harg3 arg4 harg4 arg5 harg5) K := by
  simp only [cc1__final_kernel_eq_skeleton]; unfold cc1__final_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  rw [View.read_writes_eq_canon _ _ _ (cover_whole_last zero2 _ _ _),
    View.canon_unit_zero zero2]
  simp only [View.readAt_eq_ld, harg2.read_unread, harg3.read_unread, harg5.read_unread,
    View.ld_unit_zero (S := S10000x8) zero2, View.ld_unit_zero (S := S10000x128) zero2, View.ld_unit_zero (S := S8x128) zero2]

set_option maxHeartbeats 1000000 in
/-- The body at the last point of a half: the scratch at `z` ends at `z` plus the product of the tiles, and the
    output buffer, whatever it held, ends at that new accumulator as a block of one row. -/
theorem kernelRun1_C (c : Dev nD) (i : grid1.Coords) (arg2 : Memref sig .tc .vmem S10000x8 .f32) (harg2 : arg2.IsWhole)
    (arg3 : Memref sig .tc .vmem S10000x128 .bf16) (harg3 : arg3.IsWhole)
    (arg4 : Memref sig .tc .vmem S1x8x128 .f32) (harg4 : arg4.IsWhole)
    (arg5 : Memref sig .tc .vmem S8x128 .f32) (harg5 : arg5.IsWhole) (hc0 : ¬cond1_0 i) (hc1 : cond1_1 i)
    (x3 : Vec F S10000x8 .f32) (x6 : Vec F S10000x128 .bf16) (z : Vec F S8x128 .f32) (E : Set ℕ) (K : PUnit → sProp 𝕄) :
    iprop(owns (c : Thread nD τ) arg2 fullShare x3 ∗ owns (c : Thread nD τ) arg3 fullShare x6 ∗ (∃ d, owns (c : Thread nD τ) arg4 fullShare d) ∗ owns (c : Thread nD τ) arg5 fullShare z
        ∗ (iprop(owns (c : Thread nD τ) arg2 fullShare x3 ∗ owns (c : Thread nD τ) arg3 fullShare x6 ∗ owns (c : Thread nD τ) arg4 fullShare (k1_pay3 (k1_pay2 x3 x6 z)) ∗ owns (c : Thread nD τ) arg5 fullShare (k1_pay2 x3 x6 z)) -∗ K ⟨⟩))
      ⊢ wp frame (wpE (defs₀ (F := F)) Variants.none c none) E (cc1__final_kernel i arg2 harg2 arg3 harg3 arg4 harg4 arg5 harg5) K := by
  simp only [cc1__final_kernel_eq_skeleton]; unfold cc1__final_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (cover_whole_last zero3 _ _ _), View.canon_unit_zero (S := S1x8x128) zero3]
    simp only [View.readAt_eq_ld, harg2.read_unread, harg3.read_unread, harg5.read_unread,
      View.ld_unit_zero (S := S10000x8) zero2, View.ld_unit_zero (S := S10000x128) zero2, View.ld_unit_zero (S := S8x128) zero2,
      View.readCov_unit_zero (S := S8x128) _ zero2]
  iexists _; isplitr
  swap; · iexact HS0
  ipureintro
  sl_unfold_words
  rw [View.read_writes_eq_canon _ _ _ (cover_whole_last zero2 _ _ _), View.canon_unit_zero (S := S8x128) zero2]
  simp only [View.readAt_eq_ld, harg2.read_unread, harg3.read_unread, harg5.read_unread,
    View.ld_unit_zero (S := S10000x8) zero2, View.ld_unit_zero (S := S10000x128) zero2, View.ld_unit_zero (S := S8x128) zero2]

/-! ## The body obligation at a generic point -/

/-- What the body is called with at point `t`: the invariant, what the core owes, and each window's buffer. -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- What it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The two inputs' buffers hold their tiles. By the point's position in its half:
    at the first point the accumulator restarts (whatever the scratch held: anything at the very first point,
    the previous half's total afterwards) and the output buffer is handed back as found; at a middle point the
    accumulator continues from what the point before left, the output buffer again untouched; at the last point
    it continues likewise and the output buffer receives the new accumulator. The other scoped buffers and the
    generator register pass through; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 10 := lt_of_lt_of_eq t.isLt (show cfg1.N = 10 from N_1)
  by_cases h0 : t.val % 5 = 0
  · have h1 : ¬t.val % 5 = 4 := by omega
    rw [Dat.leavesExact_idle (dat1 V c) 2 t (idleAt1_2 t (fun h => h1 ((hcond1_1 t).mp h))) (noFlush1_2 t (fun h => h1 ((hcond1_1 t).mp h)))]
    rw [accAt_first V c t h0]
    by_cases hz : t.val = 0
    · rw [PhiS_castSucc V c t, PhiS_zero V c _ _ hz, PhiA1_eq]
      iintro ⟨⟨⟨HS0, Hrest⟩, Hg⟩, Ho, ⟨%d0, H0⟩, ⟨%d1, H1⟩, ⟨%d2, H2⟩⟩
      iapply (kernelRun1_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexact HS0
      iintro ⟨H0, H1, H2, HS0⟩
      isplitl [HS0 Hrest Hg]
      · isplitl [HS0]; · iexact HS0
        isplitl [Hrest]; · iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨HS0, Hrest, Hg⟩, Ho, ⟨%d0, H0⟩, ⟨%d1, H1⟩, ⟨%d2, H2⟩⟩
      iapply (kernelRun1_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hrest Hg]
      · isplitl [HS0]; · iexact HS0
        isplitl [Hrest]; · iexact Hrest
        iexact Hg
      isplitl [Ho]; · iexact Ho
      isplitl [H0]; · iexact H0
      isplitl [H1]; · iexact H1
      iexists _; iexact H2
  · have hz : t.val ≠ 0 := fun h => h0 (by rw [h])
    rw [accAt_next V c t h0]
    rw [PhiS_castSucc V c t, PhiS_pos V c _ _ hz]
    by_cases h1 : t.val % 5 = 4
    · rw [show (dat1 V c).leavesExact 2 t = owns (c : Thread nD τ) (ms1_2 t) fullShare ((dat1 V c).after 2 t) from by
        unfold Dat.leavesExact; rw [liveAt1_2 t ((hcond1_1 t).mpr h1)], after1_2]
      rw [accAt_next V c t h0]
      iintro ⟨⟨HS0, Hrest, Hg⟩, Ho, ⟨%d0, H0⟩, ⟨%d1, H1⟩, ⟨%d2, H2⟩⟩
      iapply (kernelRun1_C c (grid1.coords t) _ _ _ _ _ _ _ _ (fun h => h0 ((hcond1_0 t).mp h)) ((hcond1_1 t).mpr h1) (iblk1 V c 0 t) (iblk1 V c 1 t) (accAt V c (t.val - 1) (Nat.lt_of_le_of_lt (Nat.sub_le _ _) t.isLt)) Set.univ _)
      isplitl [H0]; · iexact H0
      isplitl [H1]; · iexact H1
      isplitl [H2]; · iexists _; iexact H2
      isplitl [HS0]; · iexact HS0
      iintro ⟨H0, H1, H2, HS0⟩
      isplitl [HS0 Hrest Hg]
      · isplitl [HS0]; · iexact HS0
        isplitl [Hrest]; · iexact Hrest
        iexact Hg
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      iintro ⟨⟨HS0, Hrest, Hg⟩, Ho, ⟨%d0, H0⟩, ⟨%d1, H1⟩, ⟨%d2, H2⟩⟩
      iapply (kernelRun1_B c (grid1.coords t) _ _ _ _ _ _ _ _ (fun h => h0 ((hcond1_0 t).mp h)) (fun h => h1 ((hcond1_1 t).mp h)) (iblk1 V c 0 t) (iblk1 V c 1 t) _ (accAt V c (t.val - 1) (Nat.lt_of_le_of_lt (Nat.sub_le _ _) t.isLt)) Set.univ _)
      isplitl [H0]; · iexact H0
      isplitl [H1]; · iexact H1
      isplitl [H2]; · iexact H2
      isplitl [HS0]; · iexact HS0
      iintro ⟨H0, H1, H2, HS0⟩
      isplitl [HS0 Hrest Hg]
      · isplitl [HS0]; · iexact HS0
        isplitl [Hrest]; · iexact Hrest
        iexact Hg
      isplitl [Ho]; · iexact Ho
      isplitl [H0]; · iexact H0
      isplitl [H1]; · iexact H1
      iexists _; iexact H2

theorem body_obligation1 (c : Dev nD) :
    BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the scoped rest back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, Hrest, Hg⟩
  isplitl [HS0 Hrest]
  · isplitl [HS0]
    · iexists _; iexact HS0
    iexact Hrest
  iexact Hg

/-- After the last point the invariant gives the scoped rest back: the accumulator's contents are forgotten. -/
theorem hout1 (c : Dev nD) : (dat1 V c).Φ (Fin.last cfg1.N) ⊢ Pipeline.ΦA spec1 c :=
  Phi_out1 V c _ (by rw [Fin.val_last]; have : cfg1.N = 10 := N_1; omega)

end Cert.KernelIdeal.Hand

end
-- ==== Proof.Spec.lean ====
/-
  The mathematics of the two programs, as functions of the argument arrays, index by index.

  X is the node feature matrix (100000 x 128), W the weight matrix (128 x 128), a the score vector (128 x 1),
  idx the table of each hyperedge's eight member nodes, mask which of the eight slots are in use.
    H = X W                                   the projected features
    score n = sum_f leaky (H[n, f]) a[f]      one number per node (the leaky rectifier's slope is the printed 0.2)
    logit m j = score (member j of edge m) where the slot is in use, the printed fill value elsewhere
    att m j = exp (logit m j - max_j) / sum_j exp (logit m j - max_j)     a softmax along the eight slots
  The reference sums, over the edges m, att m j times the member's feature row (zero where the slot is unused).
  The kernel first adds up, per node n and slot j, the attention of every edge whose slot j holds n (zero where
  unused), and then sums, over the nodes n, that weight times the node's feature row.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SNode : Shape := ⟨2, ![100000, 128]⟩
abbrev SEdge : Shape := ⟨2, ![100000, 8]⟩
abbrev SWgt : Shape := ⟨2, ![128, 128]⟩
abbrev SVec : Shape := ⟨2, ![128, 1]⟩
abbrev SOut : Shape := ⟨2, ![8, 128]⟩

/-- The rectifier's slope, the fill value of unused slots and the maximum's starting value, as printed. -/
abbrev slope : EReal := Ideal.ofBits .f32 0x3E4CCCCD#32
abbrev fillv : EReal := Ideal.ofBits .f32 0xD9FFCB9E#32
abbrev ninf : EReal := Ideal.ofBits .f32 0xFF800000#32

/-- Every entry of the table names a node: read signed it lies in [0, 100000). -/
def InRange (idx : SEdge.Idx → BitVec 32) : Prop :=
  ∀ (m : Fin 100000) (j : Fin 8), 0 ≤ (idx (ix2 m j)).toInt ∧ (idx (ix2 m j)).toInt < 100000

/-- Every entry of an array is a real number. -/
def AllReal {s : Shape} (v : s.Idx → EReal) : Prop := ∀ i, ∃ r : ℝ, v i = (r : EReal)

section

variable (X : SNode.Idx → EReal) (W : SWgt.Idx → EReal) (a : SVec.Idx → EReal)
variable (idx : SEdge.Idx → BitVec 32) (mask : SEdge.Idx → BitVec 1)

/-- H[n, f]. -/
def feat (n : Fin 100000) (f : Fin 128) : EReal := ∑ k : Fin 128, X (ix2 n k) * W (ix2 k f)

/-- The rectifier as the kernel spells it (v where v > 0) and as the reference does (v where v >= 0). -/
def leakyK (v : EReal) : EReal := Scalar.select (Ideal.cmp .ogt v 0) v (slope * v)
def leakyR (v : EReal) : EReal := Scalar.select (Ideal.cmp .oge v 0) v (slope * v)

/-- A node's score, either spelling. -/
def scoreK (n : Fin 100000) : EReal := ∑ f : Fin 128, leakyK (feat X W n f) * a (ix2 f 0)
def scoreR (n : Fin 100000) : EReal := ∑ f : Fin 128, leakyR (feat X W n f) * a (ix2 f 0)

/-- The node slot j of edge m names. -/
def nodeOf (m : Fin 100000) (j : Fin 8) : Fin 100000 :=
  ⟨(idx (ix2 m j)).toNat % 100000, Nat.mod_lt _ (by decide)⟩

def logitK (m : Fin 100000) (j : Fin 8) : EReal :=
  Scalar.select (mask (ix2 m j)) (scoreK X W a (nodeOf idx m j)) fillv
def logitR (m : Fin 100000) (j : Fin 8) : EReal :=
  Scalar.select (mask (ix2 m j)) (scoreR X W a (nodeOf idx m j)) fillv

end

/-- The softmax along the eight slots, of any table of logits. -/
def rowMax (s : Fin 100000 → Fin 8 → EReal) (m : Fin 100000) : EReal :=
  max ninf ((Finset.univ : Finset (Fin 8)).fold max ninf (s m))
def rowDen (s : Fin 100000 → Fin 8 → EReal) (m : Fin 100000) : EReal :=
  ∑ j : Fin 8, Ideal.exp (s m j - rowMax s m)
def att (s : Fin 100000 → Fin 8 → EReal) (m : Fin 100000) (j : Fin 8) : EReal :=
  Ideal.div (Ideal.exp (s m j - rowMax s m)) (rowDen s m)

section

variable (X : SNode.Idx → EReal) (W : SWgt.Idx → EReal) (a : SVec.Idx → EReal)
variable (idx : SEdge.Idx → BitVec 32) (mask : SEdge.Idx → BitVec 1)

/-- The kernel's weight table: per node n and slot j, the attention of every edge whose slot j holds n. -/
def wgt (n : Fin 100000) (j : Fin 8) : EReal :=
  ∑ m ∈ (Finset.univ : Finset (Fin 100000)).filter (fun m => nodeOf idx m j = n),
    Scalar.select (mask (ix2 m j)) (att (logitK X W a idx mask) m j) 0

/-- What the kernel returns. -/
def kernelOut : SOut.Idx → EReal := fun i =>
  ∑ n : Fin 100000, wgt X W a idx mask n ⟨(i 0).val, idx2_lt0 i⟩ * feat X W n ⟨(i 1).val, idx2_lt1 i⟩

/-- What the reference returns. -/
def refOut : SOut.Idx → EReal := fun i =>
  ∑ m : Fin 100000, att (logitR X W a idx mask) m ⟨(i 0).val, idx2_lt0 i⟩
    * Scalar.select (mask (ix2 m ⟨(i 0).val, idx2_lt0 i⟩))
        (feat X W (nodeOf idx m ⟨(i 0).val, idx2_lt0 i⟩) ⟨(i 1).val, idx2_lt1 i⟩) 0

end

end Cert.Spec

end
-- ==== Proof.KI.Args.lean ====
/-
  The argument arrays of a launch memory at the ideal values, each at its literal shape.
-/
import proofs.«406324_j84542136254541_3_alg».proof.Proof.KI.Dats
import proofs.«406324_j84542136254541_3_alg».proof.Proof.Spec

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ)

abbrev argX (c : Dev nD) : Cert.Spec.SNode.Idx → EReal := m ((c : Thread nD τ).loc main_arg0)
abbrev argIdx (c : Dev nD) : Cert.Spec.SEdge.Idx → BitVec 32 := m ((c : Thread nD τ).loc main_arg2)
abbrev argMask (c : Dev nD) : Cert.Spec.SEdge.Idx → BitVec 1 := m ((c : Thread nD τ).loc main_arg3)
abbrev argW (c : Dev nD) : Cert.Spec.SWgt.Idx → EReal := m ((c : Thread nD τ).loc main_arg4)
abbrev argA (c : Dev nD) : Cert.Spec.SVec.Idx → EReal := m ((c : Thread nD τ).loc main_arg5)

/-- The buffers the regions and the host stretches pass on, each at its literal shape. -/
abbrev featArr (c : Dev nD) : S100000x128.Idx → EReal := (dat0 (F := Ideal) (V1 m) c).arrAt 3 cfg0.N
abbrev scoreArr (c : Dev nD) : S100000x1.Idx → EReal := (dat0 (F := Ideal) (V1 m) c).arrAt 4 cfg0.N
abbrev wgtArr (c : Dev nD) : S100000x8.Idx → EReal := W9 (F := Ideal) m c (Proc.devRef .tc main_v41)
abbrev halvesArr (c : Dev nD) : S2x8x128.Idx → EReal := (dat1 (F := Ideal) (V9 m) c).arrAt 2 cfg1.N
abbrev resultArr (c : Dev nD) : S8x128.Idx → EReal := W11 (F := Ideal) m c (Proc.devRef .tc main_v47)

end Cert.KernelIdeal.Val

end
-- ==== Proof.LibMatProduct.lean ====
/-
  The row-by-column product of two matrices over the extended reals, as one function of the two arrays index by index,
  and the three places it is met: the host's dot_general at the plain dimension numbers (rows by contraction, times
  contraction by columns); a matrix unit's product accumulated into a zero splat; and a product of two BLOCKS (a band of
  rows of the left matrix, a band of columns of the right one), which is the corresponding block of the whole product
  because the contracted axis is not cut. Also: multiplying by a transposed matrix is contracting with its columns.
-/
import Idealize.ShloMosaic.Lib.StackMember
import Idealize.ShloMosaic.Lib.ValueLayout

noncomputable section

namespace Cert.Lib.MatProduct

open Idealize.ShloMosaic Idealize.ShloMosaic.ValueIdx

variable {M K N : Nat}

/-- (l r)[a, b] is the sum over k of l[a, k] r[k, b]. -/
def matProd (l : (⟨2, ![M, K]⟩ : Shape).Idx → EReal) (r : (⟨2, ![K, N]⟩ : Shape).Idx → EReal) :
    (⟨2, ![M, N]⟩ : Shape).Idx → EReal :=
  fun i => ∑ k : Fin K, l (ix2 ⟨(i 0).val, idx2_lt0 i⟩ k) * r (ix2 k ⟨(i 1).val, idx2_lt1 i⟩)

theorem matProd_ix2 (l : (⟨2, ![M, K]⟩ : Shape).Idx → EReal) (r : (⟨2, ![K, N]⟩ : Shape).Idx → EReal) (a : Fin M) (b : Fin N) :
    matProd l r (ix2 a b) = ∑ k : Fin K, l (ix2 a k) * r (ix2 k b) := rfl

/-- The host's plain dot_general, at the ideal values, is the product. -/
theorem dotGeneral_plain_eq {φ₁ φ₂ : FTy} (prec : Option ContractPrecision) (A : FVec Ideal ⟨2, ![M, K]⟩ φ₁)
    (B : FVec Ideal ⟨2, ![K, N]⟩ φ₂) : Host.dotGeneral (DotDims.plain M K N) prec A B = matProd A B := by
  funext i
  obtain ⟨a, b, rfl⟩ : ∃ (a : Fin M) (b : Fin N), i = ix2 a b := ⟨i 0, i 1, eq_ix2 i⟩
  rw [StackMember.dotGeneral_plain_apply, matProd_ix2]

/-- A matrix unit's plain product into the zero splat, at the ideal values, is the product. -/
theorem matmul_plain_zero_eq {φ₁ φ₂ : FTy} (prec : Option ContractPrecision) (A : FVec Ideal ⟨2, ![M, K]⟩ φ₁)
    (B : FVec Ideal ⟨2, ![K, N]⟩ φ₂) :
    matmul (DotDims.plain M K N) prec A B (constant ⟨2, ![M, N]⟩ .f32 0x00000000#32) = matProd A B := by
  rw [matmul_zero_eq_dotGeneral, dotGeneral_plain_eq]

/-- A band of rows times a band of columns is the block of the whole product: if the left block's row p is row a of l and
    the right block's column q is column b of r, entry (p, q) of the blocks' product is entry (a, b) of l r. -/
theorem matProd_block {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (p : Fin M') (q : Fin N') (a : Fin M) (b : Fin N)
    (hl : ∀ k : Fin K, l' (ix2 p k) = l (ix2 a k)) (hr : ∀ k : Fin K, r' (ix2 k q) = r (ix2 k b)) :
    matProd l' r' (ix2 p q) = matProd l r (ix2 a b) := by
  rw [matProd_ix2, matProd_ix2]
  exact Finset.sum_congr rfl fun k _ => by rw [hl k, hr k]

/-- The same at any two indices: the blocks' product at j is the whole product at i as soon as row (j 0) of the left
    block is row (i 0) of l and column (j 1) of the right block is column (i 1) of r. -/
theorem matProd_block_idx {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j : (⟨2, ![M', N']⟩ : Shape).Idx) (i : (⟨2, ![M, N]⟩ : Shape).Idx)
    (hl : ∀ k : Fin K, l' (ix2 ⟨(j 0).val, idx2_lt0 j⟩ k) = l (ix2 ⟨(i 0).val, idx2_lt0 i⟩ k))
    (hr : ∀ k : Fin K, r' (ix2 k ⟨(j 1).val, idx2_lt1 j⟩) = r (ix2 k ⟨(i 1).val, idx2_lt1 i⟩)) :
    matProd l' r' j = matProd l r i := by
  unfold matProd
  exact Finset.sum_congr rfl fun k _ => by rw [hl k, hr k]

/-- Two right factors that are each other's transposes entry by entry give the same product. -/
theorem matProd_congr_right (l : (⟨2, ![M, K]⟩ : Shape).Idx → EReal) (r r' : (⟨2, ![K, N]⟩ : Shape).Idx → EReal)
    (h : ∀ (k : Fin K) (b : Fin N), r (ix2 k b) = r' (ix2 k b)) : matProd l r = matProd l r' := by
  funext i
  obtain ⟨a, b, rfl⟩ : ∃ (a : Fin M) (b : Fin N), i = ix2 a b := ⟨i 0, i 1, eq_ix2 i⟩
  rw [matProd_ix2, matProd_ix2]
  exact Finset.sum_congr rfl fun k _ => by rw [h k b]

end Cert.Lib.MatProduct

end
-- ==== Proof.KI.Val0.lean ====
/-
  What region 0 leaves in its two arrays, entry by entry: the projected features H = X W (row n of tile t is
  node t * 10000 + n) and each node's score.

  The grid has ten points. Point t reads rows t * 10000 … t * 10000 + 9999 of X (all 128 columns), the whole of W and
  the whole score vector a (a is the 128 x 1 argument laid out as 128 numbers), and writes the same band of rows of the
  two outputs. Entry (p, f) of the band's product is sum_k X[t * 10000 + p, k] W[k, f], because the contracted axis is
  not cut; entry p of the band's score column is sum_f leaky (that product) * a[f]. So every point writes its band of ONE
  function of the whole arrays, and since the bands cover all 100000 rows (row r lies in band r / 10000) the arrays end
  holding that function.
-/
import proofs.«406324_j84542136254541_3_alg».proof.Proof.KI.Args
import proofs.«406324_j84542136254541_3_alg».proof.Proof.LibMatProduct
import Idealize.ShloMosaic.Lib.Pipeline.Value
import Idealize.ShloMosaic.PureOps.Ideal.Laws
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand
open Idealize.ShloMosaic.Pipeline (Dat)
open Cert.Lib.MatProduct

variable (m : (ℓ : Loc nD τ sig) → Buf (Elt Ideal) ℓ)

namespace R0

/-! ## The body's arithmetic at an index, for any loaded tiles -/

/-- A product accumulated from zero, with rows contracted against columns, is the row-by-column product. -/
theorem pay1_eq (x : FVec Ideal S10000x128 .f32) (w : FVec Ideal S128x128 .f32) :
    k0_pay1 (F := Ideal) x w = matProd x w := by
  unfold k0_pay1
  exact matmul_plain_zero_eq none x w

/-- Narrowing the format changes no value, so the stored product tile at (p, f) is sum_k x[p, k] w[k, f]. -/
theorem pay3_apply (x : FVec Ideal S10000x128 .f32) (w : FVec Ideal S128x128 .f32) (p : Fin 10000) (f : Fin 128) :
    (k0_pay3 (F := Ideal) x w (ix2 p f) : EReal) = ∑ k : Fin 128, x (ix2 p k) * w (ix2 k f) := by
  unfold k0_pay3
  show k0_pay1 (F := Ideal) x w (ix2 p f) = _
  rw [pay1_eq, matProd_ix2]

/-- Putting lane k back into the row index p gives the matrix index (p, k). -/
theorem lift_lane (h : S10000x128.Reduces [1] S10000) (p : Fin 10000) (k : Fin (S10000x128.size 1)) :
    h.lift (ix1 p) k = ix2 p (⟨k.val, k.isLt⟩ : Fin 128) := by
  funext c; apply Fin.ext
  fin_cases c <;> rfl

/-- The score vector laid out as one row and copied down the 10000 rows reads a[f] at (p, f). -/
theorem vec_row (a : FVec Ideal S128 .f32) (p : Fin 10000) (f : Fin 128) :
    broadcastTo S10000x128 (shapeCast S1x128 (shapeCast S128 a shapeCasts_S128_S128) shapeCasts_S128_S1x128)
      broadcasts_S1x128_S10000x128 (ix2 p f) = a (ix1 f) := by
  rw [broadcastTo_1b_ab_apply, shapeCast_a_1a_apply, shapeCast_self]

/-- The stored score column at row p: the sum over the 128 lanes of the rectified product times the score vector.
    The sum starts from zero, and zero is also what the rectifier compares with. -/
theorem pay2_apply (x : FVec Ideal S10000x128 .f32) (w : FVec Ideal S128x128 .f32) (a : FVec Ideal S128 .f32)
    (p : Fin 10000) (u : Fin 1) :
    (k0_pay2 (F := Ideal) x w a (ix2 p u) : EReal)
      = ∑ f : Fin 128, Cert.Spec.leakyK (∑ k : Fin 128, x (ix2 p k) * w (ix2 k f)) * a (ix1 f) := by
  unfold k0_pay2
  refine (shapeCast_apply _ _ (ix2 p u) (ix1 p) ?_).trans ?_
  · rw [Shape.rowMajor_val_one, Shape.rowMajor_val_two]
    show p.val = p.val * 1 + u.val
    omega
  refine (Ideal.multiReduction_add_single _ 0x00000000#32 reduces_S10000x128_S10000 (.inl rfl) rfl (ix1 p)).trans ?_
  refine Finset.sum_congr rfl fun f _ => ?_
  rw [lift_lane]
  show Scalar.select (Ideal.cmp .ogt (k0_pay1 (F := Ideal) x w (ix2 p ⟨f.val, f.isLt⟩)) (Ideal.ofBits .f32 0x00000000#32))
        (k0_pay1 (F := Ideal) x w (ix2 p ⟨f.val, f.isLt⟩))
        (Ideal.ofBits .f32 0x3E4CCCCD#32 * k0_pay1 (F := Ideal) x w (ix2 p ⟨f.val, f.isLt⟩))
      * broadcastTo S10000x128 (shapeCast S1x128 (shapeCast S128 a shapeCasts_S128_S128) shapeCasts_S128_S1x128)
          broadcasts_S1x128_S10000x128 (ix2 p ⟨f.val, f.isLt⟩) = _
  rw [vec_row, pay1_eq, matProd_ix2, Ideal.ofBits_zero_f32]
  rfl

/-! ## Where each point's tiles sit in the arrays -/

/-- The block numbers at point t: the node tile and both output tiles are band t of their arrays (column block 0);
    the weight matrix and the score vector are always block 0, that is, whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The one host operation before the region only lays a out as 128 numbers: X is as at launch, -/
theorem V1_arg0 (c : Dev nD) : (V1 m c main_arg0 : S100000x128.Idx → EReal) = argX m c := by
  show StableHlo.after hostOps0 _ (Proc.devRef .tc main_arg0) = _
  after_results

/-- so is W, -/
theorem V1_arg4 (c : Dev nD) : (V1 m c main_arg4 : S128x128.Idx → EReal) = argW m c := by
  show StableHlo.after hostOps0 _ (Proc.devRef .tc main_arg4) = _
  after_results

/-- and the vector the region reads is a, its 128 x 1 entries in the same order. -/
theorem V1_v0 (c : Dev nD) :
    (V1 m c main_v0 : S128.Idx → EReal) = shapeCast S128 (argA m c) shapeCasts_S128x1_S128 := by
  show StableHlo.after hostOps0 _ (Proc.devRef .tc main_v0) = _
  after_results
  rfl

/-- Row p of the node tile at point t is row t * 10000 + p of X. -/
theorem nodeBlk_apply (c : Dev nD) (t : Fin cfg0.N) (p : Fin 10000) (k : Fin 128) (n : Fin 100000)
    (hn : n.val = t.val * 10000 + p.val) :
    (nodeBlk (V1 m) c t : S10000x128.Idx → EReal) (ix2 p k) = argX m c (ix2 n k) := by
  obtain ⟨e0, e1, -⟩ := idx_facts0 t
  unfold nodeBlk iblk0
  rw [View.read_apply]
  show (V1 m c main_arg0 : S100000x128.Idx → EReal) _ = argX m c _
  refine (congrFun (V1_arg0 m c) _).trans (congrArg (argX m c) ?_)
  funext a
  apply Fin.ext
  match a with
  | ⟨0, _⟩ => show win0_0.index t (0 : Fin 2) * 10000 + 1 * p.val = n.val; rw [e0, hn]; omega
  | ⟨1, _⟩ => show win0_0.index t (1 : Fin 2) * 128 + 1 * k.val = k.val; rw [e1]; omega

/-- The weight tile is W at every point. -/
theorem wgtBlk_apply (c : Dev nD) (t : Fin cfg0.N) (k f : Fin 128) :
    (wgtBlk (V1 m) c t : S128x128.Idx → EReal) (ix2 k f) = argW m c (ix2 k f) := by
  obtain ⟨-, -, e2, e3, -⟩ := idx_facts0 t
  unfold wgtBlk iblk0
  rw [View.read_apply]
  show (V1 m c main_arg4 : S128x128.Idx → EReal) _ = argW m c _
  refine (congrFun (V1_arg4 m c) _).trans (congrArg (argW m c) ?_)
  funext a
  apply Fin.ext
  match a with
  | ⟨0, _⟩ => show win0_1.index t (0 : Fin 2) * 128 + 1 * k.val = k.val; rw [e2]; omega
  | ⟨1, _⟩ => show win0_1.index t (1 : Fin 2) * 128 + 1 * f.val = f.val; rw [e3]; omega

/-- The vector tile at every point is a: its entry f is a[f, 0] (the same position counted along the rows). -/
theorem vecBlk_apply (c : Dev nD) (t : Fin cfg0.N) (f : Fin 128) :
    (vecBlk (V1 m) c t : S128.Idx → EReal) (ix1 f) = argA m c (ix2 f (0 : Fin 1)) := by
  obtain ⟨-, -, -, -, e4, -⟩ := idx_facts0 t
  unfold vecBlk iblk0
  rw [View.read_apply]
  show (V1 m c main_v0 : S128.Idx → EReal) _ = argA m c _
  refine (congrFun (V1_v0 m c) _).trans ?_
  refine shapeCast_apply _ _ _ (ix2 f (0 : Fin 1)) ?_
  rw [Shape.rowMajor_val_two, Shape.rowMajor_val_one]
  show f.val * 1 + 0 = win0_2.index t (0 : Fin 1) * 128 + 1 * f.val
  rw [e4]; omega

/-! ## The two arrays as functions of the whole argument arrays -/

/-- H at an array index. -/
def featG (c : Dev nD) : S100000x128.Idx → EReal := fun i =>
  Cert.Spec.feat (argX m c) (argW m c) ⟨(i 0).val, idx2_lt0 i⟩ ⟨(i 1).val, idx2_lt1 i⟩

/-- The score column at an array index. -/
def scoreG (c : Dev nD) : S100000x1.Idx → EReal := fun i =>
  Cert.Spec.scoreK (argX m c) (argW m c) (argA m c) ⟨(i 0).val, idx2_lt0 i⟩

/-- Entry j of point t's product tile is H at the array index i that lies j inside band t. -/
theorem pay3_blk (c : Dev nD) (t : Fin cfg0.N) (j : S10000x128.Idx) (i : S100000x128.Idx)
    (h0 : (i 0).val = t.val * 10000 + (j 0).val) (h1 : (i 1).val = (j 1).val) :
    (k0_pay3 (F := Ideal) (nodeBlk (V1 m) c t) (wgtBlk (V1 m) c t) j : EReal) = featG m c i := by
  obtain ⟨p, f, rfl⟩ : ∃ (p : Fin 10000) (f : Fin 128), j = ix2 p f := ⟨j 0, j 1, eq_ix2 j⟩
  refine (pay3_apply (nodeBlk (V1 m) c t) (wgtBlk (V1 m) c t) p f).trans ?_
  unfold featG Cert.Spec.feat
  refine Finset.sum_congr rfl fun k _ => ?_
  have hf : f = ⟨(i 1).val, idx2_lt1 i⟩ := Fin.ext h1.symm
  rw [nodeBlk_apply m c t p k ⟨(i 0).val, idx2_lt0 i⟩ h0, wgtBlk_apply m c t k f, hf]

/-- Entry j of point t's score column is the score of the node whose row lies j inside band t. -/
theorem pay2_blk (c : Dev nD) (t : Fin cfg0.N) (j : S10000x1.Idx) (i : S100000x1.Idx)
    (h0 : (i 0).val = t.val * 10000 + (j 0).val) :
    (k0_pay2 (F := Ideal) (nodeBlk (V1 m) c t) (wgtBlk (V1 m) c t) (vecBlk (V1 m) c t) j : EReal) = scoreG m c i := by
  obtain ⟨p, u, rfl⟩ : ∃ (p : Fin 10000) (u : Fin 1), j = ix2 p u := ⟨j 0, j 1, eq_ix2 j⟩
  refine (pay2_apply (nodeBlk (V1 m) c t) (wgtBlk (V1 m) c t) (vecBlk (V1 m) c t) p u).trans ?_
  unfold scoreG Cert.Spec.scoreK Cert.Spec.feat
  refine Finset.sum_congr rfl fun f _ => ?_
  rw [vecBlk_apply m c t f]
  congr 2
  refine Finset.sum_congr rfl fun k _ => ?_
  rw [nodeBlk_apply m c t p k ⟨(i 0).val, idx2_lt0 i⟩ h0, wgtBlk_apply m c t k f]

/-! ## What each point writes back is its band of the whole-array function -/

theorem flushed3_eq (c : Dev nD) (t : Fin cfg0.N) :
    (dat0 (V1 m) c).flushed 3 t = ((cfg0.win 3).blk t).view.read (Elt Ideal) (featG m c) := by
  obtain ⟨-, -, -, -, -, e5, e6, -⟩ := idx_facts0 t
  show (cfg0.win 3).cut (grid0.coords t) ((dat0 (V1 m) c).after 3 t) = _
  rw [after0_3]
  funext j
  rw [View.read_apply]
  refine pay3_blk m c t j _ ?_ ?_
  · show win0_3.index t (0 : Fin 2) * 10000 + 1 * (j 0).val = t.val * 10000 + (j 0).val
    rw [e5]; omega
  · show win0_3.index t (1 : Fin 2) * 128 + 1 * (j 1).val = (j 1).val
    rw [e6]; omega

theorem flushed4_eq (c : Dev nD) (t : Fin cfg0.N) :
    (dat0 (V1 m) c).flushed 4 t = ((cfg0.win 4).blk t).view.read (Elt Ideal) (scoreG m c) := by
  obtain ⟨-, -, -, -, -, -, -, e7, e8⟩ := idx_facts0 t
  show (cfg0.win 4).cut (grid0.coords t) ((dat0 (V1 m) c).after 4 t) = _
  rw [after0_4]
  funext j
  rw [View.read_apply]
  refine pay2_blk m c t j _ ?_
  show win0_4.index t (0 : Fin 2) * 10000 + 1 * (j 0).val = t.val * 10000 + (j 0).val
  rw [e7]; omega

/-! ## The cover: row r lies in the band of point r / 10000 -/

/-- An index is in point t's band of the feature array iff each coordinate is in the band's range on its axis. -/
theorem mem_blk3 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v1_0).slice (win0_3.rect t)).set ↔ _
  rw [View.set_slice_whole, Rect.mem_set_unit]
  exact Iff.rfl

/-- The same for the score column. -/
theorem mem_blk4 (t : Fin cfg0.N) (i : S100000x1.Idx) :
    i ∈ ((cfg0.win 4).blk t).view.set ↔ ∀ a : Fin 2, win0_4.index t a * S10000x1.size a ≤ (i a).val ∧ (i a).val < win0_4.index t a * S10000x1.size a + S10000x1.size a := by
  show i ∈ ((View.whole main_v1_1).slice (win0_4.rect t)).set ↔ _
  rw [View.set_slice_whole, Rect.mem_set_unit]
  exact Iff.rfl

/-- Every index of the feature array is written by some point: 10000 (r / 10000) ≤ r < 10000 (r / 10000) + 10000. -/
theorem cover3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by show _ < grid0.N; rw [N_0]; omega⟩, rfl⟩
  obtain ⟨-, -, -, -, -, e5, e6, -⟩ := idx_facts0 t
  refine ⟨t, flush0_3 t, ?_⟩
  rw [mem_blk3]
  intro a
  match a with
  | ⟨0, _⟩ =>
    show win0_3.index t (0 : Fin 2) * 10000 ≤ (i 0).val ∧ (i 0).val < win0_3.index t (0 : Fin 2) * 10000 + 10000
    rw [e5, ht]; omega
  | ⟨1, _⟩ =>
    show win0_3.index t (1 : Fin 2) * 128 ≤ (i 1).val ∧ (i 1).val < win0_3.index t (1 : Fin 2) * 128 + 128
    rw [e6]; omega

/-- Every index of the score column is written by some point. -/
theorem cover4 (i : S100000x1.Idx) :
    ∃ t : Fin cfg0.N, (cfg0.win 4).flush t = true ∧ i ∈ ((cfg0.win 4).blk t).view.set := by
  have hi0 : (i 0).val < 100000 := (i 0).isLt
  have hi1 : (i 1).val < 1 := (i 1).isLt
  obtain ⟨t, ht⟩ : ∃ t : Fin cfg0.N, t.val = (i 0).val / 10000 :=
    ⟨⟨(i 0).val / 10000, by show _ < grid0.N; rw [N_0]; omega⟩, rfl⟩
  obtain ⟨-, -, -, -, -, -, -, e7, e8⟩ := idx_facts0 t
  refine ⟨t, flush0_4 t, ?_⟩
  rw [mem_blk4]
  intro a
  match a with
  | ⟨0, _⟩ =>
    show win0_4.index t (0 : Fin 2) * 10000 ≤ (i 0).val ∧ (i 0).val < win0_4.index t (0 : Fin 2) * 10000 + 10000
    rw [e7, ht]; omega
  | ⟨1, _⟩ =>
    show win0_4.index t (1 : Fin 2) * 1 ≤ (i 1).val ∧ (i 1).val < win0_4.index t (1 : Fin 2) * 1 + 1
    rw [e8]; omega

/-! ## The arrays after the region -/

/-- Every point writes its band of H and the bands cover the array: the feature array ends holding H. -/
theorem featArr_all (c : Dev nD) : featArr m c = featG m c :=
  (dat0 (F := Ideal) (V1 m) c).arrAt_eq_of_cover 3 (featG m c) (fun t _ => flushed3_eq m c t) cover3

/-- Likewise the score column ends holding every node's score. -/
theorem scoreArr_all (c : Dev nD) : scoreArr m c = scoreG m c :=
  (dat0 (F := Ideal) (V1 m) c).arrAt_eq_of_cover 4 (scoreG m c) (fun t _ => flushed4_eq m c t) cover4

end R0

open R0

/-- The feature array after region 0 holds H. -/
theorem featArr_eq (c : Dev nD) (n : Fin 100000) (f : Fin 128) :
    featArr m c (ix2 n f) = Cert.Spec.feat (argX m c) (argW m c) n f :=
  (congrFun (featArr_all m c) (ix2 n f)).trans rfl

/-- The score column after region 0 holds each node's score (the kernel's spelling of the rectifier). -/
theorem scoreArr_eq (c : Dev nD) (n : Fin 100000) :
    scoreArr m c (ix2 n 0) = Cert.Spec.scoreK (argX m c) (argW m c) (argA m c) n :=
  (congrFun (scoreArr_all m c) (ix2 n 0)).trans rfl

end Cert.KernelIdeal.Val

end
-- ==== Proof.LibScatterPair.lean ====
/-
  A host scatter-add whose scatter indices are (row, column) PAIRS into a matrix, every update one element (no window
  axes): jax's M.at[rows, cols].add(vals) for index arrays rows, cols and values vals of one shape [R, C], the pairs
  laid along a last axis of extent two.

  At the ideal values the result at an element is the operand there plus the sum of the updates whose pair IS that
  element. So update (t, j) lands on (a, b) exactly when the pair's first component, read signed, is a and its second
  is b (an out-of-range pair lands nowhere); and the same updates scattered at the SWAPPED pairs, into an operand that
  is the transpose, give the transposed result, in particular when the two index arrays are concatenated in the other
  order.
-/
import Idealize.ShloMosaic.PureOps.Ideal
import Idealize.ShloMosaic.PureOps.Contract
import Idealize.ShloMosaic.Lib.ValueIdx
import Idealize.ShloMosaic.Lib.Pipeline.Value

noncomputable section

namespace Cert.Lib.ScatterPair

open Idealize.ShloMosaic Idealize.ShloMosaic.ValueIdx

variable {P Q R C w : Nat}

/-- The dimension numbers of M.at[rows, cols].add(vals): no update window axis, both operand axes inserted, the pair's
    components going to operand axes 0 and 1, the pair along scatter-indices axis 2. -/
abbrev pairDims (P Q R C : Nat) (wf : ScatterDims.WF ⟨2, ![P, Q]⟩ ⟨3, ![R, C, 2]⟩ ⟨2, ![R, C]⟩ [] [0, 1] [0, 1] 2) :
    ScatterDims ⟨2, ![P, Q]⟩ ⟨3, ![R, C, 2]⟩ ⟨2, ![R, C]⟩ where
  updateWindowDims := []
  insertedWindowDims := [0, 1]
  scatterDimsToOperandDims := [0, 1]
  indexVectorDim := 2
  wf := wf

/-- Where update (t, j) reads component c of its pair: [t, j, c]. -/
abbrev pairIdx (y : (⟨2, ![R, C]⟩ : Shape).Idx) (c : Fin 2) : (⟨3, ![R, C, 2]⟩ : Shape).Idx :=
  fun a => match a with | ⟨0, _⟩ => ⟨(y 0).val, idx2_lt0 y⟩ | ⟨1, _⟩ => ⟨(y 1).val, idx2_lt1 y⟩ | ⟨2, _⟩ => c

variable (wf : ScatterDims.WF ⟨2, ![P, Q]⟩ ⟨3, ![R, C, 2]⟩ ⟨2, ![R, C]⟩ [] [0, 1] [0, 1] 2)

/-- The start on operand axis 0 is the pair's first component, read signed. -/
theorem start_zero (y : (⟨2, ![R, C]⟩ : Shape).Idx) (idx : IVec ⟨3, ![R, C, 2]⟩ w) :
    (pairDims P Q R C wf).start y idx 0 = (idx (pairIdx y 0)).toInt := by
  unfold ScatterDims.start
  rw [dif_pos (show (0 : Fin 2) ∈ (pairDims P Q R C wf).scatterDimsToOperandDims from List.mem_cons_self)]
  refine congrArg (fun i => (idx i).toInt) (funext fun b => Fin.ext ?_)
  match b with
  | ⟨0, _⟩ => rfl
  | ⟨1, _⟩ => rfl
  | ⟨2, _⟩ => rfl

/-- The start on operand axis 1 is the pair's second component, read signed. -/
theorem start_one (y : (⟨2, ![R, C]⟩ : Shape).Idx) (idx : IVec ⟨3, ![R, C, 2]⟩ w) :
    (pairDims P Q R C wf).start y idx 1 = (idx (pairIdx y 1)).toInt := by
  unfold ScatterDims.start
  rw [dif_pos (show (1 : Fin 2) ∈ (pairDims P Q R C wf).scatterDimsToOperandDims from
    List.mem_cons_of_mem _ List.mem_cons_self)]
  refine congrArg (fun i => (idx i).toInt) (funext fun b => Fin.ext ?_)
  match b with
  | ⟨0, _⟩ => rfl
  | ⟨1, _⟩ => rfl
  | ⟨2, _⟩ => rfl

/-- There is no window: both operand axes are inserted. -/
theorem window_eq_zero (y : (⟨2, ![R, C]⟩ : Shape).Idx) (a : Fin 2) : (pairDims P Q R C wf).window y a = 0 := by
  unfold ScatterDims.window
  refine dif_neg fun h => ?_
  have h2 : a ∉ ([0, 1] : List (Fin 2)) := of_decide_eq_true (List.mem_filter.1 h).2
  match a, h2 with
  | ⟨0, _⟩, h2 => exact h2 List.mem_cons_self
  | ⟨1, _⟩, h2 => exact h2 (List.mem_cons_of_mem _ List.mem_cons_self)

/-- Update y lands on element i exactly when its pair, read signed, is i (so a pair outside the matrix lands nowhere). -/
theorem resultIdx?_eq_some_iff (y : (⟨2, ![R, C]⟩ : Shape).Idx) (idx : IVec ⟨3, ![R, C, 2]⟩ w)
    (i : (⟨2, ![P, Q]⟩ : Shape).Idx) :
    (pairDims P Q R C wf).resultIdx? y idx = some i ↔
      (idx (pairIdx y 0)).toInt = ((i 0).val : Int) ∧ (idx (pairIdx y 1)).toInt = ((i 1).val : Int) := by
  have e0 : (pairDims P Q R C wf).start y idx 0 + ((pairDims P Q R C wf).window y 0 : Int)
      = (idx (pairIdx y 0)).toInt := by
    rw [start_zero, window_eq_zero]; simp
  have e1 : (pairDims P Q R C wf).start y idx 1 + ((pairDims P Q R C wf).window y 1 : Int)
      = (idx (pairIdx y 1)).toInt := by
    rw [start_one, window_eq_zero]; simp
  unfold ScatterDims.resultIdx?
  split
  · rename_i h
    rw [Option.some.injEq]
    constructor
    · rintro rfl
      exact ⟨e0.symm.trans (Int.toNat_of_nonneg (h 0).1).symm, e1.symm.trans (Int.toNat_of_nonneg (h 1).1).symm⟩
    · rintro ⟨h0, h1⟩
      funext a
      refine Fin.ext ?_
      match a with
      | ⟨0, _⟩ =>
        show ((pairDims P Q R C wf).start y idx 0 + ((pairDims P Q R C wf).window y 0 : Int)).toNat = (i 0).val
        rw [e0, h0, Int.toNat_natCast]
      | ⟨1, _⟩ =>
        show ((pairDims P Q R C wf).start y idx 1 + ((pairDims P Q R C wf).window y 1 : Int)).toNat = (i 1).val
        rw [e1, h1, Int.toNat_natCast]
  · rename_i h
    constructor
    · intro e; cases e
    · rintro ⟨h0, h1⟩
      refine absurd (fun a => ?_) h
      match a with
      | ⟨0, _⟩ =>
        show 0 ≤ (pairDims P Q R C wf).start y idx 0 + ((pairDims P Q R C wf).window y 0 : Int)
          ∧ (pairDims P Q R C wf).start y idx 0 + ((pairDims P Q R C wf).window y 0 : Int) < (P : Int)
        rw [e0, h0]
        exact ⟨Int.natCast_nonneg _, Int.ofNat_lt.2 (i 0).isLt⟩
      | ⟨1, _⟩ =>
        show 0 ≤ (pairDims P Q R C wf).start y idx 1 + ((pairDims P Q R C wf).window y 1 : Int)
          ∧ (pairDims P Q R C wf).start y idx 1 + ((pairDims P Q R C wf).window y 1 : Int) < (Q : Int)
        rw [e1, h1]
        exact ⟨Int.natCast_nonneg _, Int.ofNat_lt.2 (i 1).isLt⟩

/-- THE SWAP. The same updates scattered at the swapped pairs (idx' holds each pair of idx with its components
    exchanged) into an operand x' that agrees with x across the diagonal at (b, a) give, at (b, a), what the scatter at
    idx into x gives at (a, b): an update lands on (b, a) through idx' exactly when it lands on (a, b) through idx. -/
theorem hostScatterAdd_swap
    (wf' : ScatterDims.WF ⟨2, ![Q, P]⟩ ⟨3, ![R, C, 2]⟩ ⟨2, ![R, C]⟩ [] [0, 1] [0, 1] 2)
    (x : (⟨2, ![P, Q]⟩ : Shape).Idx → EReal) (x' : (⟨2, ![Q, P]⟩ : Shape).Idx → EReal)
    (idx idx' : IVec ⟨3, ![R, C, 2]⟩ w) (upd : (⟨2, ![R, C]⟩ : Shape).Idx → EReal)
    (hidx0 : ∀ y, idx' (pairIdx y 0) = idx (pairIdx y 1)) (hidx1 : ∀ y, idx' (pairIdx y 1) = idx (pairIdx y 0))
    (a : Fin P) (b : Fin Q) (hx : x' (ix2 b a) = x (ix2 a b)) :
    Ideal.hostScatterAdd (pairDims Q P R C wf') x' idx' upd (ix2 b a)
      = Ideal.hostScatterAdd (pairDims P Q R C wf) x idx upd (ix2 a b) := by
  unfold Ideal.hostScatterAdd
  rw [hx]
  refine congrArg (x (ix2 a b) + ·) (Finset.sum_congr (Finset.filter_congr fun y _ => ?_) fun _ _ => rfl)
  rw [resultIdx?_eq_some_iff, resultIdx?_eq_some_iff, hidx0, hidx1]
  exact and_comm

/-! ## The pairs as two index arrays concatenated along the last axis -/

/-- The index [t, j, 0] of an array of shape [R, C, 1]. -/
abbrev colIdx (y : (⟨2, ![R, C]⟩ : Shape).Idx) : (⟨3, ![R, C, 1]⟩ : Shape).Idx :=
  fun a => match a with | ⟨0, _⟩ => ⟨(y 0).val, idx2_lt0 y⟩ | ⟨1, _⟩ => ⟨(y 1).val, idx2_lt1 y⟩ | ⟨2, _⟩ => ⟨0, Nat.one_pos⟩

variable (hc : Shape.Concatenates [(⟨3, ![R, C, 1]⟩ : Shape), ⟨3, ![R, C, 1]⟩] ⟨3, ![R, C, 2]⟩ 2)

/-- Component 0 of the pair is the first array's entry. -/
theorem concatenate_pairIdx_zero (A B : IVec ⟨3, ![R, C, 1]⟩ w) (y : (⟨2, ![R, C]⟩ : Shape).Idx) :
    concatenate ⟨3, ![R, C, 2]⟩ 2 [⟨⟨3, ![R, C, 1]⟩, A⟩, ⟨⟨3, ![R, C, 1]⟩, B⟩] hc (pairIdx y 0) = A (colIdx y) :=
  concatenate_pair_apply_left 2 A B hc (pairIdx y 0) rfl (colIdx y) fun b => by
    match b with
    | ⟨0, _⟩ => rfl
    | ⟨1, _⟩ => rfl
    | ⟨2, _⟩ => rfl

/-- Component 1 of the pair is the second array's entry. -/
theorem concatenate_pairIdx_one (A B : IVec ⟨3, ![R, C, 1]⟩ w) (y : (⟨2, ![R, C]⟩ : Shape).Idx) :
    concatenate ⟨3, ![R, C, 2]⟩ 2 [⟨⟨3, ![R, C, 1]⟩, A⟩, ⟨⟨3, ![R, C, 1]⟩, B⟩] hc (pairIdx y 1) = B (colIdx y) :=
  concatenate_pair_apply_right 2 A B hc (pairIdx y 1) rfl rfl (colIdx y)
    (fun b hb => by
      match b, hb with
      | ⟨0, _⟩, _ => rfl
      | ⟨1, _⟩, _ => rfl
      | ⟨2, _⟩, hb => exact absurd rfl hb)
    rfl

/-- The swap for concatenated index arrays, stated of the host operation at the ideal values: the scatter-add at
    (B, A) into x', read at (b, a), is the scatter-add at (A, B) into x read at (a, b). -/
theorem scatterAdd_concat_swap {φ : FTy}
    (wf' : ScatterDims.WF ⟨2, ![Q, P]⟩ ⟨3, ![R, C, 2]⟩ ⟨2, ![R, C]⟩ [] [0, 1] [0, 1] 2)
    (x : FVec Ideal ⟨2, ![P, Q]⟩ φ) (x' : FVec Ideal ⟨2, ![Q, P]⟩ φ) (A B : IVec ⟨3, ![R, C, 1]⟩ w)
    (upd : FVec Ideal ⟨2, ![R, C]⟩ φ) (a : Fin P) (b : Fin Q) (hx : x' (ix2 b a) = x (ix2 a b)) :
    Host.scatterAdd (pairDims Q P R C wf') x'
        (concatenate ⟨3, ![R, C, 2]⟩ 2 [⟨⟨3, ![R, C, 1]⟩, B⟩, ⟨⟨3, ![R, C, 1]⟩, A⟩] hc) upd (ix2 b a)
      = Host.scatterAdd (pairDims P Q R C wf) x
        (concatenate ⟨3, ![R, C, 2]⟩ 2 [⟨⟨3, ![R, C, 1]⟩, A⟩, ⟨⟨3, ![R, C, 1]⟩, B⟩] hc) upd (ix2 a b) :=
  hostScatterAdd_swap wf wf' x x' _ _ upd
    (fun y => by rw [concatenate_pairIdx_zero, concatenate_pairIdx_one])
    (fun y => by rw [concatenate_pairIdx_one, concatenate_pairIdx_zero]) a b hx

end Cert.Lib.ScatterPair

end
-- ==== Proof.LibHostIndex.lean ====
/-
  Index operations of a host program on a FLAT array, read at an index.

  A gather of a flat array at a column of start indices (what x[idx] of a flat array lowers to when idx is flat) is the
  array at the start index, read signed and clamped. A scatter into a flat array at a column of scatter indices lands
  update e at the index the e-th scatter index names, read signed, when that is inside the array. From the second:
  the integer scatter with an associative, commutative body is a fold per element; with the body + and every update 1
  over zeros it COUNTS the updates that land at the element; the accumulating float scatter over the extended reals is
  the operand plus the sum of the updates that land there, as a sum over the update positions.
-/
import Idealize.ShloMosaic.PureOps.Ideal
import Idealize.ShloMosaic.PureOps.Contract
import Idealize.ShloMosaic.Lib.ValueIdx

noncomputable section

open scoped BigOperators

namespace Cert.Lib.HostIndex

open Idealize.ShloMosaic Idealize.ShloMosaic.ValueIdx

/-- A rank-1 index's coordinate is below the extent. -/
theorem idx1_lt {n : Nat} (j : (⟨1, ![n]⟩ : Shape).Idx) : (j 0).val < n := (j 0).isLt

/-- A rank-1 index set is its coordinate range. -/
def idxEquiv1 {n : Nat} : (⟨1, ![n]⟩ : Shape).Idx ≃ Fin n where
  toFun i := ⟨(i 0).val, idx1_lt i⟩
  invFun a := ix1 a
  left_inv i := (eq_ix1 i).symm
  right_inv _ := rfl

/-- A sum over the positions of a flat array that satisfy a condition, as a sum over the coordinate. -/
theorem sum_filter_idx1 {M : Type*} [AddCommMonoid M] {n : Nat} (p : (⟨1, ![n]⟩ : Shape).Idx → Prop) [DecidablePred p]
    (f : (⟨1, ![n]⟩ : Shape).Idx → M) :
    ∑ j ∈ Finset.univ.filter p, f j = ∑ e ∈ Finset.univ.filter (fun e : Fin n => p (ix1 e)), f (ix1 e) := by
  rw [Finset.sum_filter, Finset.sum_filter, ← Equiv.sum_comp (idxEquiv1 (n := n)).symm]
  rfl

/-- The number of positions of a flat array that satisfy a condition, counted over the coordinate. -/
theorem card_filter_idx1 {n : Nat} (p : (⟨1, ![n]⟩ : Shape).Idx → Prop) [DecidablePred p] :
    (Finset.univ.filter p).card = (Finset.univ.filter (fun e : Fin n => p (ix1 e))).card := by
  rw [Finset.card_eq_sum_ones, Finset.card_eq_sum_ones]
  exact sum_filter_idx1 p fun _ => 1

/-! ## The gather of a flat array at a column of start indices -/

section Take
variable {α : Type}

/-- The dimension numbers of x[idx] for a flat operand [N] and start indices [R, 1]: result [R]. -/
abbrev take1Dims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at position y: the operand at the start index of row y, read signed and clamped into [0, N - 1]. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (⟨(y 0).val, idx1_lt y⟩ : Fin R) (0 : Fin 1))).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (⟨(y 0).val, idx1_lt y⟩ : Fin R) (0 : Fin 1) := by
    funext b; refine Fin.ext ?_
    match b with
    | ⟨0, _⟩ => rfl
    | ⟨1, _⟩ => rfl
  rw [hsi]
  rfl

end Take

/-! ## The scatter into a flat array at a column of scatter indices -/

section Put

/-- The dimension numbers of x.at[idx] for a flat operand [N], scatter indices [R, 1] and updates [R]. -/
abbrev put1Dims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- The window of update j starts at the scatter index of row j, read signed. -/
theorem put1_start (j : (⟨1, ![R]⟩ : Shape).Idx) (idx : IVec ⟨2, ![R, 1]⟩ w) :
    (put1Dims N R wf).start j idx 0 = (idx (ix2 (⟨(j 0).val, idx1_lt j⟩ : Fin R) (0 : Fin 1))).toInt := by
  unfold ScatterDims.start
  rw [dif_pos (show (0 : Fin 1) ∈ (put1Dims N R wf).scatterDimsToOperandDims from List.mem_singleton.mpr rfl)]
  have hsi : (put1Dims N R wf).siIdx j ⟨List.idxOf (0 : Fin 1) (put1Dims N R wf).scatterDimsToOperandDims,
      List.idxOf_lt_length_iff.2 (List.mem_singleton.mpr rfl)⟩ = ix2 (⟨(j 0).val, idx1_lt j⟩ : Fin R) (0 : Fin 1) := by
    funext b; refine Fin.ext ?_
    match b with
    | ⟨0, _⟩ => rfl
    | ⟨1, _⟩ => rfl
  rw [hsi]

/-- The window has the one element. -/
theorem put1_window (j : (⟨1, ![R]⟩ : Shape).Idx) : (put1Dims N R wf).window j 0 = 0 := by
  unfold ScatterDims.window
  rw [dif_neg]
  simp [ScatterDims.sKept, Shape.kept, List.mem_filter, List.mem_finRange]

/-- Update j lands at position i exactly when the scatter index of row j, read signed, is i's coordinate. -/
theorem put1_resultIdx?_eq_some_iff (j : (⟨1, ![R]⟩ : Shape).Idx) (idx : IVec ⟨2, ![R, 1]⟩ w) (i : (⟨1, ![N]⟩ : Shape).Idx) :
    (put1Dims N R wf).resultIdx? j idx = some i
      ↔ (idx (ix2 (⟨(j 0).val, idx1_lt j⟩ : Fin R) (0 : Fin 1))).toInt = ((i 0).val : ℤ) := by
  have hi := idx1_lt i
  unfold ScatterDims.resultIdx?
  have hall : ∀ P : Fin 1 → Prop, (∀ a, P a) ↔ P 0 := fun P =>
    ⟨fun h => h 0, fun h a => by obtain rfl : a = 0 := Subsingleton.elim _ _; exact h⟩
  by_cases h : ∀ a : Fin (⟨1, ![N]⟩ : Shape).rank, 0 ≤ (put1Dims N R wf).start j idx a + (put1Dims N R wf).window j a ∧
      (put1Dims N R wf).start j idx a + (put1Dims N R wf).window j a < (⟨1, ![N]⟩ : Shape).size a
  · rw [dif_pos h]
    have h0 := h 0
    rw [put1_start, put1_window] at h0
    constructor
    · intro he
      have := congrArg (fun o : Option (⟨1, ![N]⟩ : Shape).Idx => o.map fun k => (k 0).val) he
      simp only [Option.map_some] at this
      have e := Option.some.inj this
      simp only [put1_start, put1_window] at e
      omega
    · intro he
      congr 1
      funext a
      obtain rfl : a = 0 := Subsingleton.elim _ _
      refine Fin.ext ?_
      show ((put1Dims N R wf).start j idx 0 + (put1Dims N R wf).window j 0).toNat = (i 0).val
      rw [put1_start, put1_window]
      omega
  · rw [dif_neg h]
    constructor
    · intro he; exact absurd he (by simp)
    · intro he
      exfalso
      apply h
      intro a
      obtain rfl : a = 0 := Subsingleton.elim _ _
      rw [put1_start, put1_window]
      have : (⟨1, ![N]⟩ : Shape).size 0 = N := rfl
      rw [this]
      omega

end Put

/-! ## The integer scatter as a fold per element, and as a count -/

section Fold
variable {α ι κ : Type} [DecidableEq ι]

/-- A fold of "update the element the step names" read at one element is the fold of the steps that name it. -/
theorem foldl_step_apply (step : (ι → α) → κ → ι → α) (g : κ → Option ι) (f : α → α → α) (upd : κ → α)
    (hstep : ∀ r n i, step r n i = if g n = some i then f (r i) (upd n) else r i) (i : ι) :
    ∀ (l : List κ) (x : ι → α),
      (l.foldl step x) i = l.foldl (fun a n => if g n = some i then f a (upd n) else a) (x i)
  | [], _ => rfl
  | n :: l, x => by
    rw [List.foldl_cons, List.foldl_cons, foldl_step_apply step g f upd hstep i l, hstep]

/-- Adding 1 at the steps that satisfy a condition counts them. -/
theorem foldl_count (p : κ → Prop) [DecidablePred p] :
    ∀ (l : List κ) (a : BitVec 32),
      l.foldl (fun a n => if p n then a + 1#32 else a) a = a + BitVec.ofNat 32 (l.countP fun n => decide (p n))
  | [], a => by simp
  | n :: l, a => by
    rw [List.foldl_cons, foldl_count p l, List.countP_cons]
    by_cases h : p n
    · simp only [h, if_true, decide_true]
      rw [BitVec.add_assoc]
      congr 1
      apply BitVec.eq_of_toNat_eq
      simp [BitVec.toNat_add, BitVec.toNat_ofNat, Nat.add_comm]
    · simp [h]

end Fold

/-- The steps of a list of all positions that satisfy a condition are as many as the positions that do. -/
theorem countP_finRange {n : Nat} (p : Fin n → Prop) [DecidablePred p] :
    (List.finRange n).countP (fun k => decide (p k)) = (Finset.univ.filter p).card := by
  rw [List.countP_eq_length_filter]
  have : (Finset.univ.filter p : Finset (Fin n)) = ((List.finRange n).filter fun k => decide (p k)).toFinset := by
    ext k; simp
  rw [this, List.toFinset_card_of_nodup ((List.nodup_finRange n).filter _)]

section IntScatter
variable {s si u : Shape} {w : Nat}

/-- The integer scatter read at an element: the fold, over the update positions in row-major order, of the updates that
    land there. -/
theorem scatter_apply (d : ScatterDims s si u) (f : BitVec 32 → BitVec 32 → BitVec 32) (x : s.Idx → BitVec 32)
    (idx : IVec si w) (upd : u.Idx → BitVec 32) (i : s.Idx) :
    Host.scatter d f x idx upd i
      = (List.finRange u.numel).foldl (fun a n => if d.resultIdx? (u.rowMajor.symm n) idx = some i
          then f a (upd (u.rowMajor.symm n)) else a) (x i) := by
  unfold Host.scatter
  refine foldl_step_apply _ (fun n => d.resultIdx? (u.rowMajor.symm n) idx) f (fun n => upd (u.rowMajor.symm n)) ?_ i _ x
  intro r n i'
  cases hg : d.resultIdx? (u.rowMajor.symm n) idx with
  | none => simp
  | some i₀ =>
    by_cases h : i' = i₀
    · subst h; simp
    · have h' : ¬ (i₀ = i') := fun e => h e.symm
      simp [h, h']

/-- The scatter of ones into zeros with the body + counts, at each element, the updates that land there. -/
theorem scatter_ones_apply (d : ScatterDims s si u) (idx : IVec si w) (i : s.Idx) :
    Host.scatter d IntOp.addi (fun _ => 0#32) idx (fun _ => 1#32) i
      = BitVec.ofNat 32 (Finset.univ.filter fun j : u.Idx => d.resultIdx? j idx = some i).card := by
  rw [scatter_apply]
  show (List.finRange u.numel).foldl (fun a n => if d.resultIdx? (u.rowMajor.symm n) idx = some i then a + 1#32 else a) 0#32 = _
  rw [foldl_count (fun n => d.resultIdx? (u.rowMajor.symm n) idx = some i), countP_finRange, BitVec.zero_add]
  congr 1
  exact Finset.card_bij (fun n _ => u.rowMajor.symm n) (fun n hn => by simpa using hn)
    (fun a _ b _ h => u.rowMajor.symm.injective h)
    (fun j hj => ⟨u.rowMajor j, by simpa using hj, by simp⟩)

end IntScatter

end Cert.Lib.HostIndex

end
-- ==== Proof.LibHostSums.lean ====
/-
  Sums over the two leading axes of an array, read index by index at the ideal values.

  A host reduction over axes 0 and 1 of an array of extents A × B × C gathers, at channel c, the entries whose last
  coordinate is c: these are exactly the entries (a, b, c), one for each pair (a, b), so a sum over them is the double
  sum over a and b, and there are A · B of them. Over both axes of an A × B matrix the reduction gathers every entry.
  Hence: a float sum is the initial value plus the double sum; an integer sum of an all-ones array is the initial word
  plus the word of A · B, and when A · B is below 2³¹ that word, read as a signed integer and converted, is the real
  number A · B. Beside these, the elementwise facts such sums are taken of: an extended real never differs from
  itself, so the test "x ≠ x" is the bit 0 everywhere and its negation the bit 1; a selection under an all-ones mask is
  its first branch; the float of the bit "v = w" is 1 where the two agree and 0 elsewhere; a scalar broadcast reads the
  scalar; dropping a trailing axis of extent one, and cutting one channel out of the last axis, read the source at the
  evident index.
-/
import Idealize.ShloMosaic.PureOps.Ideal.Laws
import Idealize.ShloMosaic.Lib.ValueIdx
import Idealize.ShloMosaic.Lib.ValueLayout

noncomputable section

namespace Cert.Lib.HostSums

open Idealize.ShloMosaic Idealize.ShloMosaic.ValueIdx

variable {A B C : ℕ}

/-! ## The entries that reduce to a channel -/

/-- Dropping the two leading coordinates of (a, b, c) leaves c. -/
theorem drop_axes01_val (h : (⟨3, ![A, B, C]⟩ : Shape).ReducesTo [0, 1] ⟨1, ![C]⟩)
    (i : (⟨3, ![A, B, C]⟩ : Shape).Idx) : ((h.drop i 0 : Fin C) : ℕ) = (i 2 : ℕ) := rfl

/-- An entry reduces to channel `ch` exactly when its last coordinate is `ch`. -/
theorem drop_axes01_eq_iff (h : (⟨3, ![A, B, C]⟩ : Shape).ReducesTo [0, 1] ⟨1, ![C]⟩)
    (i : (⟨3, ![A, B, C]⟩ : Shape).Idx) (ch : Fin C) : h.drop i = ix1 ch ↔ i 2 = ch := by
  constructor
  · intro e
    have e0 := congrArg (fun j : (⟨1, ![C]⟩ : Shape).Idx => ((j 0 : Fin C) : ℕ)) e
    exact Fin.ext ((drop_axes01_val h i).symm.trans e0)
  · intro e
    funext b
    match b with
    | ⟨0, _⟩ => exact Fin.ext ((drop_axes01_val h i).trans (congrArg Fin.val e))

/-- A sum over the entries that reduce to channel `ch` is the double sum over the two leading coordinates, in any
    commutative monoid: (a, b) ↦ (a, b, ch) is a bijection onto those entries. -/
theorem sum_filter_drop_axes01 {M : Type*} [AddCommMonoid M] (h : (⟨3, ![A, B, C]⟩ : Shape).ReducesTo [0, 1] ⟨1, ![C]⟩)
    (f : (⟨3, ![A, B, C]⟩ : Shape).Idx → M) (ch : Fin C) :
    ∑ i ∈ Finset.univ.filter (fun i => h.drop i = ix1 ch), f i = ∑ a : Fin A, ∑ b : Fin B, f (ix3 a b ch) := by
  rw [← Fintype.sum_prod_type' (f := fun (a : Fin A) (b : Fin B) => f (ix3 a b ch))]
  refine Finset.sum_nbij' (fun i => ((i 0 : Fin A), (i 1 : Fin B))) (fun p => ix3 p.1 p.2 ch) ?_ ?_ ?_ ?_ ?_
  · intro i _; exact Finset.mem_univ _
  · intro p _; exact Finset.mem_filter.2 ⟨Finset.mem_univ _, (drop_axes01_eq_iff h _ ch).2 rfl⟩
  · intro i hi
    have e : i 2 = ch := (drop_axes01_eq_iff h i ch).1 (Finset.mem_filter.1 hi).2
    rw [← e]; exact (eq_ix3 i).symm
  · intro p _; rfl
  · intro i hi
    have e : i 2 = ch := (drop_axes01_eq_iff h i ch).1 (Finset.mem_filter.1 hi).2
    rw [← e]; exact congrArg f (eq_ix3 i)

/-- There are A · B entries that reduce to a channel. -/
theorem card_filter_drop_axes01 (h : (⟨3, ![A, B, C]⟩ : Shape).ReducesTo [0, 1] ⟨1, ![C]⟩) (ch : Fin C) :
    (Finset.univ.filter (fun i => h.drop i = ix1 ch)).card = A * B := by
  rw [Finset.card_eq_sum_ones, sum_filter_drop_axes01 h (fun _ => (1 : ℕ)) ch]
  simp

/-! ## Float sums over the two leading axes -/

/-- The exact sum over axes 0 and 1 of an A × B × C array, at channel `ch`: the initial value plus the double sum of
    the entries (a, b, ch). -/
theorem hostReduceAdd_axes01_rank3 (h : (⟨3, ![A, B, C]⟩ : Shape).ReducesTo [0, 1] ⟨1, ![C]⟩)
    (f : (⟨3, ![A, B, C]⟩ : Shape).Idx → EReal) (init : EReal) (ch : Fin C) :
    Ideal.hostReduceAdd h f init (ix1 ch) = init + ∑ a : Fin A, ∑ b : Fin B, f (ix3 a b ch) := by
  unfold Ideal.hostReduceAdd
  rw [sum_filter_drop_axes01]

/-- The same for the host's float sum as a program writes it, its initial value an array read at its first index. -/
theorem reduceAdd_axes01_rank3 {φ : FTy} {u : Shape} (x : FVec Ideal ⟨3, ![A, B, C]⟩ φ) (init : u.Idx → Ideal φ)
    (h : (⟨3, ![A, B, C]⟩ : Shape).ReducesTo [0, 1] ⟨1, ![C]⟩) (hu : 0 < u.numel) (ch : Fin C) :
    Host.reduceAdd (F := Ideal) x init h hu (ix1 ch)
      = init (Shape.Idx.first hu) + ∑ a : Fin A, ∑ b : Fin B, x (ix3 a b ch) :=
  hostReduceAdd_axes01_rank3 h x _ ch

/-- The exact sum over both axes of an A × B matrix: the initial value plus the double sum of all entries. -/
theorem hostReduceAdd_axes01_rank2 (h : (⟨2, ![A, B]⟩ : Shape).ReducesTo [0, 1] ⟨0, ![]⟩)
    (f : (⟨2, ![A, B]⟩ : Shape).Idx → EReal) (init : EReal) (j : (⟨0, ![]⟩ : Shape).Idx) :
    Ideal.hostReduceAdd h f init j = init + ∑ a : Fin A, ∑ b : Fin B, f (ix2 a b) := by
  rw [Ideal.hostReduceAdd_total h (fun b => b.elim0) f init j, sum_idx2]

/-- The same for the host's float sum as a program writes it. -/
theorem reduceAdd_axes01_rank2 {φ : FTy} {u : Shape} (x : FVec Ideal ⟨2, ![A, B]⟩ φ) (init : u.Idx → Ideal φ)
    (h : (⟨2, ![A, B]⟩ : Shape).ReducesTo [0, 1] ⟨0, ![]⟩) (hu : 0 < u.numel) (j : (⟨0, ![]⟩ : Shape).Idx) :
    Host.reduceAdd (F := Ideal) x init h hu j = init (Shape.Idx.first hu) + ∑ a : Fin A, ∑ b : Fin B, x (ix2 a b) :=
  hostReduceAdd_axes01_rank2 h x _ j

/-! ## Counting with 32-bit words -/

/-- Adding the word 1 once for each member of a finite set, from `v`: `v` plus the word of the set's size. -/
theorem fold_addi_ones {ι : Type*} [DecidableEq ι] (S : Finset ι) (x : ι → BitVec 32) (hx : ∀ i ∈ S, x i = 1#32)
    (v : BitVec 32) : S.fold IntOp.addi v x = v + BitVec.ofNat 32 S.card := by
  induction S using Finset.induction_on with
  | empty => simp
  | insert a S ha ih =>
    rw [Finset.fold_insert ha, ih (fun i hi => hx i (Finset.mem_insert_of_mem hi)), hx a (Finset.mem_insert_self a S),
      Finset.card_insert_of_notMem ha, IntOp.addi_eq_add]
    show 1#32 + (v + BitVec.ofNat 32 S.card) = v + BitVec.ofNat 32 (S.card + 1)
    rw [BitVec.ofNat_add, BitVec.add_comm 1#32, BitVec.add_assoc]

/-- The integer sum over axes 0 and 1 of an all-ones A × B × C array, at a channel: the initial word plus the word of
    A · B. -/
theorem reduce_addi_ones_axes01 {u : Shape} (x : IVec ⟨3, ![A, B, C]⟩ 32) (hx : ∀ i, x i = 1#32)
    (init : u.Idx → BitVec 32) (h : (⟨3, ![A, B, C]⟩ : Shape).ReducesTo [0, 1] ⟨1, ![C]⟩) (hu : 0 < u.numel)
    (ch : Fin C) :
    Host.reduce IntOp.addi x init h hu (ix1 ch) = init (Shape.Idx.first hu) + BitVec.ofNat 32 (A * B) := by
  classical
  rw [Host.reduce_eq_fold, fold_addi_ones _ x (fun i _ => hx i), card_filter_drop_axes01]

/-- A natural number below 2³¹, as a 32-bit word read signed, is itself. -/
theorem toInt_ofNat_of_lt {n : ℕ} (hn : n < 2 ^ 31) : (BitVec.ofNat 32 n).toInt = (n : ℤ) := by
  have ht : (BitVec.ofNat 32 n).toNat = n := by rw [BitVec.toNat_ofNat]; exact Nat.mod_eq_of_lt (by omega)
  rw [BitVec.toInt_eq_toNat_of_lt (by rw [ht]; omega), ht]

/-- So its conversion to a float, at the ideal values, is the real number `n`. -/
theorem sitofp_ofNat_of_lt {n : ℕ} (hn : n < 2 ^ 31) :
    FloatOps.sitofp (F := Ideal) .f32 (BitVec.ofNat 32 n) = ((n : ℝ) : EReal) := by
  show (((BitVec.ofNat 32 n).toInt : ℝ) : EReal) = _
  rw [toInt_ofNat_of_lt hn, Int.cast_natCast]

/-! ## Elementwise facts at the ideal values -/

variable {s : Shape} {φ : FTy}

/-- An extended real never differs from itself: "x ≠ x" is the bit 0 at every index. -/
theorem cmpf_une_self (x : FVec Ideal s φ) (i : s.Idx) : cmpf .une x x i = 0#1 := by
  show Ideal.cmp .une (x i) (x i) = 0#1
  simp [Ideal.cmp]

/-- … and its negation is the bit 1 at every index. -/
theorem noti_cmpf_une_self (x : FVec Ideal s φ) (i : s.Idx) : noti (cmpf .une x x) i = 1#1 := by
  show ~~~(cmpf .une x x i) = 1#1
  rw [cmpf_une_self]; rfl

/-- A selection under an all-ones mask is its first branch. -/
theorem select_of_ones {α : Type} (c : IVec s 1) (hc : ∀ i, c i = 1#1) (a b : s.Idx → α) (i : s.Idx) :
    select c a b i = a i := by
  rw [select_apply, hc, select_one]

/-- An all-ones mask widened to 32 bits is the word 1 at every index. -/
theorem extui_of_ones (c : IVec s 1) (hc : ∀ i, c i = 1#1) (h : 1 < 32) (i : s.Idx) : extui 32 c h i = 1#32 := by
  rw [extui_apply, hc]; rfl

/-- The float of the bit "v = w": 1 where the two agree, 0 elsewhere. -/
theorem uitofp_cmpf_oeq (v w : FVec Ideal s .f32) (i : s.Idx) :
    (uitofp .f32 (cmpf .oeq v w) : FVec Ideal s .f32) i = if v i = w i then 1 else 0 := by
  show (((Ideal.cmp .oeq (v i) (w i)).toNat : ℝ) : EReal) = _
  by_cases e : v i = w i
  · simp [Ideal.cmp, e]
  · simp [Ideal.cmp, e]

/-- A scalar broadcast to any shape reads the scalar at every index. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x ix0 := by
  unfold broadcastInDim
  exact congrArg x (funext fun a => a.elim0)

/-! ## Layout operations at an index -/

/-- An A × B × 1 array recast as an A × B matrix reads, at (a, b), the source at (a, b, 0): the two row-major
    positions are both a · B + b. -/
theorem reshape_ab1_ab_apply {α : Type} (x : (⟨3, ![A, B, 1]⟩ : Shape).Idx → α)
    (h : (⟨3, ![A, B, 1]⟩ : Shape).ShapeCasts ⟨2, ![A, B]⟩) (a : Fin A) (b : Fin B) :
    shapeCast ⟨2, ![A, B]⟩ x h (ix2 a b) = x (ix3 a b 0) := by
  refine shapeCast_apply x h (ix2 a b) (ix3 a b 0) ?_
  rw [Shape.rowMajor_val_three, Shape.rowMajor_val_two]
  show (a.val * B + b.val) * 1 + 0 = a.val * B + b.val
  omega

/-- One channel `k` cut out of the last axis of an A × B × n array reads, at (a, b, 0), the source at (a, b, k). -/
theorem slice_last_apply {α : Type} {n : ℕ} (o : ℕ) (x : (⟨3, ![A, B, n]⟩ : Shape).Idx → α)
    (h : (⟨3, ![A, B, n]⟩ : Shape).Slices ![0, 0, o] ⟨3, ![A, B, 1]⟩) (a : Fin A) (b : Fin B) (k : Fin n)
    (hk : k.val = o) : extractStridedSlice ⟨3, ![A, B, 1]⟩ ![0, 0, o] x h (ix3 a b 0) = x (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.Lib.HostSums

end
-- ==== Proof.KI.ValHost.lean ====
/-
  The host stretch between the regions: from the score column to the weight table. Each slot's logit is its
  member's score (the fill value where unused), a softmax runs along the eight slots, unused slots are zeroed,
  and the scatter-add gathers, per node and slot, the attention of the edges whose slot holds the node.

  The stretch is first written as functions of arrays (the flattened scores, the clipped table, the wrap of negative
  entries, the gather, the two selections, the softmax, the pairs and the scatter-add), and each buffer along the
  stretch is shown to hold the corresponding function of the launch's table and mask and of region 0's scores.
  Each function is then read at an index. Every entry of the table reads in [0, 100000), so the clip, both wraps and
  the gather's clamp change nothing and the row read is the node the slot names; the maximum, the sum and the quotient
  are spelt as the specification's; and an update (a, b) lands on (n, j) exactly when b = j and the entry at (a, b)
  reads n, so the scatter-add's sum over the updates is the specification's sum over the edges whose slot j holds n.
-/
import proofs.«406324_j84542136254541_3_alg».proof.Proof.KI.Val0
import proofs.«406324_j84542136254541_3_alg».proof.Proof.Gen.KernelIdeal.Regions
import proofs.«406324_j84542136254541_3_alg».proof.Proof.LibScatterPair
import proofs.«406324_j84542136254541_3_alg».proof.Proof.LibHostIndex
import proofs.«406324_j84542136254541_3_alg».proof.Proof.LibHostSums
import Idealize.ShloMosaic.Lib.StableHlo.Run
import Idealize.ShloMosaic.Lib.StableHlo.Predicate
import Idealize.ShloMosaic.Lib.ValueLayout
import Idealize.ShloMosaic.Lib.IdealHost

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ)

namespace VH

/-! ## The host stretch as functions of arrays -/

/-- The score column as a vector of length 100000. -/
def flatA (s : S100000x1.Idx → EReal) : S100000.Idx → EReal :=
  fun i => shapeCast S100000 s shapeCasts_S100000x1_S100000 i

/-- The table clipped into [0, 99999]. -/
def clipA (idx : S100000x8.Idx → BitVec 32) : S100000x8.Idx → BitVec 32 :=
  minsi (broadcastInDim S100000x8 ![] bcast_S_S100000x8 (constantI S_ 32 99999#32))
    (maxsi (broadcastInDim S100000x8 ![] bcast_S_S100000x8 (constantI S_ 32 0#32)) idx)

/-- Negative entries moved up by 100000. -/
def wrapA (t : S100000x8.Idx → BitVec 32) : S100000x8.Idx → BitVec 32 :=
  select (cmpi .slt t (broadcastInDim S100000x8 ![] bcast_S_S100000x8 (constantI S_ 32 0#32)))
    (addi t (broadcastInDim S100000x8 ![] bcast_S_S100000x8 (constantI S_ 32 100000#32))) t

/-- Each slot's member's score. -/
def takeA (v : S100000.Idx → EReal) (t : S100000x8.Idx → BitVec 32) : S100000x8.Idx → EReal :=
  Host.gather gather_S100000_S100000x8x1_S100000x8_n_0_n_n_0_2_1 v
    (broadcastInDim S100000x8x1 ![0, 1] bcast_S100000x8_S100000x8x1_0_1 (wrapA t))

/-- The logits: a member's score where the slot is in use, the fill value elsewhere. -/
def fillA (mask : S100000x8.Idx → BitVec 1) (g : S100000x8.Idx → EReal) : S100000x8.Idx → EReal :=
  select mask g (broadcastInDim S100000x8 ![] bcast_S_S100000x8 (constant (F := Ideal) S_ .f32 0xD9FFCB9E#32))

/-- The row maxima. -/
def rmaxA (x : S100000x8.Idx → EReal) : S100000.Idx → EReal :=
  maximumf (F := Ideal) (φ := .f32) (broadcastInDim S100000 ![] bcast_S_S100000 (constant (F := Ideal) S_ .f32 0xFF800000#32))
    (Host.reduce FloatOps.maximumf x (constant (F := Ideal) S_ .f32 0xFF800000#32) reducesTo_S100000x8_S100000_d1 h_S_)

/-- A vector over the edges repeated along the eight slots. -/
def rowsA (v : S100000.Idx → EReal) : S100000x8.Idx → EReal :=
  broadcastInDim S100000x8 ![0, 1] bcast_S100000x1_S100000x8_0_1
    (broadcastInDim S100000x1 ![0] bcast_S100000_S100000x1_0 v)

/-- The exponentials of the logits less their row maximum. -/
def expA (x : S100000x8.Idx → EReal) : S100000x8.Idx → EReal :=
  Host.exp (F := Ideal) (φ := .f32) (subf (F := Ideal) (φ := .f32) x (rowsA (rmaxA x)))

/-- The softmax along the slots. -/
def softA (x : S100000x8.Idx → EReal) : S100000x8.Idx → EReal :=
  Host.divf (F := Ideal) (φ := .f32) (expA x)
    (rowsA (Host.reduceAdd (F := Ideal) (φ := .f32) (expA x) (constant (F := Ideal) S_ .f32 0x00000000#32) reducesTo_S100000x8_S100000_d1 h_S_))

/-- Unused slots zeroed. -/
def zeroA (mask : S100000x8.Idx → BitVec 1) (g : S100000x8.Idx → EReal) : S100000x8.Idx → EReal :=
  select mask g (broadcastInDim S100000x8 ![] bcast_S_S100000x8 (constant (F := Ideal) S_ .f32 0x00000000#32))

/-- The slot numbers 0 … 7 along each row. -/
def slotA : S100000x8.Idx → BitVec 32 :=
  broadcastInDim S100000x8 ![0, 1] bcast_S1x8_S100000x8_0_1 (broadcastInDim S1x8 ![1] bcast_S8_S1x8_1 (iotaInDim S8 32 0))

/-- Negative slot numbers moved up by 8. -/
def wrap8A (t : S100000x8.Idx → BitVec 32) : S100000x8.Idx → BitVec 32 :=
  select (cmpi .slt t (broadcastInDim S100000x8 ![] bcast_S_S100000x8 (constantI S_ 32 0#32)))
    (addi t (broadcastInDim S100000x8 ![] bcast_S_S100000x8 (constantI S_ 32 8#32))) t

/-- The (node, slot) pairs. -/
def pairsA (t : S100000x8.Idx → BitVec 32) : S100000x8x2.Idx → BitVec 32 :=
  concatenate S100000x8x2 2
    [⟨S100000x8x1, broadcastInDim S100000x8x1 ![0, 1] bcast_S100000x8_S100000x8x1_0_1 (wrapA t)⟩,
     ⟨S100000x8x1, broadcastInDim S100000x8x1 ![0, 1] bcast_S100000x8_S100000x8x1_0_1 (wrap8A slotA)⟩]
    concatenates_S100000x8x1_S100000x8x1_S100000x8x2_d2

/-- The updates added up at their pairs, from the zero matrix. -/
def scatA (t : S100000x8.Idx → BitVec 32) (u : S100000x8.Idx → EReal) : S100000x8.Idx → EReal :=
  Host.scatterAdd (F := Ideal) (φ := .f32) scatter_S100000x8_S100000x8x2_S100000x8_n_01_01_2
    (broadcastInDim S100000x8 ![] bcast_S_S100000x8 (constant (F := Ideal) S_ .f32 0x00000000#32)) (pairsA t) u

section Stretch
variable (V : Valuation τ sig (Elt Ideal))

theorem st1_v2 : (StableHlo.after hostOps1 V (Proc.devRef .tc main_v2) : S100000.Idx → EReal)
    = flatA (V (Proc.devRef .tc main_v1_1)) := by
  after_results; rfl

theorem st1_c : (StableHlo.after hostOps1 V (Proc.devRef .tc main_c) : S_.Idx → BitVec 32) = constantI S_ 32 0#32 := by
  after_results

theorem st1_c0 : (StableHlo.after hostOps1 V (Proc.devRef .tc main_c_0) : S_.Idx → BitVec 32) = constantI S_ 32 99999#32 := by
  after_results

theorem st2_v3 (h0 : (V (Proc.devRef .tc main_c) : S_.Idx → BitVec 32) = constantI S_ 32 0#32)
    (h1 : (V (Proc.devRef .tc main_c_0) : S_.Idx → BitVec 32) = constantI S_ 32 99999#32) :
    (StableHlo.after hostOps1_1 V (Proc.devRef .tc main_v3) : S100000x8.Idx → BitVec 32)
      = clipA (V (Proc.devRef .tc main_arg2)) := by
  after_results
  simp only [StableHlo.TRef.ofBuf, StableHlo.TRef.toBuf, cast_eq, id_eq]
  rw [h0, h1]
  rfl

theorem st3_v10 : (StableHlo.after hostOps1_2 V (Proc.devRef .tc main_v10) : S100000x8.Idx → EReal)
      = takeA (V (Proc.devRef .tc main_v2)) (V (Proc.devRef .tc main_v3)) := by
  after_results; rfl

theorem st3_cst : (StableHlo.after hostOps1_2 V (Proc.devRef .tc main_cst) : S_.Idx → EReal)
      = constant (F := Ideal) S_ .f32 0xD9FFCB9E#32 := by
  after_results

theorem st4_v11 (h : (V (Proc.devRef .tc main_cst) : S_.Idx → EReal) = constant (F := Ideal) S_ .f32 0xD9FFCB9E#32) :
    (StableHlo.after hostOps1_3 V (Proc.devRef .tc main_v11) : S100000x8.Idx → EReal)
      = fillA (V (Proc.devRef .tc main_arg3)) (V (Proc.devRef .tc main_v10)) := by
  after_results
  simp only [StableHlo.TRef.ofBuf, StableHlo.TRef.toBuf, cast_eq, id_eq]
  rw [h]
  rfl

theorem st5_v22 : (StableHlo.after hostOps1_4 V (Proc.devRef .tc main_v22) : S100000x8.Idx → EReal)
      = softA (V (Proc.devRef .tc main_v11)) := by
  after_results; rfl

theorem st5_cst6 : (StableHlo.after hostOps1_4 V (Proc.devRef .tc main_cst_6) : S_.Idx → EReal)
      = constant (F := Ideal) S_ .f32 0x00000000#32 := by
  after_results

theorem st6_v23 (h : (V (Proc.devRef .tc main_cst_6) : S_.Idx → EReal) = constant (F := Ideal) S_ .f32 0x00000000#32) :
    (StableHlo.after hostOps1_5 V (Proc.devRef .tc main_v23) : S100000x8.Idx → EReal)
      = zeroA (V (Proc.devRef .tc main_arg3)) (V (Proc.devRef .tc main_v22)) := by
  after_results
  simp only [StableHlo.TRef.ofBuf, StableHlo.TRef.toBuf, cast_eq, id_eq]
  rw [h]
  rfl

set_option maxHeartbeats 2000000 in
theorem st7_v41 : (StableHlo.after hostOps1_6 V (Proc.devRef .tc main_v41) : S100000x8.Idx → EReal)
      = scatA (V (Proc.devRef .tc main_v3)) (V (Proc.devRef .tc main_v23)) := by
  after_results; rfl

end Stretch

/-! ## The buffers along the stretch -/

section Chain

/-- The index table reaches region 0's exit as launched. -/
theorem W2_idx (c : Dev nD) : W2 m c (Proc.devRef .tc main_arg2) = argIdx m c :=
  (W2_of_ne m c main_arg2 (by decide)).trans
    (StableHlo.after_of_writes_sub hostOps0 _ hostOps0_writes (by decide))

/-- So does the mask. -/
theorem W2_mask (c : Dev nD) : W2 m c (Proc.devRef .tc main_arg3) = argMask m c :=
  (W2_of_ne m c main_arg3 (by decide)).trans
    (StableHlo.after_of_writes_sub hostOps0 _ hostOps0_writes (by decide))

/-- The score column at region 0's exit is what the region left. -/
theorem W2_score (c : Dev nD) : W2 m c (Proc.devRef .tc main_v1_1) = scoreArr m c := W2_arr m c 4

theorem W3_idx (c : Dev nD) : W3 m c (Proc.devRef .tc main_arg2) = argIdx m c :=
  (StableHlo.after_of_writes_sub hostOps1 _ hostOps1_writes (by decide)).trans (W2_idx m c)

theorem W5_mask (c : Dev nD) : W5 m c (Proc.devRef .tc main_arg3) = argMask m c :=
  (StableHlo.after_of_writes_sub hostOps1_2 _ hostOps1_2_writes (by decide)).trans <|
  (StableHlo.after_of_writes_sub hostOps1_1 _ hostOps1_1_writes (by decide)).trans <|
  (StableHlo.after_of_writes_sub hostOps1 _ hostOps1_writes (by decide)).trans (W2_mask m c)

theorem W7_mask (c : Dev nD) : W7 m c (Proc.devRef .tc main_arg3) = argMask m c :=
  (StableHlo.after_of_writes_sub hostOps1_4 _ hostOps1_4_writes (by decide)).trans <|
  (StableHlo.after_of_writes_sub hostOps1_3 _ hostOps1_3_writes (by decide)).trans (W5_mask m c)

/-- The clipped table, written by the second stretch. -/
theorem W4_v3 (c : Dev nD) : (W4 m c (Proc.devRef .tc main_v3) : S100000x8.Idx → BitVec 32) = clipA (argIdx m c) :=
  (st2_v3 (W3 m c) (st1_c (W2 m c)) (st1_c0 (W2 m c))).trans (congrArg clipA (W3_idx m c))

theorem W4_v2 (c : Dev nD) : (W4 m c (Proc.devRef .tc main_v2) : S100000.Idx → EReal) = flatA (scoreArr m c) :=
  (StableHlo.after_of_writes_sub hostOps1_1 _ hostOps1_1_writes (by decide)).trans <|
  (st1_v2 (W2 m c)).trans (congrArg flatA (W2_score m c))

theorem W5_v10 (c : Dev nD) :
    (W5 m c (Proc.devRef .tc main_v10) : S100000x8.Idx → EReal) = takeA (flatA (scoreArr m c)) (clipA (argIdx m c)) :=
  (st3_v10 (W4 m c)).trans (by rw [W4_v2, W4_v3])

theorem W6_v11 (c : Dev nD) :
    (W6 m c (Proc.devRef .tc main_v11) : S100000x8.Idx → EReal)
      = fillA (argMask m c) (takeA (flatA (scoreArr m c)) (clipA (argIdx m c))) :=
  (st4_v11 (W5 m c) (st3_cst (W4 m c))).trans (by rw [W5_mask, W5_v10])

theorem W7_v22 (c : Dev nD) :
    (W7 m c (Proc.devRef .tc main_v22) : S100000x8.Idx → EReal)
      = softA (fillA (argMask m c) (takeA (flatA (scoreArr m c)) (clipA (argIdx m c)))) :=
  (st5_v22 (W6 m c)).trans (congrArg softA (W6_v11 m c))

theorem W8_v23 (c : Dev nD) :
    (W8 m c (Proc.devRef .tc main_v23) : S100000x8.Idx → EReal)
      = zeroA (argMask m c) (softA (fillA (argMask m c) (takeA (flatA (scoreArr m c)) (clipA (argIdx m c))))) :=
  (st6_v23 (W7 m c) (st5_cst6 (W6 m c))).trans (by rw [W7_mask, W7_v22])

theorem W8_v3 (c : Dev nD) : (W8 m c (Proc.devRef .tc main_v3) : S100000x8.Idx → BitVec 32) = clipA (argIdx m c) :=
  (StableHlo.after_of_writes_sub hostOps1_5 _ hostOps1_5_writes (by decide)).trans <|
  (StableHlo.after_of_writes_sub hostOps1_4 _ hostOps1_4_writes (by decide)).trans <|
  (StableHlo.after_of_writes_sub hostOps1_3 _ hostOps1_3_writes (by decide)).trans <|
  (StableHlo.after_of_writes_sub hostOps1_2 _ hostOps1_2_writes (by decide)).trans (W4_v3 m c)

/-- The weight table as the stretch computes it from the launch's table and mask and region 0's scores. -/
theorem wgtArr_chain (c : Dev nD) :
    wgtArr m c = scatA (clipA (argIdx m c))
      (zeroA (argMask m c) (softA (fillA (argMask m c) (takeA (flatA (scoreArr m c)) (clipA (argIdx m c)))))) :=
  (st7_v41 (W8 m c)).trans (by rw [W8_v3, W8_v23])

end Chain

/-! ## Words -/

section Words

/-- A word that reads non-negative is not below zero. -/
theorem slt_zero_of_nonneg (v : BitVec 32) (h : 0 ≤ v.toInt) : v.slt 0#32 = false := by
  have e : (0#32 : BitVec 32).toInt = 0 := by decide
  unfold BitVec.slt
  rw [e]
  exact decide_eq_false (by omega)

/-- A word that reads below 100000 is not above 99999. -/
theorem slt_top_of_lt (v : BitVec 32) (h : v.toInt < 100000) : (99999#32 : BitVec 32).slt v = false := by
  have e : (99999#32 : BitVec 32).toInt = 99999 := by decide
  unfold BitVec.slt
  rw [e]
  exact decide_eq_false (by omega)

/-- A word in [0, 100000) read signed is its natural number. -/
theorem toNat_of_range (v : BitVec 32) (h0 : 0 ≤ v.toInt) (h1 : v.toInt < 100000) :
    v.toInt = (v.toNat : ℤ) ∧ v.toNat < 100000 := by
  have hc := BitVec.toInt_eq_toNat_cond v
  have hlt := v.isLt
  split_ifs at hc <;> omega

end Words

/-! ## Each stage read at an index -/

section Read

/-- Under the range hypothesis the clip changes nothing. -/
theorem clipA_apply (idx : S100000x8.Idx → BitVec 32) (i : S100000x8.Idx) (h0 : 0 ≤ (idx i).toInt)
    (h1 : (idx i).toInt < 100000) : clipA idx i = idx i := by
  show IntOp.minsi (broadcastInDim S100000x8 ![] bcast_S_S100000x8 (constantI S_ 32 99999#32) i)
      (IntOp.maxsi (broadcastInDim S100000x8 ![] bcast_S_S100000x8 (constantI S_ 32 0#32) i) (idx i)) = idx i
  rw [Cert.Lib.HostSums.broadcastInDim_scalar_apply, Cert.Lib.HostSums.broadcastInDim_scalar_apply]
  show IntOp.minsi 99999#32 (IntOp.maxsi 0#32 (idx i)) = idx i
  have e1 : IntOp.maxsi 0#32 (idx i) = idx i := by
    unfold IntOp.maxsi; rw [slt_zero_of_nonneg _ h0]; rfl
  rw [e1]
  unfold IntOp.minsi; rw [slt_top_of_lt _ h1]; rfl

/-- A non-negative entry is not moved. -/
theorem wrapA_apply (t : S100000x8.Idx → BitVec 32) (i : S100000x8.Idx) (h0 : 0 ≤ (t i).toInt) : wrapA t i = t i := by
  show Scalar.select (IntOp.cmpi .slt (t i) (broadcastInDim S100000x8 ![] bcast_S_S100000x8 (constantI S_ 32 0#32) i))
      (IntOp.addi (t i) (broadcastInDim S100000x8 ![] bcast_S_S100000x8 (constantI S_ 32 100000#32) i)) (t i) = t i
  rw [Cert.Lib.HostSums.broadcastInDim_scalar_apply]
  show Scalar.select (BitVec.ofBool ((t i).slt 0#32)) _ _ = _
  rw [slt_zero_of_nonneg _ h0]
  exact select_zero _ _

/-- Nor is a non-negative slot number. -/
theorem wrap8A_apply (t : S100000x8.Idx → BitVec 32) (i : S100000x8.Idx) (h0 : 0 ≤ (t i).toInt) : wrap8A t i = t i := by
  show Scalar.select (IntOp.cmpi .slt (t i) (broadcastInDim S100000x8 ![] bcast_S_S100000x8 (constantI S_ 32 0#32) i))
      (IntOp.addi (t i) (broadcastInDim S100000x8 ![] bcast_S_S100000x8 (constantI S_ 32 8#32) i)) (t i) = t i
  rw [Cert.Lib.HostSums.broadcastInDim_scalar_apply]
  show Scalar.select (BitVec.ofBool ((t i).slt 0#32)) _ _ = _
  rw [slt_zero_of_nonneg _ h0]
  exact select_zero _ _

/-- The slot numbers read the column. -/
theorem slotA_apply (i : S100000x8.Idx) : slotA i = BitVec.ofNat 32 (i 1).val := by
  unfold slotA
  refine (broadcastInDim_apply ![0, 1] bcast_S1x8_S100000x8_0_1 _ i (ix2 (0 : Fin 1) (i 1) : S1x8.Idx)
    (by intro a; match a with | ⟨0, _⟩ => rfl | ⟨1, _⟩ => rfl)).trans ?_
  refine (broadcastInDim_apply ![1] bcast_S8_S1x8_1 _ (ix2 (0 : Fin 1) (i 1) : S1x8.Idx) (ix1 (i 1) : S8.Idx)
    (by intro a; match a with | ⟨0, _⟩ => rfl)).trans ?_
  rfl

/-- An array with a trailing unit axis added reads the array. -/
theorem bcast3_apply {α : Type} (x : S100000x8.Idx → α) (y : S100000x8.Idx) :
    broadcastInDim S100000x8x1 ![0, 1] bcast_S100000x8_S100000x8x1_0_1 x (takeIdx y) = x y :=
  broadcastInDim_apply _ _ x (takeIdx y) y (fun a => by match a with | ⟨0, _⟩ => rfl | ⟨1, _⟩ => rfl)

/-- The score column as a vector reads the column. -/
theorem flatA_apply (s : S100000x1.Idx → EReal) (k : Fin 100000) : flatA s (ix1 k) = s (ix2 k 0) := by
  unfold flatA
  refine shapeCast_apply s _ (ix1 k) (ix2 k 0) ?_
  rw [Shape.rowMajor_val_two, Shape.rowMajor_val_one]
  show k.val * 1 + 0 = k.val
  omega

/-- The gather reads the vector at the node the slot names. -/
theorem takeA_apply (v : S100000.Idx → EReal) (t : S100000x8.Idx → BitVec 32) (n : Fin 100000) (j : Fin 8)
    (h0 : 0 ≤ (t (ix2 n j)).toInt) (h1 : (t (ix2 n j)).toInt < 100000) :
    takeA v t (ix2 n j) = v (ix1 ⟨(t (ix2 n j)).toNat % 100000, Nat.mod_lt _ (by decide)⟩) := by
  unfold takeA
  refine (gather_take_apply (N := 100000) (R := 100000) (C := 8) (by decide)
    gather_S100000_S100000x8x1_S100000x8_n_0_n_n_0_2_1_wf v _ (ix2 n j)).trans ?_
  obtain ⟨e, hlt⟩ := toNat_of_range _ h0 h1
  refine congrArg v (congrArg ix1 (Fin.ext ?_))
  show min (broadcastInDim S100000x8x1 ![0, 1] bcast_S100000x8_S100000x8x1_0_1 (wrapA t)
      (takeIdx (ix2 n j))).toInt.toNat (100000 - 1) = (t (ix2 n j)).toNat % 100000
  rw [bcast3_apply, wrapA_apply t _ h0, e, Int.toNat_natCast, Nat.mod_eq_of_lt hlt]
  omega

end Read

section Read2

/-- The logits at a slot. -/
theorem fillA_apply (mask : S100000x8.Idx → BitVec 1) (g : S100000x8.Idx → EReal) (i : S100000x8.Idx) :
    fillA mask g i = Scalar.select (mask i) (g i) Cert.Spec.fillv := by
  show Scalar.select (mask i) (g i)
    (broadcastInDim S100000x8 ![] bcast_S_S100000x8 (constant (F := Ideal) S_ .f32 0xD9FFCB9E#32) i) = _
  rw [Cert.Lib.HostSums.broadcastInDim_scalar_apply]
  rfl

/-- The zeroed attention at a slot. -/
theorem zeroA_apply (mask : S100000x8.Idx → BitVec 1) (g : S100000x8.Idx → EReal) (i : S100000x8.Idx) :
    zeroA mask g i = Scalar.select (mask i) (g i) 0 := by
  show Scalar.select (mask i) (g i)
    (broadcastInDim S100000x8 ![] bcast_S_S100000x8 (constant (F := Ideal) S_ .f32 0x00000000#32) i) = _
  rw [Cert.Lib.HostSums.broadcastInDim_scalar_apply]
  show Scalar.select (mask i) (g i) (Ideal.ofBits .f32 0x00000000#32) = _
  rw [Ideal.ofBits_zero_f32]

/-- The eight slots of a row as a reduction over axis 1. -/
theorem red8 : S100000x8.Reduces [1] S100000 := by decide

/-- The entries that reduce to row n are (n, 0) … (n, 7). -/
theorem lift_ix (n : Fin 100000) (k : Fin 8) : red8.lift (ix1 n) k = ix2 n k := by
  funext a
  apply Fin.ext
  match a with
  | ⟨0, _⟩ => rfl
  | ⟨1, _⟩ => rfl

/-- The row maxima are the specification's. -/
theorem rmaxA_apply (x : S100000x8.Idx → EReal) (n : Fin 100000) :
    rmaxA x (ix1 n) = Cert.Spec.rowMax (fun a b => x (ix2 a b)) n := by
  unfold rmaxA
  rw [maximumf_apply, Cert.Lib.HostSums.broadcastInDim_scalar_apply,
    Host.reduce_eq_fold_single (FloatOps.maximumf (F := Ideal) (φ := .f32)) x _ reducesTo_S100000x8_S100000_d1 red8 h_S_ (ix1 n)]
  unfold Cert.Spec.rowMax
  have e : (x ∘ red8.lift (ix1 n)) = fun k : Fin 8 => x (ix2 n k) := funext fun k => congrArg x (lift_ix n k)
  rw [e]
  rfl

/-- A vector over the edges repeated along the slots reads the edge's entry. -/
theorem rowsA_apply (v : S100000.Idx → EReal) (n : Fin 100000) (j : Fin 8) : rowsA v (ix2 n j) = v (ix1 n) := by
  unfold rowsA
  refine (broadcastInDim_apply ![0, 1] bcast_S100000x1_S100000x8_0_1 _ (ix2 n j) (ix2 n (0 : Fin 1) : S100000x1.Idx)
    (by intro a; match a with | ⟨0, _⟩ => rfl | ⟨1, _⟩ => rfl)).trans ?_
  exact broadcastInDim_apply ![0] bcast_S100000_S100000x1_0 v (ix2 n (0 : Fin 1) : S100000x1.Idx) (ix1 n : S100000.Idx)
    (by intro a; match a with | ⟨0, _⟩ => rfl)

/-- The host's exponential at an index. -/
theorem hostExp_apply {s : Shape} {φ : FTy} (a : FVec Ideal s φ) (i : s.Idx) : Host.exp a i = Ideal.exp (a i) := rfl

/-- The exponentials at a slot. -/
theorem expA_apply (x : S100000x8.Idx → EReal) (n : Fin 100000) (j : Fin 8) :
    expA x (ix2 n j) = Ideal.exp (x (ix2 n j) - Cert.Spec.rowMax (fun a b => x (ix2 a b)) n) := by
  unfold expA
  rw [hostExp_apply, subf_apply, rowsA_apply, rmaxA_apply]

/-- The softmax at a slot is the specification's attention. -/
theorem softA_apply (x : S100000x8.Idx → EReal) (n : Fin 100000) (j : Fin 8) :
    softA x (ix2 n j) = Cert.Spec.att (fun a b => x (ix2 a b)) n j := by
  unfold softA
  rw [hostDivf_apply, rowsA_apply, expA_apply, hostReduceAdd_apply,
    Ideal.hostReduceAdd_single reducesTo_S100000x8_S100000_d1 red8]
  unfold Cert.Spec.att Cert.Spec.rowDen
  refine congrArg (Ideal.div _) ?_
  rw [constant_apply, Ideal.ofBits_zero_f32, zero_add]
  refine Finset.sum_congr rfl fun k _ => ?_
  exact (congrArg (expA x) (lift_ix n k)).trans (expA_apply x n k)

end Read2

section Scatter

open Cert.Lib.ScatterPair

/-- The host's accumulating scatter at the ideal values. -/
theorem hostScatterAdd_apply {s si su : Shape} {w : Nat} {φ : FTy} (d : ScatterDims s si su) (x : FVec Ideal s φ)
    (idx : IVec si w) (upd : FVec Ideal su φ) (i : s.Idx) :
    Host.scatterAdd d x idx upd i = Ideal.hostScatterAdd d x idx upd i := rfl

/-- An array with a trailing unit axis added, read at [t, j, 0]. -/
theorem bcast3_col {α : Type} (x : S100000x8.Idx → α) (y : S100000x8.Idx) :
    broadcastInDim S100000x8x1 ![0, 1] bcast_S100000x8_S100000x8x1_0_1 x (colIdx y) = x y :=
  broadcastInDim_apply _ _ x (colIdx y) y (fun a => by match a with | ⟨0, _⟩ => rfl | ⟨1, _⟩ => rfl)

/-- A slot number read signed. -/
theorem slotA_toInt (y : S100000x8.Idx) : (slotA y).toInt = ((y 1).val : ℤ) := by
  rw [slotA_apply]
  exact Cert.Lib.HostSums.toInt_ofNat_of_lt (by have := idx2_lt1 y; omega)

/-- The first component of update y's pair is the table's entry. -/
theorem pairsA_zero (t : S100000x8.Idx → BitVec 32) (y : S100000x8.Idx) (h0 : 0 ≤ (t y).toInt) :
    pairsA t (pairIdx y 0) = t y := by
  unfold pairsA
  rw [concatenate_pairIdx_zero, bcast3_col, wrapA_apply t y h0]

/-- The second component is the slot number. -/
theorem pairsA_one (t : S100000x8.Idx → BitVec 32) (y : S100000x8.Idx) :
    pairsA t (pairIdx y 1) = slotA y := by
  unfold pairsA
  rw [concatenate_pairIdx_one, bcast3_col, wrap8A_apply slotA y (by rw [slotA_toInt]; exact Int.natCast_nonneg _)]

/-- The printed dimension numbers are those of a scatter at (row, column) pairs. -/
theorem scatter_eq_pairDims :
    scatter_S100000x8_S100000x8x2_S100000x8_n_01_01_2
      = pairDims 100000 8 100000 8 scatter_S100000x8_S100000x8x2_S100000x8_n_01_01_2_wf := rfl

/-- Update y lands on (n, j) exactly when the table's entry at y reads n and y is in column j. -/
theorem lands_iff (t : S100000x8.Idx → BitVec 32) (ht : ∀ y, 0 ≤ (t y).toInt) (n : Fin 100000) (j : Fin 8)
    (y : S100000x8.Idx) :
    scatter_S100000x8_S100000x8x2_S100000x8_n_01_01_2.resultIdx? y (pairsA t) = some (ix2 n j)
      ↔ ((t y).toInt = (n.val : ℤ) ∧ (y 1).val = j.val) := by
  rw [scatter_eq_pairDims]
  refine (resultIdx?_eq_some_iff scatter_S100000x8_S100000x8x2_S100000x8_n_01_01_2_wf y (pairsA t) (ix2 n j)).trans ?_
  rw [pairsA_zero t y (ht y), pairsA_one, slotA_toInt]
  show (t y).toInt = (n.val : ℤ) ∧ ((y 1).val : ℤ) = (j.val : ℤ) ↔ _
  constructor
  · rintro ⟨a, b⟩
    exact ⟨a, by omega⟩
  · rintro ⟨a, b⟩
    exact ⟨a, by omega⟩

/-- The scatter-add from the zero matrix: at (n, j), the sum of the updates (a, j) whose table entry reads n. -/
theorem scatA_apply (t : S100000x8.Idx → BitVec 32) (u : S100000x8.Idx → EReal) (ht : ∀ y, 0 ≤ (t y).toInt)
    (n : Fin 100000) (j : Fin 8) :
    scatA t u (ix2 n j)
      = ∑ a ∈ Finset.univ.filter (fun a : Fin 100000 => (t (ix2 a j)).toInt = (n.val : ℤ)), u (ix2 a j) := by
  unfold scatA
  rw [hostScatterAdd_apply]
  unfold Ideal.hostScatterAdd
  rw [Cert.Lib.HostSums.broadcastInDim_scalar_apply, constant_apply, Ideal.ofBits_zero_f32, zero_add,
    Finset.filter_congr (fun y _ => lands_iff t ht n j y)]
  have back : ∀ y : S100000x8.Idx, (y 1).val = j.val → ix2 (y 0) j = y := fun y h => by
    have e : (y 1 : Fin 8) = j := Fin.ext h
    rw [← e]; exact (eq_ix2 y).symm
  refine Finset.sum_nbij' (fun y => (y 0 : Fin 100000)) (fun a => ix2 a j) ?_ ?_ ?_ ?_ ?_
  · intro y hy
    obtain ⟨h1, h2⟩ := (Finset.mem_filter.1 hy).2
    refine Finset.mem_filter.2 ⟨Finset.mem_univ _, ?_⟩
    exact (congrArg (fun z => (t z).toInt) (back y h2)).trans h1
  · intro a ha
    exact Finset.mem_filter.2 ⟨Finset.mem_univ _, (Finset.mem_filter.1 ha).2, rfl⟩
  · intro y hy
    exact back y (Finset.mem_filter.1 hy).2.2
  · intro a _
    rfl
  · intro y hy
    exact congrArg u (back y (Finset.mem_filter.1 hy).2.2).symm

end Scatter

end VH

open VH

theorem wgtArr_eq (c : Dev nD) (hidx : Cert.Spec.InRange (argIdx m c)) (n : Fin 100000) (j : Fin 8) :
    wgtArr m c (ix2 n j)
      = Cert.Spec.wgt (argX m c) (argW m c) (argA m c) (argIdx m c) (argMask m c) n j := by
  -- every entry of the table reads in [0, 100000)
  have hr : ∀ i : S100000x8.Idx, 0 ≤ (argIdx m c i).toInt ∧ (argIdx m c i).toInt < 100000 := fun i =>
    (congrArg (fun z : S100000x8.Idx => 0 ≤ (argIdx m c z).toInt ∧ (argIdx m c z).toInt < 100000) (eq_ix2 i)).mpr
      (hidx (i 0) (i 1))
  -- so the clip leaves the table as it is
  have hclip : clipA (argIdx m c) = argIdx m c := funext fun i => clipA_apply _ i (hr i).1 (hr i).2
  refine (congrFun (wgtArr_chain m c) (ix2 n j)).trans ?_
  rw [hclip, scatA_apply _ _ (fun y => (hr y).1)]
  -- the logits are the specification's
  have hlogit : (fun a b => fillA (argMask m c) (takeA (flatA (scoreArr m c)) (argIdx m c)) (ix2 a b))
      = Cert.Spec.logitK (argX m c) (argW m c) (argA m c) (argIdx m c) (argMask m c) :=
    funext fun a => funext fun b => by
      rw [fillA_apply, takeA_apply _ _ a b (hidx a b).1 (hidx a b).2, flatA_apply]
      exact congrArg (fun v => Scalar.select (argMask m c (ix2 a b)) v Cert.Spec.fillv)
        (scoreArr_eq m c (Cert.Spec.nodeOf (argIdx m c) a b))
  unfold Cert.Spec.wgt
  refine Finset.sum_congr (Finset.filter_congr fun a _ => ?_) fun a _ => ?_
  · -- the entry reads n exactly when the slot names node n
    obtain ⟨e, hlt⟩ := toNat_of_range _ (hidx a j).1 (hidx a j).2
    constructor
    · intro h
      apply Fin.ext
      show (argIdx m c (ix2 a j)).toNat % 100000 = n.val
      rw [Nat.mod_eq_of_lt hlt]
      omega
    · intro h
      have h' : (argIdx m c (ix2 a j)).toNat % 100000 = n.val := congrArg Fin.val h
      rw [Nat.mod_eq_of_lt hlt] at h'
      omega
  · rw [zeroA_apply, softA_apply, hlogit]

end Cert.KernelIdeal.Val

end
-- ==== Proof.LibTileSum.lean ====
/-
  Sums over an index set made of B equal tiles followed by a tail, and the few facts about the extended reals that go
  with them. A sum over Fin (B * E + N) is the sum over the B tiles of E plus the sum over the tail of N, and the same
  holds for a sum restricted by a predicate; a sum over the tiles of a quantity that does not depend on the tile is B
  copies of it; a sum over the places of Fin N equal to j is the term at j; B copies of a REAL number c, added in the
  extended reals, are (B : ℝ) * c (the extended reals are not a semiring, so the statement is made for real c); the
  inclusion of the reals commutes with finite sums, so a finite sum of real numbers is a real number; a sum of a one per
  element is the number of elements; the reciprocal square root of 1 is 1 and that of a positive real r is the real
  number (sqrt r)⁻¹; and in a family of integers all below K nobody equals a j with K ≤ j.
-/
import Idealize.ShloMosaic.PureOps.Ideal

noncomputable section

namespace Cert.Lib.TileSum

open Idealize.ShloMosaic

/-! ### Tiles and tail -/

theorem tile_lt {B E : ℕ} (N : ℕ) (t : Fin B) (e : Fin E) : t.val * E + e.val < B * E + N := by
  have h1 : t.val * E + e.val < (t.val + 1) * E := by
    have := e.isLt
    rw [Nat.add_mul, Nat.one_mul]
    omega
  have h2 : (t.val + 1) * E ≤ B * E := Nat.mul_le_mul_right E (Nat.succ_le_of_lt t.isLt)
  omega

/-- The flat position of element e of tile t: t * E + e. -/
def tileIx (B E N : ℕ) (t : Fin B) (e : Fin E) : Fin (B * E + N) := ⟨t.val * E + e.val, tile_lt N t e⟩

/-- The flat position of element n of the tail: B * E + n. -/
def tailIx (B E N : ℕ) (n : Fin N) : Fin (B * E + N) := ⟨B * E + n.val, by have := n.isLt; omega⟩

@[simp] theorem tileIx_val (B E N : ℕ) (t : Fin B) (e : Fin E) : (tileIx B E N t e).val = t.val * E + e.val := rfl
@[simp] theorem tailIx_val (B E N : ℕ) (n : Fin N) : (tailIx B E N n).val = B * E + n.val := rfl

/-- A sum over Fin (B * E) is the sum over the B tiles of the sums over the E places of a tile. -/
theorem sum_tiles {M : Type*} [AddCommMonoid M] (B E : ℕ) (g : Fin (B * E) → M) :
    ∑ k : Fin (B * E), g k = ∑ t : Fin B, ∑ e : Fin E, g ⟨t.val * E + e.val, by simpa using tile_lt 0 t e⟩ := by
  rw [← Fintype.sum_prod_type' (f := fun (t : Fin B) (e : Fin E) => g ⟨t.val * E + e.val, by simpa using tile_lt 0 t e⟩)]
  rw [← (finProdFinEquiv (m := B) (n := E)).sum_comp g]
  refine Finset.sum_congr rfl fun p _ => ?_
  congr 1
  apply Fin.ext
  simp [finProdFinEquiv, Nat.mul_comm, Nat.add_comm]

/-- A sum over Fin (B * E + N) is the sum over the B tiles of E plus the sum over the tail of N. -/
theorem sum_tiles_tail {M : Type*} [AddCommMonoid M] (B E N : ℕ) (f : Fin (B * E + N) → M) :
    ∑ k : Fin (B * E + N), f k
      = (∑ t : Fin B, ∑ e : Fin E, f (tileIx B E N t e)) + ∑ n : Fin N, f (tailIx B E N n) := by
  rw [Fin.sum_univ_add, sum_tiles]
  rfl

/-- The same for a sum restricted by a predicate: each tile, and the tail, restricted by the predicate at its places. -/
theorem sum_filter_tiles_tail {M : Type*} [AddCommMonoid M] (B E N : ℕ) (p : Fin (B * E + N) → Prop) [DecidablePred p]
    (f : Fin (B * E + N) → M) :
    ∑ k ∈ Finset.univ.filter p, f k
      = (∑ t : Fin B, ∑ e ∈ Finset.univ.filter (fun e => p (tileIx B E N t e)), f (tileIx B E N t e))
        + ∑ n ∈ Finset.univ.filter (fun n => p (tailIx B E N n)), f (tailIx B E N n) := by
  rw [Finset.sum_filter, sum_tiles_tail]
  simp only [Finset.sum_filter]

/-- A sum over the B tiles of a quantity that does not depend on the tile is B copies of it. -/
theorem sum_tiles_const {M : Type*} [AddCommMonoid M] (B : ℕ) (c : M) : ∑ _t : Fin B, c = B • c := by
  simp

/-- A sum over the places of Fin N whose value is j is the term at j. -/
theorem sum_filter_val_eq {M : Type*} [AddCommMonoid M] {N : ℕ} (j : ℕ) (hj : j < N) (f : Fin N → M) :
    ∑ n ∈ Finset.univ.filter (fun n : Fin N => n.val = j), f n = f ⟨j, hj⟩ := by
  have h : Finset.univ.filter (fun n : Fin N => n.val = j) = {⟨j, hj⟩} := by
    ext n
    simp [Fin.ext_iff]
  rw [h, Finset.sum_singleton]

/-! ### Real numbers inside the extended reals -/

/-- The inclusion of the reals commutes with finite sums. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem exists_real_sum {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_finset_sum]; exact Finset.sum_congr rfl hg⟩

/-- A product of two real numbers is a real number. -/
theorem exists_real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- B copies of a real number c are (B : ℝ) * c. -/
theorem nsmul_coe (B : ℕ) (c : ℝ) : B • (c : EReal) = ((B : ℝ) : EReal) * (c : EReal) := by
  rw [← EReal.coe_nsmul, nsmul_eq_mul, EReal.coe_mul]

/-- B copies of a real number c, summed over the tiles, are (B : ℝ) * c. -/
theorem sum_tiles_real (B : ℕ) (c : ℝ) : ∑ _t : Fin B, (c : EReal) = ((B : ℝ) : EReal) * (c : EReal) := by
  rw [sum_tiles_const, nsmul_coe]

/-- A sum of a one per element, in the extended reals, is the number of elements. -/
theorem sum_ones {ι : Type*} (s : Finset ι) : ∑ _i ∈ s, (1 : EReal) = ((s.card : ℝ) : EReal) := by
  have h := coe_finset_sum s (fun _ => (1 : ℝ))
  rw [Finset.sum_const, nsmul_eq_mul, mul_one] at h
  rw [h]
  simp only [EReal.coe_one]

/-! ### The reciprocal square root -/

/-- The reciprocal square root of 1 is 1. -/
theorem rsqrt_one : Ideal.rsqrt ((1 : ℝ) : EReal) = 1 := by
  rw [Ideal.rsqrt_coe]
  norm_num

/-- The reciprocal square root of a positive real r is the real number (sqrt r)⁻¹. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a real number. -/
theorem exists_real_rsqrt {r : ℝ} (h : 0 < r) : ∃ q : ℝ, Ideal.rsqrt (r : EReal) = (q : EReal) :=
  ⟨_, rsqrt_pos h⟩

/-! ### Bounded targets -/

/-- In a family of integers all below K, nobody equals a j with K ≤ j. -/
theorem filter_eq_empty_of_lt {E : ℕ} (d : Fin E → ℤ) (K : ℤ) (hd : ∀ e, d e < K) (j : ℤ) (hj : K ≤ j) :
    Finset.univ.filter (fun e => d e = j) = ∅ := by
  apply Finset.filter_eq_empty_iff.mpr
  intro e _ he
  have := hd e
  omega

end Cert.Lib.TileSum

end
-- ==== Proof.KI.Val1.lean ====
/-
  What region 1 leaves in its output array: half h (five consecutive tiles of 10000 nodes) receives, at (j, f),
  the sum over its nodes of the weight table's entry times the feature row's entry, the accumulator starting
  from zero at the half's first tile.

  The steps. The body's three values at an entry: the zero splat reads 0; the update reads the carried entry plus
  the product of the two loaded tiles, both contracted along their rows, so entry (j, f) of the product is the sum
  over the tile's 10000 rows r of w[r, j] * x[r, f]; the stored block is the accumulator with a leading unit axis.
  The tile loaded at point t is rows 10000 t … 10000 t + 9999 of its table. The accumulator restarts at the points
  divisible by 5 and otherwise continues from the point before, so after the k-th point of a half it is 0 plus the
  sum of that half's first k + 1 tile products; only commutativity and associativity of the extended reals' addition
  are used. The output's block at point t is half t / 5, written only at the points ≡ 4 (mod 5): the two written
  blocks are the two halves, each holding its half's last accumulator.
-/
import proofs.«406324_j84542136254541_3_alg».proof.Proof.KI.Args
import proofs.«406324_j84542136254541_3_alg».proof.Proof.LibMatProduct
import proofs.«406324_j84542136254541_3_alg».proof.Proof.LibTileSum
import Idealize.ShloMosaic.Lib.Pipeline.Value
import Idealize.ShloMosaic.PureOps.Ideal.Laws
import Idealize.ShloMosaic.Lib.ValueLayout

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand

-- the TensorCore's buffer contents when region 1 is entered
variable (V : (c : Dev nD) → (b : Ref sig .tc) → Buf (Elt Ideal) ((c : Thread nD τ).loc b))

/-- Node r of tile t of half h. -/
abbrev rowAt (h : Fin 2) (t : Fin 5) (r : Fin 10000) : Fin 100000 :=
  ⟨(h.val * 5 + t.val) * 10000 + r.val, by have := h.isLt; have := t.isLt; have := r.isLt; omega⟩

/-- The weight table and the feature array as region 1 finds them, and the output array as it leaves it. -/
abbrev wIn (c : Dev nD) : S100000x8.Idx → EReal := V c main_v41
abbrev hIn (c : Dev nD) : S100000x128.Idx → EReal := V c main_v1_0
abbrev halvesOf (c : Dev nD) : S2x8x128.Idx → EReal := (dat1 (F := Ideal) V c).arrAt 2 cfg1.N

namespace Val1

/-! ## The body's values at an entry -/

/-- The product of a 10000 x 8 tile and a 10000 x 128 tile, both contracted along their rows, into the zero splat:
    entry (j, f) is the sum over the rows r of A[r, j] * B[r, f]. The contraction has one axis, so its index is
    the row number; on each operand the contracted axis reads that row and the other axis reads the entry's
    coordinate. -/
theorem tileProd_apply (A : FVec Ideal S10000x8 .bf16) (B : FVec Ideal S10000x128 .bf16) (j : Fin 8) (f : Fin 128) :
    matmul dot_S10000x8_S10000x128_S8x128_0_0_1_1_n_n none A B (constant S8x128 .f32 0x00000000#32) (ix2 j f)
      = ∑ r : Fin 10000, A (ix2 r j) * B (ix2 r f) := by
  show FloatOps.matmul _ none A B _ (ix2 j f) = _
  rw [Ideal.matmul_constant_zero_apply,
    ← Equiv.sum_comp (contrEquiv1 dot_S10000x8_S10000x128_S8x128_0_0_1_1_n_n 10000 rfl rfl).symm]
  refine Finset.sum_congr rfl fun r _ => ?_
  have c2 := contrEquiv1_symm_val dot_S10000x8_S10000x128_S8x128_0_0_1_1_n_n 10000 rfl rfl r
  have l2 : dot_S10000x8_S10000x128_S8x128_0_0_1_1_n_n.lhsIdx (ix2 j f) ((contrEquiv1 _ 10000 rfl rfl).symm r) = ix2 r j := by
    funext ax; apply Fin.ext
    match ax with
    | ⟨0, _⟩ => simp [DotDims.lhsIdx, dot_S10000x8_S10000x128_S8x128_0_0_1_1_n_n]; exact c2
    | ⟨1, _⟩ => simp [DotDims.lhsIdx, dot_S10000x8_S10000x128_S8x128_0_0_1_1_n_n]; rfl
  have r2 : dot_S10000x8_S10000x128_S8x128_0_0_1_1_n_n.rhsIdx (ix2 j f) ((contrEquiv1 _ 10000 rfl rfl).symm r) = ix2 r f := by
    funext ax; apply Fin.ext
    match ax with
    | ⟨0, _⟩ => simp [DotDims.rhsIdx, dot_S10000x8_S10000x128_S8x128_0_0_1_1_n_n]; exact c2
    | ⟨1, _⟩ => simp [DotDims.rhsIdx, dot_S10000x8_S10000x128_S8x128_0_0_1_1_n_n]; rfl
  rw [l2, r2]

/-- The value a half restarts from is zero everywhere. -/
theorem pay1_apply (i : S8x128.Idx) : (k1_pay1 (F := Ideal)) i = 0 := by
  unfold k1_pay1
  rw [shapeCast_self]
  exact Ideal.ofBits_zero_f32

/-- The update at an entry: the carried entry plus the tiles' product there (the change of number format and the
    casts to the same shape are identities on extended reals). -/
theorem pay2_apply (A : Vec Ideal S10000x8 .f32) (B : Vec Ideal S10000x128 .bf16) (acc : Vec Ideal S8x128 .f32)
    (j : Fin 8) (f : Fin 128) :
    k1_pay2 A B acc (ix2 j f) = acc (ix2 j f) + ∑ r : Fin 10000, A (ix2 r j) * B (ix2 r f) := by
  unfold k1_pay2
  simp only [shapeCast_self]
  exact congrArg (acc (ix2 j f) + ·) (tileProd_apply _ B j f)

/-- The stored block is the accumulator under a leading unit axis: (0, j, f) and (j, f) have the same row-major
    position. -/
theorem pay3_apply (X : Vec Ideal S8x128 .f32) (j : Fin 8) (f : Fin 128) :
    k1_pay3 X (ix3 (0 : Fin 1) j f) = X (ix2 j f) := by
  unfold k1_pay3
  refine (shapeCast_apply X shapeCasts_S8x128_S1x8x128 (ix3 (0 : Fin 1) j f) (ix2 j f) ?_).trans rfl
  rw [Shape.rowMajor_val_three, Shape.rowMajor_val_two]
  show j.val * 128 + f.val = (0 * 8 + j.val) * 128 + f.val
  omega

/-! ## Where the blocks sit -/

/-- Over the ten points: the inputs' block at point t is row tile t of its table (t = 5 (t / 5) + t % 5), and the
    output's block is half t / 5. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 3) = t.val / 5 ∧ win1_2.index t (1 : Fin 3) = 0 ∧ win1_2.index t (2 : Fin 3) = 0 :=
  (by decide +kernel : ∀ t : Fin grid1.N, _)

/-- The two tiles loaded at point t, as arrays of extended reals. -/
abbrev wT (c : Dev nD) (t : Fin cfg1.N) : S10000x8.Idx → EReal := wTile (F := Ideal) V c t
abbrev hT (c : Dev nD) (t : Fin cfg1.N) : S10000x128.Idx → EReal := whTile (F := Ideal) V c t

/-- Row r of the weight tile at point t is row 10000 t + r of the weight table: a block's coordinate in the array is
    the block index times the block's extent plus the coordinate inside the block. -/
theorem wT_apply (c : Dev nD) (t : Fin cfg1.N) (r : Fin 10000) (j : Fin 8) :
    wT V c t (ix2 r j)
      = wIn V c (ix2 (⟨t.val * 10000 + r.val, by have := t.isLt; have hN : cfg1.N = 10 := N_1; omega⟩ : Fin 100000) j) := by
  obtain ⟨e0, e1, -⟩ := idx_facts t
  show iblk1 (F := Ideal) V c 0 t (ix2 r j) = _
  unfold iblk1
  rw [View.read_apply]
  show V c main_v41 _ = V c main_v41 _
  congr 1
  funext a; apply Fin.ext
  match a with
  | ⟨0, _⟩ => show win1_0.index t (0 : Fin 2) * 10000 + 1 * r.val = t.val * 10000 + r.val; rw [e0]; omega
  | ⟨1, _⟩ => show win1_0.index t (1 : Fin 2) * 8 + 1 * j.val = j.val; rw [e1]; omega

/-- Row r of the feature tile at point t is row 10000 t + r of the feature array. -/
theorem hT_apply (c : Dev nD) (t : Fin cfg1.N) (r : Fin 10000) (f : Fin 128) :
    hT V c t (ix2 r f)
      = hIn V c (ix2 (⟨t.val * 10000 + r.val, by have := t.isLt; have hN : cfg1.N = 10 := N_1; omega⟩ : Fin 100000) f) := by
  obtain ⟨-, -, e0, e1, -⟩ := idx_facts t
  show iblk1 (F := Ideal) V c 1 t (ix2 r f) = _
  unfold iblk1
  rw [View.read_apply]
  show V c main_v1_0 _ = V c main_v1_0 _
  congr 1
  funext a; apply Fin.ext
  match a with
  | ⟨0, _⟩ => show win1_1.index t (0 : Fin 2) * 10000 + 1 * r.val = t.val * 10000 + r.val; rw [e0]; omega
  | ⟨1, _⟩ => show win1_1.index t (1 : Fin 2) * 128 + 1 * f.val = f.val; rw [e1]; omega

/-! ## The accumulator along a half -/

/-- The accumulator restarts from zero at the first point of a half … -/
theorem accAt_reset (c : Dev nD) : ∀ (n : ℕ) (h : n < cfg1.N), n % 5 = 0 →
    accAt (F := Ideal) V c n h = k1_pay2 (wTile V c ⟨n, h⟩) (whTile V c ⟨n, h⟩) (k1_pay1 (F := Ideal))
  | 0, h, _ => rfl
  | n + 1, h, hm => by rw [accAt_succ, if_pos hm]

/-- … and continues from the point before at every other point. -/
theorem accAt_step (c : Dev nD) (n : ℕ) (h : n + 1 < cfg1.N) (hm : ¬(n + 1) % 5 = 0) :
    accAt (F := Ideal) V c (n + 1) h
      = k1_pay2 (wTile V c ⟨n + 1, h⟩) (whTile V c ⟨n + 1, h⟩) (accAt V c n (Nat.lt_of_succ_lt h)) := by
  rw [accAt_succ, if_neg hm]

/-- The product of the two tiles of point n at an entry: the sum over the tile's rows (set to zero past the last
    point, where it is never read). -/
def tileProd (c : Dev nD) (n : ℕ) (i : S8x128.Idx) : EReal :=
  if h : n < cfg1.N then
    ∑ r : Fin 10000, wT V c ⟨n, h⟩ (ix2 r ⟨(i 0).val, idx2_lt0 i⟩) * hT V c ⟨n, h⟩ (ix2 r ⟨(i 1).val, idx2_lt1 i⟩)
  else 0

theorem tileProd_ix2 (c : Dev nD) (n : ℕ) (h : n < cfg1.N) (j : Fin 8) (f : Fin 128) :
    tileProd V c n (ix2 j f) = ∑ r : Fin 10000, wT V c ⟨n, h⟩ (ix2 r j) * hT V c ⟨n, h⟩ (ix2 r f) := by
  unfold tileProd
  rw [dif_pos h]

/-- After the k-th point of half q (k = 0 … 4) the accumulator is 0 plus the sum of the half's first k + 1 tile
    products: it restarts at 0 + (first product) and each later point adds its own product. -/
theorem acc_half (c : Dev nD) (q k : ℕ) (hk : k < 5) (h : 5 * q + k < cfg1.N) (i : S8x128.Idx) :
    accAt (F := Ideal) V c (5 * q + k) h i = 0 + ∑ s ∈ Finset.range (k + 1), tileProd V c (5 * q + s) i := by
  have e := Pipeline.eq_accAt (N := cfg1.N) (fun n hn => accAt (F := Ideal) V c n hn) 5
    (fun n hn => k1_pay2 (wTile V c ⟨n, hn⟩) (whTile V c ⟨n, hn⟩) (k1_pay1 (F := Ideal)))
    (fun n hn acc => k1_pay2 (wTile V c ⟨n, hn⟩) (whTile V c ⟨n, hn⟩) acc)
    (accAt_reset V c) (accAt_step V c) q k hk h
  refine (congrFun e i).trans ?_
  refine Pipeline.accAt_add_apply (ι := S8x128.Idx) (β := EReal) _ _ (fun _ => 0) (tileProd V c) (5 * q) 4 ?_ ?_ k (by omega) h i
  · intro h0 i
    obtain ⟨j, f, rfl⟩ : ∃ (j : Fin 8) (f : Fin 128), i = ix2 j f := ⟨i 0, i 1, eq_ix2 i⟩
    rw [pay2_apply, pay1_apply, tileProd_ix2 V c _ h0]
  · intro n hn acc i _ _
    obtain ⟨j, f, rfl⟩ : ∃ (j : Fin 8) (f : Fin 128), i = ix2 j f := ⟨i 0, i 1, eq_ix2 i⟩
    rw [pay2_apply, tileProd_ix2 V c n hn]

/-! ## From the two written blocks to the array -/

theorem idx3_lt0 {n0 n1 n2 : Nat} (i : (⟨3, ![n0, n1, n2]⟩ : Shape).Idx) : (i 0).val < n0 := (i 0).isLt
theorem idx3_lt1 {n0 n1 n2 : Nat} (i : (⟨3, ![n0, n1, n2]⟩ : Shape).Idx) : (i 1).val < n1 := (i 1).isLt
theorem idx3_lt2 {n0 n1 n2 : Nat} (i : (⟨3, ![n0, n1, n2]⟩ : Shape).Idx) : (i 2).val < n2 := (i 2).isLt

/-- The accumulator at the last point of half h. -/
def halfAcc (c : Dev nD) (h : Fin 2) : S8x128.Idx → EReal :=
  accAt (F := Ideal) V c (5 * h.val + 4) (by have := h.isLt; have hN : cfg1.N = 10 := N_1; omega)

/-- The output array as one function of its index: half (i 0) holds that half's last accumulator. -/
def halvesG (c : Dev nD) : S2x8x128.Idx → EReal := fun i =>
  halfAcc V c ⟨(i 0).val, idx3_lt0 i⟩ (ix2 ⟨(i 1).val, idx3_lt1 i⟩ ⟨(i 2).val, idx3_lt2 i⟩)

/-- That function at an index whose half's last point is n and whose other coordinates are (j, f). -/
theorem halvesG_of (c : Dev nD) (i : S2x8x128.Idx) (n : ℕ) (hn : n < cfg1.N) (j : Fin 8) (f : Fin 128)
    (e0 : n = 5 * (i 0).val + 4) (e1 : (i 1).val = j.val) (e2 : (i 2).val = f.val) :
    halvesG V c i = accAt (F := Ideal) V c n hn (ix2 j f) := by
  subst e0
  unfold halvesG halfAcc
  have a1 : (⟨(i 1).val, idx3_lt1 i⟩ : Fin 8) = j := Fin.ext e1
  have a2 : (⟨(i 2).val, idx3_lt2 i⟩ : Fin 128) = f := Fin.ext e2
  rw [a1, a2]

/-- What a writing point t (t % 5 = 4) writes back is its block of that function: the block is half t / 5, whose last
    point is t itself. -/
theorem flushed_eq (c : Dev nD) (t : Fin cfg1.N) (hf : (cfg1.win 2).flush t = true) :
    (dat1 (F := Ideal) V c).flushed 2 t = ((cfg1.win 2).blk t).view.read (Elt Ideal) (halvesG V c) := by
  have hN : cfg1.N = 10 := N_1
  have h4 : t.val % 5 = 4 := (flush1_2 t).mp hf
  obtain ⟨-, -, -, -, e0, e1, e2⟩ := idx_facts t
  show (cfg1.win 2).cut (grid1.coords t) ((dat1 (F := Ideal) V c).after 2 t) = _
  rw [after1_2]
  funext y
  rw [View.read_apply]
  obtain ⟨y0, j, f, rfl⟩ : ∃ (y0 : Fin 1) (j : Fin 8) (f : Fin 128), y = ix3 y0 j f := ⟨y 0, y 1, y 2, eq_ix3 y⟩
  obtain rfl : y0 = 0 := Subsingleton.elim _ _
  show k1_pay3 (accAt (F := Ideal) V c t.val t.isLt) (ix3 (0 : Fin 1) j f)
    = halvesG V c (((cfg1.win 2).blk t).view.emb (ix3 (0 : Fin 1) j f))
  rw [pay3_apply]
  refine (halvesG_of V c _ t.val t.isLt j f ?_ ?_ ?_).symm
  · show t.val = 5 * (win1_2.index t (0 : Fin 3) * 1 + 1 * 0) + 4
    rw [e0]; omega
  · show win1_2.index t (1 : Fin 3) * 8 + 1 * j.val = j.val
    rw [e1]; omega
  · show win1_2.index t (2 : Fin 3) * 128 + 1 * f.val = f.val
    rw [e2]; omega

/-- An index of the array is in point t's block iff each coordinate is in the block's range on its axis. -/
theorem mem_blk (t : Fin cfg1.N) (i : S2x8x128.Idx) :
    i ∈ ((cfg1.win 2).blk t).view.set ↔ ∀ a : Fin 3, win1_2.index t a * S1x8x128.size a ≤ (i a).val
      ∧ (i a).val < win1_2.index t a * S1x8x128.size a + S1x8x128.size a := by
  show i ∈ ((View.whole main_v42).slice (win1_2.rect t)).set ↔ _
  rw [View.set_slice_whole, Rect.mem_set_unit]
  exact Iff.rfl

/-- Every entry of half h lies in the block written at that half's last point, 5 h + 4. -/
theorem cover (i : S2x8x128.Idx) :
    ∃ t : Fin cfg1.N, (cfg1.win 2).flush t = true ∧ i ∈ ((cfg1.win 2).blk t).view.set := by
  have hN : cfg1.N = 10 := N_1
  have h0 : (i 0).val < 2 := idx3_lt0 i
  have h1 : (i 1).val < 8 := idx3_lt1 i
  have h2 : (i 2).val < 128 := idx3_lt2 i
  have ht : 5 * (i 0).val + 4 < cfg1.N := by omega
  obtain ⟨-, -, -, -, e0, e1, e2⟩ := idx_facts ⟨5 * (i 0).val + 4, ht⟩
  have e0' : win1_2.index ⟨5 * (i 0).val + 4, ht⟩ (0 : Fin 3) = (5 * (i 0).val + 4) / 5 := e0
  refine ⟨⟨5 * (i 0).val + 4, ht⟩, (flush1_2 _).mpr (by show (5 * (i 0).val + 4) % 5 = 4; omega), ?_⟩
  rw [mem_blk]
  intro a
  match a with
  | ⟨0, _⟩ =>
    show win1_2.index ⟨5 * (i 0).val + 4, ht⟩ (0 : Fin 3) * 1 ≤ (i 0).val
      ∧ (i 0).val < win1_2.index ⟨5 * (i 0).val + 4, ht⟩ (0 : Fin 3) * 1 + 1
    rw [e0']; omega
  | ⟨1, _⟩ =>
    show win1_2.index ⟨5 * (i 0).val + 4, ht⟩ (1 : Fin 3) * 8 ≤ (i 1).val
      ∧ (i 1).val < win1_2.index ⟨5 * (i 0).val + 4, ht⟩ (1 : Fin 3) * 8 + 8
    rw [e1]; omega
  | ⟨2, _⟩ =>
    show win1_2.index ⟨5 * (i 0).val + 4, ht⟩ (2 : Fin 3) * 128 ≤ (i 2).val
      ∧ (i 2).val < win1_2.index ⟨5 * (i 0).val + 4, ht⟩ (2 : Fin 3) * 128 + 128
    rw [e2]; omega

/-- So the output array ends holding, in each half, that half's last accumulator. -/
theorem final (c : Dev nD) : (dat1 (F := Ideal) V c).arrAt 2 cfg1.N = halvesG V c :=
  (dat1 (F := Ideal) V c).arrAt_eq_of_cover 2 (halvesG V c) (fun t hf => flushed_eq V c t hf) cover

end Val1

open Val1 in
/-- Entry (h, j, f) of the output array is the sum, over the five tiles of half h and the 10000 nodes of each, of the
    weight table's entry (node, j) times the feature array's entry (node, f). -/
theorem halves_eq (c : Dev nD) (h : Fin 2) (j : Fin 8) (f : Fin 128) :
    halvesOf V c (ix3 h j f)
      = ∑ t : Fin 5, ∑ r : Fin 10000, wIn V c (ix2 (rowAt h t r) j) * hIn V c (ix2 (rowAt h t r) f) := by
  have hN : cfg1.N = 10 := N_1
  have hh : h.val < 2 := h.isLt
  have hlt : 5 * h.val + 4 < cfg1.N := by omega
  refine (congrFun (final V c) (ix3 h j f)).trans ?_
  refine (halvesG_of V c (ix3 h j f) (5 * h.val + 4) hlt j f rfl rfl rfl).trans ?_
  rw [acc_half V c h.val 4 (by omega) hlt (ix2 j f), zero_add, Finset.sum_range]
  refine Finset.sum_congr rfl fun t _ => ?_
  have htl : 5 * h.val + t.val < cfg1.N := by have := t.isLt; omega
  rw [tileProd_ix2 V c _ htl]
  refine Finset.sum_congr rfl fun r _ => ?_
  rw [wT_apply, hT_apply]
  have e : (⟨(5 * h.val + t.val) * 10000 + r.val, by have := t.isLt; have := r.isLt; omega⟩ : Fin 100000) = rowAt h t r :=
    Fin.ext (by show (5 * h.val + t.val) * 10000 + r.val = (h.val * 5 + t.val) * 10000 + r.val; omega)
  exact congrArg₂ (fun a b => wIn V c (ix2 a j) * hIn V c (ix2 b f)) e e

end Cert.KernelIdeal.Val

end
-- ==== Proof.KI.ValOut.lean ====
/-
  The kernel's result: the two halves added, which is the sum over all nodes of weight times feature.

  After the second region the output array holds two 8 x 128 blocks, one per half of the node range. The last host
  operations cut each block out, drop its leading unit axis and add the two. Each half is the sum, over its five tiles
  of 10000 nodes, of the weight table's entry times the feature row's entry; the 2 * 5 * 10000 rows (h, t, r) are
  exactly the 100000 nodes n = (h * 5 + t) * 10000 + r, each once, so the two halves together are the sum over every
  node. The weight table is the one the host stretch between the regions built, and the feature array is the one the
  first region left: none of the host operations in between writes it.
-/
import proofs.«406324_j84542136254541_3_alg».proof.Proof.KI.ValHost
import proofs.«406324_j84542136254541_3_alg».proof.Proof.KI.Val1
import proofs.«406324_j84542136254541_3_alg».proof.Proof.LibTileSum
import proofs.«406324_j84542136254541_3_alg».proof.Proof.Gen.KernelIdeal.Regions

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ)

/-! ## The last host operations -/

/-- The two blocks of a 2 x 8 x 128 array cut out, flattened to 8 x 128 and added. -/
def tailFn (x : S2x8x128.Idx → EReal) : S8x128.Idx → EReal :=
  addf (F := Ideal) (φ := .f32)
    (shapeCast S8x128 (extractStridedSlice S1x8x128 ![0, 0, 0] x slices_S2x8x128_S1x8x128_0_0_0) shapeCasts_S1x8x128_S8x128)
    (shapeCast S8x128 (extractStridedSlice S1x8x128 ![1, 0, 0] x slices_S2x8x128_S1x8x128_1_0_0) shapeCasts_S1x8x128_S8x128)

/-- What is returned is that function of the array the second region leaves. -/
theorem result_tail (c : Dev nD) : resultArr m c = tailFn (halvesArr m c) := by
  show StableHlo.after hostOps2 _ (Proc.devRef .tc main_v47) = _
  after_results
  rw [show W10 (F := Ideal) m c (Proc.devRef .tc main_v42) = halvesArr m c from W10_arr m c 2]
  rfl

/-- At (j, f) it is block 0's entry plus block 1's entry: position (0, j, f) of a 1 x 8 x 128 array and position
    (j, f) of an 8 x 128 array are both the j * 128 + f-th in row-major order, and the cut at offset h along the
    leading axis reads the source at (h, j, f). -/
theorem tailFn_apply (x : S2x8x128.Idx → EReal) (j : Fin 8) (f : Fin 128) :
    tailFn x (ix2 j f) = x (ix3 0 j f) + x (ix3 1 j f) := by
  unfold tailFn
  rw [addf_apply]
  have cast_at : ∀ (y : S1x8x128.Idx → EReal),
      shapeCast S8x128 y shapeCasts_S1x8x128_S8x128 (ix2 j f) = y (ix3 0 j f) := by
    intro y
    refine shapeCast_apply y shapeCasts_S1x8x128_S8x128 (ix2 j f) (ix3 0 j f) ?_
    rw [Shape.rowMajor_val_three, Shape.rowMajor_val_two]
    show (0 * 8 + j.val) * 128 + f.val = j.val * 128 + f.val
    omega
  have cut0 : extractStridedSlice S1x8x128 ![0, 0, 0] x slices_S2x8x128_S1x8x128_0_0_0 (ix3 0 j f) = x (ix3 0 j f) :=
    extractStridedSlice_apply _ _ _ _ _ (fun ax => by
      match ax with
      | ⟨0, _⟩ => rfl
      | ⟨1, _⟩ => exact (Nat.zero_add _).symm
      | ⟨2, _⟩ => exact (Nat.zero_add _).symm)
  have cut1 : extractStridedSlice S1x8x128 ![1, 0, 0] x slices_S2x8x128_S1x8x128_1_0_0 (ix3 0 j f) = x (ix3 1 j f) :=
    extractStridedSlice_apply _ _ _ _ _ (fun ax => by
      match ax with
      | ⟨0, _⟩ => rfl
      | ⟨1, _⟩ => exact (Nat.zero_add _).symm
      | ⟨2, _⟩ => exact (Nat.zero_add _).symm)
  rw [cast_at, cast_at, cut0, cut1]

/-! ## The arrays the second region reads -/

/-- The feature array the second region reads is the one the first region left: no host operation between the two
    regions writes it. -/
theorem hIn_eq (c : Dev nD) : hIn (V9 m) c = featArr m c := by
  show W9 (F := Ideal) m c (Proc.devRef .tc main_v1_0) = _
  have e9 : W9 (F := Ideal) m c (Proc.devRef .tc main_v1_0) = W8 (F := Ideal) m c (Proc.devRef .tc main_v1_0) :=
    StableHlo.after_of_writes_sub hostOps1_6 _ hostOps1_6_writes (by decide)
  have e8 : W8 (F := Ideal) m c (Proc.devRef .tc main_v1_0) = W7 (F := Ideal) m c (Proc.devRef .tc main_v1_0) :=
    StableHlo.after_of_writes_sub hostOps1_5 _ hostOps1_5_writes (by decide)
  have e7 : W7 (F := Ideal) m c (Proc.devRef .tc main_v1_0) = W6 (F := Ideal) m c (Proc.devRef .tc main_v1_0) :=
    StableHlo.after_of_writes_sub hostOps1_4 _ hostOps1_4_writes (by decide)
  have e6 : W6 (F := Ideal) m c (Proc.devRef .tc main_v1_0) = W5 (F := Ideal) m c (Proc.devRef .tc main_v1_0) :=
    StableHlo.after_of_writes_sub hostOps1_3 _ hostOps1_3_writes (by decide)
  have e5 : W5 (F := Ideal) m c (Proc.devRef .tc main_v1_0) = W4 (F := Ideal) m c (Proc.devRef .tc main_v1_0) :=
    StableHlo.after_of_writes_sub hostOps1_2 _ hostOps1_2_writes (by decide)
  have e4 : W4 (F := Ideal) m c (Proc.devRef .tc main_v1_0) = W3 (F := Ideal) m c (Proc.devRef .tc main_v1_0) :=
    StableHlo.after_of_writes_sub hostOps1_1 _ hostOps1_1_writes (by decide)
  have e3 : W3 (F := Ideal) m c (Proc.devRef .tc main_v1_0) = W2 (F := Ideal) m c (Proc.devRef .tc main_v1_0) :=
    StableHlo.after_of_writes_sub hostOps1 _ hostOps1_writes (by decide)
  rw [e9, e8, e7, e6, e5, e4, e3]
  exact W2_arr m c 3

/-! ## All the nodes, half by half -/

/-- A sum over all 100000 nodes, taken half by half, tile by tile, row by row: 100000 = 10 * 10000 splits the nodes
    into ten tiles, and 10 = 2 * 5 splits the tiles into two halves of five. -/
theorem sum_rows {M : Type*} [AddCommMonoid M] (g : Fin 100000 → M) :
    ∑ n : Fin 100000, g n = ∑ h : Fin 2, ∑ t : Fin 5, ∑ r : Fin 10000, g (rowAt h t r) := by
  have e1 := Cert.Lib.TileSum.sum_tiles 10 10000 (fun k : Fin (10 * 10000) => g k)
  have e2 := Cert.Lib.TileSum.sum_tiles 2 5
    (fun u : Fin (2 * 5) => ∑ e : Fin 10000, g ⟨u.val * 10000 + e.val, by have := u.isLt; have := e.isLt; omega⟩)
  exact e1.trans e2

/-! ## The result -/

theorem result_eq (c : Dev nD) (hidx : Cert.Spec.InRange (argIdx m c)) :
    resultArr m c = Cert.Spec.kernelOut (argX m c) (argW m c) (argA m c) (argIdx m c) (argMask m c) := by
  funext i
  obtain ⟨j, f, rfl⟩ : ∃ (j : Fin 8) (f : Fin 128), i = ix2 j f := ⟨i 0, i 1, eq_ix2 i⟩
  -- one node's term: the weight table's entry is the specification's weight, the feature array's entry its feature
  have term : ∀ n : Fin 100000,
      wIn (V9 m) c (ix2 n j) * hIn (V9 m) c (ix2 n f)
        = Cert.Spec.wgt (argX m c) (argW m c) (argA m c) (argIdx m c) (argMask m c) n j
            * Cert.Spec.feat (argX m c) (argW m c) n f := by
    intro n
    have e1 : wIn (V9 m) c (ix2 n j)
        = Cert.Spec.wgt (argX m c) (argW m c) (argA m c) (argIdx m c) (argMask m c) n j := wgtArr_eq m c hidx n j
    have e2 : hIn (V9 m) c (ix2 n f) = Cert.Spec.feat (argX m c) (argW m c) n f :=
      (congrFun (hIn_eq m c) (ix2 n f)).trans (featArr_eq m c n f)
    rw [e1, e2]
  calc resultArr m c (ix2 j f)
      = halvesArr m c (ix3 0 j f) + halvesArr m c (ix3 1 j f) := by rw [result_tail, tailFn_apply]
    _ = ∑ h : Fin 2, ∑ t : Fin 5, ∑ r : Fin 10000,
          wIn (V9 m) c (ix2 (rowAt h t r) j) * hIn (V9 m) c (ix2 (rowAt h t r) f) := by
        rw [Fin.sum_univ_two]
        exact congrArg₂ (· + ·) (halves_eq (V9 m) c 0 j f) (halves_eq (V9 m) c 1 j f)
    _ = ∑ n : Fin 100000, wIn (V9 m) c (ix2 n j) * hIn (V9 m) c (ix2 n f) :=
        (sum_rows (fun n : Fin 100000 => wIn (V9 m) c (ix2 n j) * hIn (V9 m) c (ix2 n f))).symm
    _ = ∑ n : Fin 100000, Cert.Spec.wgt (argX m c) (argW m c) (argA m c) (argIdx m c) (argMask m c) n j
          * Cert.Spec.feat (argX m c) (argW m c) n f := Finset.sum_congr rfl fun n _ => term n
    _ = Cert.Spec.kernelOut (argX m c) (argW m c) (argA m c) (argIdx m c) (argMask m c) (ix2 j f) := rfl

end Cert.KernelIdeal.Val

end
-- ==== Proof.Ref.RefTerm.lean ====
/-
  The reference's result as one function of its argument arrays: the operations of its program composed in
  order (the projection, the gather of each edge's member rows with negative entries wrapped, the rectifier, the
  score, the fill of unused slots, the softmax along the slots, the zeroing of unused rows, the product and the
  sum over the edges).
-/
import proofs.«406324_j84542136254541_3_alg».proof.ReferenceIdeal
import proofs.«406324_j84542136254541_3_alg».proof.Proof.Gen.ReferenceIdeal
import proofs.«406324_j84542136254541_3_alg».proof.Proof.Spec

noncomputable section

namespace Cert.ReferenceIdeal.Hand

open Idealize.ShloMosaic Idealize.ShloMosaic.ValueIdx
open Cert.ReferenceIdeal Cert.ReferenceIdeal.Facts₀ Cert.ReferenceIdeal.Facts

variable {F : FTy → Type} [FloatOps F]

/-- The member rows of every edge: H gathered at the table, a negative entry first moved up by 100000. -/
def gathered (X : FVec F S100000x128 .f32) (idx : IVec S100000x8 32) (W : FVec F S128x128 .f32) :
    FVec F S100000x8x128 .f32 :=
  let v0 : FVec F S100000x128 .f32 := Host.dotGeneral dot_S100000x128_S128x128_S100000x128_1_0_0_1_n_n none X W
  let v1 : IVec S100000x8 32 := broadcastInDim S100000x8 ![] bcast_S_S100000x8 (constantI S_ 32 0#32)
  let v2 : IVec S100000x8 1 := cmpi .slt idx v1
  let v3 : IVec S100000x8 32 := broadcastInDim S100000x8 ![] bcast_S_S100000x8 (constantI S_ 32 100000#32)
  let v4 : IVec S100000x8 32 := addi idx v3
  let v5 : IVec S100000x8 32 := select v2 v4 idx
  let v6 : IVec S100000x8x1 32 := broadcastInDim S100000x8x1 ![0, 1] bcast_S100000x8_S100000x8x1_0_1 v5
  Host.gather gather_S100000x128_S100000x8x1_S100000x8x128_2_0_n_n_0_2_1128 v0 v6

/-- The attention of every slot: the softmax along the slots of the filled scores. -/
def attention (g : FVec F S100000x8x128 .f32) (mask : IVec S100000x8 1) (a : FVec F S128x1 .f32) :
    FVec F S100000x8x1 .f32 :=
  let l0 : FVec F S100000x8x128 .f32 := broadcastInDim S100000x8x128 ![] bcast_S_S100000x8x128 (constant S_ .f32 0x00000000#32)
  let l1 : IVec S100000x8x128 1 := cmpf .oge g l0
  let l3 : FVec F S100000x8x128 .f32 := broadcastInDim S100000x8x128 ![] bcast_S_S100000x8x128 (id (constant S_ .f32 0x3E4CCCCD#32))
  let l4 : FVec F S100000x8x128 .f32 := mulf l3 g
  let v8 : FVec F S100000x8x128 .f32 := select l1 g l4
  let v9 : FVec F S100000x8x1 .f32 := Host.dotGeneral dot_S100000x8x128_S128x1_S100000x8x1_2_0_01_1_n_n none v8 a
  let v10 : IVec S100000x8x1 1 := broadcastInDim S100000x8x1 ![0, 1] bcast_S100000x8_S100000x8x1_0_1 mask
  let w1 : FVec F S100000x8x1 .f32 := broadcastInDim S100000x8x1 ![] bcast_S_S100000x8x1 (id (constant S_ .f32 0xD9FFCB9E#32))
  let v11 : FVec F S100000x8x1 .f32 := select v10 v9 w1
  let v12 : FVec F S100000x1 .f32 := Host.reduce FloatOps.maximumf v11 (constant S_ .f32 0xFF800000#32) reducesTo_S100000x8x1_S100000x1_d1 h_S_
  let v13 : FVec F S100000x1 .f32 := broadcastInDim S100000x1 ![] bcast_S_S100000x1 (constant S_ .f32 0xFF800000#32)
  let v14 : FVec F S100000x1 .f32 := maximumf v13 v12
  let v15 : FVec F S100000x1x1 .f32 := broadcastInDim S100000x1x1 ![0, 2] bcast_S100000x1_S100000x1x1_0_2 v14
  let v16 : FVec F S100000x8x1 .f32 := broadcastInDim S100000x8x1 ![0, 1, 2] bcast_S100000x1x1_S100000x8x1_0_1_2 v15
  let v17 : FVec F S100000x8x1 .f32 := subf v11 v16
  let v18 : FVec F S100000x8x1 .f32 := Host.exp v17
  let v19 : FVec F S100000x1 .f32 := Host.reduceAdd v18 (constant S_ .f32 0x00000000#32) reducesTo_S100000x8x1_S100000x1_d1 h_S_
  let v20 : FVec F S100000x1x1 .f32 := broadcastInDim S100000x1x1 ![0, 2] bcast_S100000x1_S100000x1x1_0_2 v19
  let v21 : FVec F S100000x8x1 .f32 := broadcastInDim S100000x8x1 ![0, 1, 2] bcast_S100000x1x1_S100000x8x1_0_1_2 v20
  Host.divf v18 v21

/-- The reference's result. -/
def refTerm (X : FVec F S100000x128 .f32) (idx : IVec S100000x8 32) (mask : IVec S100000x8 1)
    (W : FVec F S128x128 .f32) (a : FVec F S128x1 .f32) : FVec F S8x128 .f32 :=
  let g : FVec F S100000x8x128 .f32 := gathered X idx W
  let v22 : FVec F S100000x8x1 .f32 := attention g mask a
  let v23 : IVec S100000x8x1 1 := broadcastInDim S100000x8x1 ![0, 1] bcast_S100000x8_S100000x8x1_0_1 mask
  let c1 : IVec S100000x8x128 1 := broadcastInDim S100000x8x128 ![0, 1, 2] bcast_S100000x8x1_S100000x8x128_0_1_2 v23
  let c2 : FVec F S100000x8x128 .f32 := broadcastInDim S100000x8x128 ![] bcast_S_S100000x8x128 (id (constant S_ .f32 0x00000000#32))
  let v24 : FVec F S100000x8x128 .f32 := select c1 g c2
  let v25 : FVec F S100000x8x128 .f32 := broadcastInDim S100000x8x128 ![0, 1, 2] bcast_S100000x8x1_S100000x8x128_0_1_2 v22
  let v26 : FVec F S100000x8x128 .f32 := mulf v25 v24
  Host.reduceAdd v26 (constant S_ .f32 0x00000000#32) reducesTo_S100000x8x128_S8x128_d0 h_S_

end Cert.ReferenceIdeal.Hand

end
-- ==== Proof.Ref.RefRun.lean ====
/-
  The reference's run: every weakly fair execution of its program terminates, faults nowhere, leaves the
  arguments as launched, and ends with the result at the composed term of the argument arrays.
-/
import proofs.«406324_j84542136254541_3_alg».proof.Proof.Ref.RefTerm
import Idealize.ShloMosaic.Lib.StableHlo.Run
import Idealize.ShloMosaic.Adequacy
import Idealize.ShloMosaic.Init

noncomputable section

namespace Cert.ReferenceIdeal.Hand

open Idealize.ShloMosaic Idealize.ShloMosaic.TcCoe Idealize.SL.Sem
open Cert.ReferenceIdeal Cert.ReferenceIdeal.Facts₀ Cert.ReferenceIdeal.Facts

variable {F : FTy → Type} [FloatOps F]

namespace RRun

open Idealize.ShloMosaic.StableHlo

/-- The program's operations in the order they run, each outlined function's operations standing where it is
    called: the rectifier's seven (the zero and its spread, the comparison with it, the slope and its spread, the
    scaled copy, the choice between the two) after the gather; the fill's three (the fill value, its spread, the
    choice by the mask) after the score; the zeroing's four (the zero, the mask spread along the row, the zero
    spread, the choice) before the product. -/
abbrev ops : List (HloOp τ sig (Elt F)) :=
  [ binary main_arg0 main_arg4 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v1 (broadcastInDim S100000x8 ![] bcast_S_S100000x8 : (⟨S_, .i32⟩ : BufTy).Contents (Elt F) → (⟨S100000x8, .i32⟩ : BufTy).Contents (Elt F)),
    binary main_arg2 main_v1 main_v2 (cmpi .slt : (⟨S100000x8, .i32⟩ : BufTy).Contents (Elt F) → (⟨S100000x8, .i32⟩ : BufTy).Contents (Elt F) → (⟨S100000x8, .i1⟩ : BufTy).Contents (Elt F)),
    nullary main_c_0 (constantI S_ 32 100000#32),
    unary main_c_0 main_v3 (broadcastInDim S100000x8 ![] bcast_S_S100000x8 : (⟨S_, .i32⟩ : BufTy).Contents (Elt F) → (⟨S100000x8, .i32⟩ : BufTy).Contents (Elt F)),
    binary main_arg2 main_v3 main_v4 (addi : (⟨S100000x8, .i32⟩ : BufTy).Contents (Elt F) → (⟨S100000x8, .i32⟩ : BufTy).Contents (Elt F) → (⟨S100000x8, .i32⟩ : BufTy).Contents (Elt F)),
    ternary main_v2 main_v4 main_arg2 main_v5 (select : (⟨S100000x8, .i1⟩ : BufTy).Contents (Elt F) → (⟨S100000x8, .i32⟩ : BufTy).Contents (Elt F) → (⟨S100000x8, .i32⟩ : BufTy).Contents (Elt F) → (⟨S100000x8, .i32⟩ : BufTy).Contents (Elt F)),
    unary main_v5 main_v6 (broadcastInDim S100000x8x1 ![0, 1] bcast_S100000x8_S100000x8x1_0_1 : (⟨S100000x8, .i32⟩ : BufTy).Contents (Elt F) → (⟨S100000x8x1, .i32⟩ : BufTy).Contents (Elt F)),
    binary main_v0 main_v6 main_v7 ((fun x i => Host.gather gather_S100000x128_S100000x8x1_S100000x8x128_2_0_n_n_0_2_1128 x i) : (⟨S100000x128, .f32⟩ : BufTy).Contents (Elt F) → (⟨S100000x8x1, .i32⟩ : BufTy).Contents (Elt F) → (⟨S100000x8x128, .f32⟩ : BufTy).Contents (Elt F)),
    nullary main_cst (constant S_ .f32 0x3E4CCCCD#32),
    TRef.nullary main_call0.cst (constant S_ .f32 0x00000000#32),
    TRef.unary main_call0.cst main_call0.v0 (broadcastInDim S100000x8x128 ![] bcast_S_S100000x8x128),
    TRef.binary (.of main_v7 : TRef sig ⟨S100000x8x128, .f32⟩) main_call0.v0 main_call0.v1 (cmpf .oge),
    TRef.unary (.of main_cst : TRef sig ⟨S_, .f32⟩) main_call0.v2 id,
    TRef.unary main_call0.v2 main_call0.v3 (broadcastInDim S100000x8x128 ![] bcast_S_S100000x8x128),
    TRef.binary main_call0.v3 (.of main_v7 : TRef sig ⟨S100000x8x128, .f32⟩) main_call0.v4 mulf,
    TRef.ternary main_call0.v1 (.of main_v7 : TRef sig ⟨S100000x8x128, .f32⟩) main_call0.v4 main_call0.call0.v0 select,
    binary main_v8 main_arg5 main_v9 ((fun l r => Host.dotGeneral dot_S100000x8x128_S128x1_S100000x8x1_2_0_01_1_n_n none l r) : (⟨S100000x8x128, .f32⟩ : BufTy).Contents (Elt F) → (⟨S128x1, .f32⟩ : BufTy).Contents (Elt F) → (⟨S100000x8x1, .f32⟩ : BufTy).Contents (Elt F)),
    unary main_arg3 main_v10 (broadcastInDim S100000x8x1 ![0, 1] bcast_S100000x8_S100000x8x1_0_1 : (⟨S100000x8, .i1⟩ : BufTy).Contents (Elt F) → (⟨S100000x8x1, .i1⟩ : BufTy).Contents (Elt F)),
    nullary main_cst_1 (constant S_ .f32 0xD9FFCB9E#32),
    TRef.unary (.of main_cst_1 : TRef sig ⟨S_, .f32⟩) main_call1.v0 id,
    TRef.unary main_call1.v0 main_call1.v1 (broadcastInDim S100000x8x1 ![] bcast_S_S100000x8x1),
    TRef.ternary (.of main_v10 : TRef sig ⟨S100000x8x1, .i1⟩) (.of main_v9 : TRef sig ⟨S100000x8x1, .f32⟩) main_call1.v1 main_call1.v2 select,
    nullary main_cst_2 (constant S_ .f32 0xFF800000#32),
    binary main_v11 main_cst_2 main_v12 ((fun x v => Host.reduce FloatOps.maximumf x v reducesTo_S100000x8x1_S100000x1_d1 h_S_) : (⟨S100000x8x1, .f32⟩ : BufTy).Contents (Elt F) → (⟨S_, .f32⟩ : BufTy).Contents (Elt F) → (⟨S100000x1, .f32⟩ : BufTy).Contents (Elt F)),
    nullary main_cst_3 (constant S_ .f32 0xFF800000#32),
    unary main_cst_3 main_v13 (broadcastInDim S100000x1 ![] bcast_S_S100000x1 : (⟨S_, .f32⟩ : BufTy).Contents (Elt F) → (⟨S100000x1, .f32⟩ : BufTy).Contents (Elt F)),
    binary main_v13 main_v12 main_v14 (maximumf : (⟨S100000x1, .f32⟩ : BufTy).Contents (Elt F) → (⟨S100000x1, .f32⟩ : BufTy).Contents (Elt F) → (⟨S100000x1, .f32⟩ : BufTy).Contents (Elt F)),
    unary main_v14 main_v15 (broadcastInDim S100000x1x1 ![0, 2] bcast_S100000x1_S100000x1x1_0_2 : (⟨S100000x1, .f32⟩ : BufTy).Contents (Elt F) → (⟨S100000x1x1, .f32⟩ : BufTy).Contents (Elt F)),
    unary main_v15 main_v16 (broadcastInDim S100000x8x1 ![0, 1, 2] bcast_S100000x1x1_S100000x8x1_0_1_2 : (⟨S100000x1x1, .f32⟩ : BufTy).Contents (Elt F) → (⟨S100000x8x1, .f32⟩ : BufTy).Contents (Elt F)),
    binary main_v11 main_v16 main_v17 (subf : (⟨S100000x8x1, .f32⟩ : BufTy).Contents (Elt F) → (⟨S100000x8x1, .f32⟩ : BufTy).Contents (Elt F) → (⟨S100000x8x1, .f32⟩ : BufTy).Contents (Elt F)),
    unary main_v17 main_v18 (Host.exp : (⟨S100000x8x1, .f32⟩ : BufTy).Contents (Elt F) → (⟨S100000x8x1, .f32⟩ : BufTy).Contents (Elt F)),
    nullary main_cst_4 (constant S_ .f32 0x00000000#32),
    binary main_v18 main_cst_4 main_v19 ((fun x v => Host.reduceAdd x v reducesTo_S100000x8x1_S100000x1_d1 h_S_) : (⟨S100000x8x1, .f32⟩ : BufTy).Contents (Elt F) → (⟨S_, .f32⟩ : BufTy).Contents (Elt F) → (⟨S100000x1, .f32⟩ : BufTy).Contents (Elt F)),
    unary main_v19 main_v20 (broadcastInDim S100000x1x1 ![0, 2] bcast_S100000x1_S100000x1x1_0_2 : (⟨S100000x1, .f32⟩ : BufTy).Contents (Elt F) → (⟨S100000x1x1, .f32⟩ : BufTy).Contents (Elt F)),
    unary main_v20 main_v21 (broadcastInDim S100000x8x1 ![0, 1, 2] bcast_S100000x1x1_S100000x8x1_0_1_2 : (⟨S100000x1x1, .f32⟩ : BufTy).Contents (Elt F) → (⟨S100000x8x1, .f32⟩ : BufTy).Contents (Elt F)),
    binary main_v18 main_v21 main_v22 (Host.divf : (⟨S100000x8x1, .f32⟩ : BufTy).Contents (Elt F) → (⟨S100000x8x1, .f32⟩ : BufTy).Contents (Elt F) → (⟨S100000x8x1, .f32⟩ : BufTy).Contents (Elt F)),
    unary main_arg3 main_v23 (broadcastInDim S100000x8x1 ![0, 1] bcast_S100000x8_S100000x8x1_0_1 : (⟨S100000x8, .i1⟩ : BufTy).Contents (Elt F) → (⟨S100000x8x1, .i1⟩ : BufTy).Contents (Elt F)),
    nullary main_cst_5 (constant S_ .f32 0x00000000#32),
    TRef.unary (.of main_cst_5 : TRef sig ⟨S_, .f32⟩) main_call2.v0 id,
    TRef.unary (.of main_v23 : TRef sig ⟨S100000x8x1, .i1⟩) main_call2.v1 (broadcastInDim S100000x8x128 ![0, 1, 2] bcast_S100000x8x1_S100000x8x128_0_1_2),
    TRef.unary main_call2.v0 main_call2.v2 (broadcastInDim S100000x8x128 ![] bcast_S_S100000x8x128),
    TRef.ternary main_call2.v1 (.of main_v7 : TRef sig ⟨S100000x8x128, .f32⟩) main_call2.v2 main_call2.v3 select,
    unary main_v22 main_v25 (broadcastInDim S100000x8x128 ![0, 1, 2] bcast_S100000x8x1_S100000x8x128_0_1_2 : (⟨S100000x8x1, .f32⟩ : BufTy).Contents (Elt F) → (⟨S100000x8x128, .f32⟩ : BufTy).Contents (Elt F)),
    binary main_v25 main_v24 main_v26 (mulf : (⟨S100000x8x128, .f32⟩ : BufTy).Contents (Elt F) → (⟨S100000x8x128, .f32⟩ : BufTy).Contents (Elt F) → (⟨S100000x8x128, .f32⟩ : BufTy).Contents (Elt F)),
    nullary main_cst_6 (constant S_ .f32 0x00000000#32),
    binary main_v26 main_cst_6 main_v27 ((fun x v => Host.reduceAdd x v reducesTo_S100000x8x128_S8x128_d0 h_S_) : (⟨S100000x8x128, .f32⟩ : BufTy).Contents (Elt F) → (⟨S_, .f32⟩ : BufTy).Contents (Elt F) → (⟨S8x128, .f32⟩ : BufTy).Contents (Elt F)) ]

set_option maxRecDepth 1024 in
/-- The program is that straight line: a call is its callee's body over the call's own buffers, and sequencing
    is associative. -/
theorem main_eq (c : Dev nD) : main (F := F) c = seq ops := by
  simp only [main, fn_leaky_relu.body, fn_where.body, fn_where_0.body, fn_where_1.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., nullary_bufs_sub .., unary_bufs_sub .., unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., unary_bufs_sub .., nullary_bufs_sub .., unary_bufs_sub .., unary_bufs_sub ..,
    unary_bufs_sub .., ternary_bufs_sub .., unary_bufs_sub .., binary_bufs_sub .., nullary_bufs_sub .., binary_bufs_sub ..⟩

end RRun

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v27)
        = refTerm (m ((c.tc : Thread nD τ).loc main_arg0)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run (defs (F := F)) _ _).mono (fun _ h c => ⟨(h c main_v27).trans ?_, (h c main_arg0).trans ?_,
      (h c main_arg1).trans ?_, (h c main_arg2).trans ?_, (h c main_arg3).trans ?_, (h c main_arg4).trans ?_,
      (h c main_arg5).trans ?_⟩)
    (StableHlo.run_seq RRun.scopedRefs_eq RRun.scopedSems_eq defs main (fun _ => RRun.ops) RRun.main_eq (fun _ => RRun.ops_sub) m ρ)
  -- the result: each operation's value read at its own buffer, which composes to the term, operation by operation
  · after_results_simp
    rfl
  -- an argument: no operation writes it
  all_goals (after_results_simp <;> rfl)

end Cert.ReferenceIdeal.Hand

end
-- ==== Proof.Ref.RefValue.lean ====
/-
  The reference's composed term, at the ideal values and an in-range table, is the closed form: the projection is
  H, the gather reads the member's row, the rectified rows contracted with a are the members' scores, the
  broadcasts and the two reductions along the slot axis are the softmax, and the last reduction is the sum over the
  edges.

  Every array operation is read at one index. A sum or a maximum over ONE axis of a rank-3 array runs over that axis's
  coordinate with the other two held; a stretched unit axis reads the unit entry; a contraction of the last axis of a
  rank-3 array with the rows of a matrix is the sum over the contracted coordinate; the gather of rows of a matrix
  reads the row whose number is the table's entry, clamped into the matrix. With a table entry in [0, 100000) the
  wrap of negative entries leaves it alone and the clamp does nothing, so the row read is the node the entry names.
-/
import proofs.«406324_j84542136254541_3_alg».proof.Proof.Ref.RefTerm
import proofs.«406324_j84542136254541_3_alg».proof.Proof.LibMatProduct
import proofs.«406324_j84542136254541_3_alg».proof.Proof.LibHostSums
import Idealize.ShloMosaic.PureOps.Ideal.Laws
import Idealize.ShloMosaic.Lib.ValueLayout
import Idealize.ShloMosaic.Lib.Pipeline.Value

set_option maxRecDepth 16384

noncomputable section

namespace Cert.ReferenceIdeal.Hand

open Idealize.ShloMosaic Idealize.ShloMosaic.ValueIdx
open Cert.ReferenceIdeal Cert.ReferenceIdeal.Facts₀ Cert.ReferenceIdeal.Facts

namespace RefValue

/-! ## Reductions over one axis of a rank-3 array -/

section General
variable {A B C : ℕ}

/-- Inserting coordinate k on axis 0 over (b, c) gives (k, b, c). -/
theorem lift_axis0 (h : (⟨3, ![A, B, C]⟩ : Shape).Reduces [0] ⟨2, ![B, C]⟩) (b : Fin B) (c : Fin C) (k : Fin A) :
    h.lift (ix2 b c) k = ix3 k b c := by
  funext ax; refine Fin.ext ?_
  match ax with
  | ⟨0, _⟩ => rfl
  | ⟨1, _⟩ => rfl
  | ⟨2, _⟩ => rfl

/-- Inserting coordinate k on axis 1 over (a, c) gives (a, k, c). -/
theorem lift_axis1 (h : (⟨3, ![A, B, C]⟩ : Shape).Reduces [1] ⟨2, ![A, C]⟩) (a : Fin A) (c : Fin C) (k : Fin B) :
    h.lift (ix2 a c) k = ix3 a k c := by
  funext ax; refine Fin.ext ?_
  match ax with
  | ⟨0, _⟩ => rfl
  | ⟨1, _⟩ => rfl
  | ⟨2, _⟩ => rfl

/-- The sum over axis 0, at (b, c): the initial value plus the sum over k of the entries (k, b, c). -/
theorem reduceAdd_axis0 {u : Shape} (x : FVec Ideal ⟨3, ![A, B, C]⟩ .f32) (init : u.Idx → Ideal .f32)
    (h' : (⟨3, ![A, B, C]⟩ : Shape).ReducesTo [0] ⟨2, ![B, C]⟩) (h : (⟨3, ![A, B, C]⟩ : Shape).Reduces [0] ⟨2, ![B, C]⟩)
    (hu : 0 < u.numel) (b : Fin B) (c : Fin C) :
    Host.reduceAdd (F := Ideal) x init h' hu (ix2 b c) = init (Shape.Idx.first hu) + ∑ k : Fin A, x (ix3 k b c) := by
  show Ideal.hostReduceAdd h' x _ (ix2 b c) = _
  rw [Ideal.hostReduceAdd_single h' h]
  exact congrArg _ (Finset.sum_congr rfl fun k _ => congrArg x (lift_axis0 h b c k))

/-- The sum over axis 1, at (a, c): the initial value plus the sum over k of the entries (a, k, c). -/
theorem reduceAdd_axis1 {u : Shape} (x : FVec Ideal ⟨3, ![A, B, C]⟩ .f32) (init : u.Idx → Ideal .f32)
    (h' : (⟨3, ![A, B, C]⟩ : Shape).ReducesTo [1] ⟨2, ![A, C]⟩) (h : (⟨3, ![A, B, C]⟩ : Shape).Reduces [1] ⟨2, ![A, C]⟩)
    (hu : 0 < u.numel) (a : Fin A) (c : Fin C) :
    Host.reduceAdd (F := Ideal) x init h' hu (ix2 a c) = init (Shape.Idx.first hu) + ∑ k : Fin B, x (ix3 a k c) := by
  show Ideal.hostReduceAdd h' x _ (ix2 a c) = _
  rw [Ideal.hostReduceAdd_single h' h]
  exact congrArg _ (Finset.sum_congr rfl fun k _ => congrArg x (lift_axis1 h a c k))

/-- The maximum over axis 1, at (a, c): the fold of max, from the initial value, over the entries (a, k, c). -/
theorem reduceMax_axis1 {u : Shape} (x : FVec Ideal ⟨3, ![A, B, C]⟩ .f32) (init : u.Idx → Ideal .f32)
    (h' : (⟨3, ![A, B, C]⟩ : Shape).ReducesTo [1] ⟨2, ![A, C]⟩) (h : (⟨3, ![A, B, C]⟩ : Shape).Reduces [1] ⟨2, ![A, C]⟩)
    (hu : 0 < u.numel) (a : Fin A) (c : Fin C) :
    Host.reduce (FloatOps.maximumf (F := Ideal) (φ := .f32)) x init h' hu (ix2 a c)
      = (Finset.univ : Finset (Fin B)).fold max (init (Shape.Idx.first hu)) (fun k => x (ix3 a k c)) := by
  rw [Host.reduce_eq_fold_single _ x init h' h hu]
  have e : (x ∘ h.lift (ix2 a c)) = fun k : Fin B => x (ix3 a k c) := funext fun k => congrArg x (lift_axis1 h a c k)
  rw [e]
  rfl

/-! ## Stretched unit axes -/

/-- A matrix given a new trailing unit axis reads the matrix. -/
theorem bcast_ab_ab1 {α : Type} (h : (⟨2, ![A, B]⟩ : Shape).BroadcastsInDim ⟨3, ![A, B, 1]⟩ ![0, 1])
    (x : (⟨2, ![A, B]⟩ : Shape).Idx → α) (a : Fin A) (b : Fin B) (c : Fin 1) :
    broadcastInDim ⟨3, ![A, B, 1]⟩ ![0, 1] h x (ix3 a b c) = x (ix2 a b) := by
  refine broadcastInDim_apply _ h x _ (ix2 a b) fun ax => ?_
  have ha := a.isLt; have hb := b.isLt
  match ax with
  | ⟨0, _⟩ => show a.val = if A = 1 then 0 else a.val; split <;> omega
  | ⟨1, _⟩ => show b.val = if B = 1 then 0 else b.val; split <;> omega

/-- A trailing unit axis stretched to C reads the unit entry. -/
theorem bcast_ab1_abc {α : Type} (h : (⟨3, ![A, B, 1]⟩ : Shape).BroadcastsInDim ⟨3, ![A, B, C]⟩ ![0, 1, 2])
    (x : (⟨3, ![A, B, 1]⟩ : Shape).Idx → α) (a : Fin A) (b : Fin B) (c : Fin C) :
    broadcastInDim ⟨3, ![A, B, C]⟩ ![0, 1, 2] h x (ix3 a b c) = x (ix3 a b 0) := by
  refine broadcastInDim_apply _ h x _ (ix3 a b 0) fun ax => ?_
  have ha := a.isLt; have hb := b.isLt
  match ax with
  | ⟨0, _⟩ => show a.val = if A = 1 then 0 else a.val; split <;> omega
  | ⟨1, _⟩ => show b.val = if B = 1 then 0 else b.val; split <;> omega
  | ⟨2, _⟩ => rfl

/-- A column given a new middle unit axis reads the column. -/
theorem bcast_a1_a11 {α : Type} (h : (⟨2, ![A, 1]⟩ : Shape).BroadcastsInDim ⟨3, ![A, 1, 1]⟩ ![0, 2])
    (x : (⟨2, ![A, 1]⟩ : Shape).Idx → α) (a : Fin A) (b c : Fin 1) :
    broadcastInDim ⟨3, ![A, 1, 1]⟩ ![0, 2] h x (ix3 a b c) = x (ix2 a 0) := by
  refine broadcastInDim_apply _ h x _ (ix2 a 0) fun ax => ?_
  have ha := a.isLt
  match ax with
  | ⟨0, _⟩ => show a.val = if A = 1 then 0 else a.val; split <;> omega
  | ⟨1, _⟩ => rfl

/-- A middle unit axis stretched to B reads the unit entry. -/
theorem bcast_a11_ab1 {α : Type} (h : (⟨3, ![A, 1, 1]⟩ : Shape).BroadcastsInDim ⟨3, ![A, B, 1]⟩ ![0, 1, 2])
    (x : (⟨3, ![A, 1, 1]⟩ : Shape).Idx → α) (a : Fin A) (b : Fin B) (c : Fin 1) :
    broadcastInDim ⟨3, ![A, B, 1]⟩ ![0, 1, 2] h x (ix3 a b c) = x (ix3 a 0 0) := by
  refine broadcastInDim_apply _ h x _ (ix3 a 0 0) fun ax => ?_
  have ha := a.isLt
  match ax with
  | ⟨0, _⟩ => show a.val = if A = 1 then 0 else a.val; split <;> omega
  | ⟨1, _⟩ => rfl
  | ⟨2, _⟩ => rfl

/-! ## The contraction of the last axis with a matrix's rows -/

/-- Axis 2 of an A x B x K array contracted with axis 0 of a K x C matrix: at (a, b, c) the sum over k of
    L[a, b, k] R[k, c]. The contraction index has one coordinate, which the sum is re-indexed through. -/
theorem dotGeneral_rows_apply {K : ℕ} {φ₁ φ₂ : FTy}
    (w : DotDims.WF ⟨3, ![A, B, K]⟩ ⟨2, ![K, C]⟩ ⟨3, ![A, B, C]⟩ [2] [0] [0, 1] [1] [] [])
    (prec : Option ContractPrecision) (L : FVec Ideal ⟨3, ![A, B, K]⟩ φ₁) (R : FVec Ideal ⟨2, ![K, C]⟩ φ₂)
    (a : Fin A) (b : Fin B) (c : Fin C) :
    Host.dotGeneral (⟨[2], [0], [0, 1], [1], [], [], w⟩ : DotDims _ _ _) prec L R (ix3 a b c)
      = ∑ k : Fin K, L (ix3 a b k) * R (ix2 k c) := by
  show FloatOps.dotGeneral _ prec _ L R (ix3 a b c) = _
  rw [Ideal.dotGeneral_apply,
    ← Equiv.sum_comp (contrEquiv1 (⟨[2], [0], [0, 1], [1], [], [], w⟩ : DotDims _ _ _) K rfl rfl).symm]
  refine Finset.sum_congr rfl fun k _ => ?_
  have c3 := contrEquiv1_symm_val
    (⟨[2], [0], [0, 1], [1], [], [], w⟩ : DotDims ⟨3, ![A, B, K]⟩ ⟨2, ![K, C]⟩ ⟨3, ![A, B, C]⟩) K rfl rfl k
  have l3 : (⟨[2], [0], [0, 1], [1], [], [], w⟩ : DotDims ⟨3, ![A, B, K]⟩ ⟨2, ![K, C]⟩ ⟨3, ![A, B, C]⟩).lhsIdx (ix3 a b c)
      ((contrEquiv1 _ K rfl rfl).symm k) = ix3 a b k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![A, B, K]⟩ ⟨2, ![K, C]⟩ ⟨3, ![A, B, C]⟩).rhsIdx (ix3 a b c)
      ((contrEquiv1 _ K rfl rfl).symm k) = ix2 k c := by
    funext ax; apply Fin.ext
    match ax with
    | ⟨0, _⟩ => simp [DotDims.rhsIdx]; exact c3
    | ⟨1, _⟩ => simp [DotDims.rhsIdx]; rfl
  rw [l3, r3]

end General

/-! ## The gather of rows of a matrix at a table of row numbers -/

section Gather
variable {α : Type}

/-- Its dimension numbers: operand N x C, start indices R x K x 1, result R x K x C; the row axis is collapsed and
    indexed by the start index, the column axis is the result's last, taken whole. -/
abbrev rowsDims (N C R K : ℕ)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- Read at (r, k, c): the operand at row "start index of (r, k), read signed and clamped into [0, N - 1]", column c.
    On the row axis the operand coordinate is the clamped start alone (no batching, no offset: the axis is
    collapsed); on the column axis it is the offset alone, the result's last coordinate. -/
theorem gather_rows_apply {N C R K w : ℕ} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (r : Fin R) (k : Fin K) (c : Fin C) :
    Host.gather (rowsDims N C R K wf) x idx (ix3 r k c)
      = x (ix2 ⟨min (idx (ix3 r k 0)).toInt.toNat (N - 1), by omega⟩ c) := by
  unfold Host.gather
  congr 1
  funext a
  refine Fin.ext ?_
  match a with
  | ⟨0, _⟩ =>
    show (rowsDims N C R K wf).start (ix3 r k c) idx 0 + (rowsDims N C R K wf).batchCoord (ix3 r k c) 0
      + (rowsDims N C R K wf).offCoord (ix3 r k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R K wf).startIndexMap from List.mem_singleton.mpr rfl)]
    have hsi : (rowsDims N C R K wf).siIdx (ix3 r k c) ⟨List.idxOf (0 : Fin 2) (rowsDims N C R K wf).startIndexMap,
        List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi]
    rfl
  | ⟨1, _⟩ =>
    show (rowsDims N C R K wf).start (ix3 r k c) idx 1 + (rowsDims N C R K wf).batchCoord (ix3 r k c) 1
      + (rowsDims N C R K wf).offCoord (ix3 r k c) 1 = c.val
    rw [GatherDims.batchCoord_eq_zero _ _ _ List.not_mem_nil]
    have hs : (rowsDims N C R K wf).start (ix3 r k c) idx 1 = 0 := by
      unfold GatherDims.start
      rw [dif_neg (fun h => absurd (List.mem_singleton.mp h) (show (1 : Fin 2) ≠ 0 from by decide))]
    have ho : (rowsDims N C R K wf).offCoord (ix3 r k c) 1 = c.val := by
      unfold GatherDims.offCoord
      rw [dif_pos ((GatherDims.mem_sKept _ _).mpr
        ⟨fun h => absurd (List.mem_singleton.mp h) (show (1 : Fin 2) ≠ 0 from by decide), List.not_mem_nil⟩)]
      rfl
    rw [hs, ho]
    omega

/-- The same with the row named: if the clamped start index is n, the gather reads row n. -/
theorem gather_rows_apply_of_eq {N C R K w : ℕ} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (r : Fin R) (k : Fin K) (c : Fin C) (n : Fin N)
    (hn : min (idx (ix3 r k 0)).toInt.toNat (N - 1) = n.val) :
    Host.gather (rowsDims N C R K wf) x idx (ix3 r k c) = x (ix2 n c) := by
  rw [gather_rows_apply hN]
  exact congrArg (fun n => x (ix2 n c)) (Fin.ext hn)

end Gather

/-! ## The host's quotient and exponential at an index -/

theorem hostDivf_apply {s : Shape} (x y : FVec Ideal s .f32) (i : s.Idx) : Host.divf x y i = Ideal.div (x i) (y i) := rfl

theorem hostExp_apply {s : Shape} (x : FVec Ideal s .f32) (i : s.Idx) : Host.exp x i = Ideal.exp (x i) := rfl

/-! ## A table entry that names a node -/

/-- A word that is not negative, read signed, is not below the zero word: the wrap of negative entries selects the
    entry itself. -/
theorem wrap_of_nonneg (x : BitVec 32) (h0 : 0 ≤ x.toInt) :
    Scalar.select (IntOp.cmpi .slt x 0#32) (IntOp.addi x 100000#32) x = x := by
  have hs : x.slt 0#32 = false := by
    simp only [BitVec.slt, BitVec.toInt_zero, decide_eq_false_iff_not, not_lt]
    exact h0
  show Scalar.select (BitVec.ofBool (x.slt 0#32)) _ _ = _
  rw [hs]
  exact select_zero _ _

/-- A word in [0, 100000), read signed, is its own unsigned value, which the clamp to [0, 99999] and the remainder by
    100000 both leave alone. -/
theorem start_of_inRange (x : BitVec 32) (h0 : 0 ≤ x.toInt) (h1 : x.toInt < 100000) :
    min x.toInt.toNat (100000 - 1) = x.toNat % 100000 := by
  have hx := x.isLt
  have e : x.toInt = (x.toNat : ℤ) := by
    rw [BitVec.toInt_eq_toNat_cond] at h0 ⊢
    split
    · rfl
    · rename_i h
      rw [if_neg h] at h0
      omega
  rw [e] at h1 ⊢
  omega

/-! ## The reference's three stages -/

section Stages
variable (X : Cert.Spec.SNode.Idx → EReal) (idx : Cert.Spec.SEdge.Idx → BitVec 32)
  (mask : Cert.Spec.SEdge.Idx → BitVec 1) (W : Cert.Spec.SWgt.Idx → EReal) (a : Cert.Spec.SVec.Idx → EReal)

/-- The gathered array at (m, j, f) is H at the node slot j of edge m names, column f. -/
theorem gathered_apply (hidx : Cert.Spec.InRange idx) (m : Fin 100000) (j : Fin 8) (f : Fin 128) :
    gathered (F := Ideal) X idx W (ix3 m j f) = Cert.Spec.feat X W (Cert.Spec.nodeOf idx m j) f := by
  obtain ⟨h0, h1⟩ := hidx m j
  dsimp -zeta only [gathered]
  extract_lets v0 v1 v2 v3 v4 v5 v6
  have h5 : v5 (ix2 m j) = idx (ix2 m j) := by
    show Scalar.select (IntOp.cmpi .slt (idx (ix2 m j)) 0#32) (IntOp.addi (idx (ix2 m j)) 100000#32) (idx (ix2 m j)) = _
    exact wrap_of_nonneg _ h0
  have h6 : v6 (ix3 m j 0) = idx (ix2 m j) := (bcast_ab_ab1 _ v5 m j 0).trans h5
  have hn : min (v6 (ix3 m j 0)).toInt.toNat (100000 - 1) = (Cert.Spec.nodeOf idx m j).val := by
    rw [h6]
    exact start_of_inRange _ h0 h1
  refine (gather_rows_apply_of_eq (N := 100000) (C := 128) (R := 100000) (K := 8) (by decide) _ v0 v6 m j f
    (Cert.Spec.nodeOf idx m j) hn).trans ?_
  exact StackMember.dotGeneral_plain_apply none X W (Cert.Spec.nodeOf idx m j) f

/-- The attention at (m, j): the softmax along the slots of the reference's logits. -/
theorem attention_apply (g : FVec Ideal S100000x8x128 .f32)
    (hg : ∀ (m : Fin 100000) (j : Fin 8) (f : Fin 128),
      g (ix3 m j f) = Cert.Spec.feat X W (Cert.Spec.nodeOf idx m j) f) (m : Fin 100000) (j : Fin 8) :
    attention (F := Ideal) g mask a (ix3 m j 0) = Cert.Spec.att (Cert.Spec.logitR X W a idx mask) m j := by
  dsimp -zeta only [attention]
  extract_lets l0 l1 l3 l4 v8 v9 v10 w1 v11 v12 v13 v14 v15 v16 v17 v18 v19 v20 v21
  -- the rectified rows
  have h8 : ∀ (m : Fin 100000) (j : Fin 8) (f : Fin 128),
      v8 (ix3 m j f) = Cert.Spec.leakyR (Cert.Spec.feat X W (Cert.Spec.nodeOf idx m j) f) := by
    intro m j f
    show Scalar.select (Ideal.cmp .oge (g (ix3 m j f)) (Ideal.ofBits .f32 0x00000000#32)) (g (ix3 m j f))
      (Ideal.ofBits .f32 0x3E4CCCCD#32 * g (ix3 m j f)) = _
    rw [hg, Ideal.ofBits_zero_f32]
    rfl
  -- contracted with a: the member's score
  have h9 : ∀ (m : Fin 100000) (j : Fin 8), v9 (ix3 m j 0) = Cert.Spec.scoreR X W a (Cert.Spec.nodeOf idx m j) := by
    intro m j
    refine (dotGeneral_rows_apply _ none v8 a m j 0).trans ?_
    show _ = ∑ f : Fin 128, Cert.Spec.leakyR (Cert.Spec.feat X W (Cert.Spec.nodeOf idx m j) f) * a (ix2 f 0)
    exact Finset.sum_congr rfl fun k _ => by rw [h8]
  -- the fill of unused slots: the logits
  have h11 : ∀ (m : Fin 100000) (j : Fin 8), v11 (ix3 m j 0) = Cert.Spec.logitR X W a idx mask m j := by
    intro m j
    show Scalar.select (v10 (ix3 m j 0)) (v9 (ix3 m j 0)) (w1 (ix3 m j 0)) = _
    rw [h9, show v10 (ix3 m j 0) = mask (ix2 m j) from bcast_ab_ab1 _ mask m j 0]
    rfl
  -- the row maximum
  have h12 : ∀ m : Fin 100000, v12 (ix2 m 0)
      = (Finset.univ : Finset (Fin 8)).fold max Cert.Spec.ninf (Cert.Spec.logitR X W a idx mask m) := by
    intro m
    refine (reduceMax_axis1 v11 _ _ (by decide) _ m 0).trans ?_
    have e : (fun k : Fin 8 => v11 (ix3 m k 0)) = Cert.Spec.logitR X W a idx mask m := funext fun k => h11 m k
    rw [e, constant_apply]
  have h14 : ∀ m : Fin 100000, v14 (ix2 m 0) = Cert.Spec.rowMax (Cert.Spec.logitR X W a idx mask) m := by
    intro m
    refine (maximumf_apply v13 v12 (ix2 m 0)).trans ?_
    rw [h12, show v13 (ix2 m 0) = Cert.Spec.ninf from
      (Cert.Lib.HostSums.broadcastInDim_scalar_apply _ _ _ _).trans (constant_apply _ _)]
    rfl
  have h16 : ∀ (m : Fin 100000) (j : Fin 8), v16 (ix3 m j 0) = Cert.Spec.rowMax (Cert.Spec.logitR X W a idx mask) m :=
    fun m j => (bcast_a11_ab1 _ v15 m j 0).trans ((bcast_a1_a11 _ v14 m 0 0).trans (h14 m))
  -- the exponentials and their row sum
  have h18 : ∀ (m : Fin 100000) (j : Fin 8), v18 (ix3 m j 0)
      = Ideal.exp (Cert.Spec.logitR X W a idx mask m j - Cert.Spec.rowMax (Cert.Spec.logitR X W a idx mask) m) := by
    intro m j
    refine (hostExp_apply v17 (ix3 m j 0)).trans (congrArg Ideal.exp ((subf_apply v11 v16 (ix3 m j 0)).trans ?_))
    rw [h11, h16]
  have h19 : ∀ m : Fin 100000, v19 (ix2 m 0) = Cert.Spec.rowDen (Cert.Spec.logitR X W a idx mask) m := by
    intro m
    refine (reduceAdd_axis1 v18 _ _ (by decide) _ m 0).trans ?_
    rw [constant_apply, Ideal.ofBits_zero_f32, zero_add]
    exact Finset.sum_congr rfl fun k _ => h18 m k
  have h21 : ∀ (m : Fin 100000) (j : Fin 8), v21 (ix3 m j 0) = Cert.Spec.rowDen (Cert.Spec.logitR X W a idx mask) m :=
    fun m j => (bcast_a11_ab1 _ v20 m j 0).trans ((bcast_a1_a11 _ v19 m 0 0).trans (h19 m))
  -- the quotient
  rw [hostDivf_apply, h18, h21]
  rfl

end Stages

end RefValue

open RefValue

theorem refTerm_eq (X : Cert.Spec.SNode.Idx → EReal) (idx : Cert.Spec.SEdge.Idx → BitVec 32)
    (mask : Cert.Spec.SEdge.Idx → BitVec 1) (W : Cert.Spec.SWgt.Idx → EReal) (a : Cert.Spec.SVec.Idx → EReal)
    (hidx : Cert.Spec.InRange idx) :
    refTerm (F := Ideal) X idx mask W a = Cert.Spec.refOut X W a idx mask := by
  funext i
  obtain ⟨j, f, rfl⟩ : ∃ (j : Fin 8) (f : Fin 128), i = ix2 j f := ⟨i 0, i 1, eq_ix2 i⟩
  dsimp -zeta only [refTerm]
  extract_lets g v22 v23 c1 c2 v24 v25 v26
  have hg : ∀ (m : Fin 100000) (j : Fin 8) (f : Fin 128),
      g (ix3 m j f) = Cert.Spec.feat X W (Cert.Spec.nodeOf idx m j) f := gathered_apply X idx W hidx
  have h22 : ∀ (m : Fin 100000) (j : Fin 8), v22 (ix3 m j 0) = Cert.Spec.att (Cert.Spec.logitR X W a idx mask) m j :=
    attention_apply X idx mask W a g hg
  -- the sum over the edges
  refine (reduceAdd_axis0 v26 _ _ (by decide) _ j f).trans ?_
  rw [constant_apply, Ideal.ofBits_zero_f32, zero_add]
  show ∑ k : Fin 100000, v26 (ix3 k j f)
    = ∑ m : Fin 100000, Cert.Spec.att (Cert.Spec.logitR X W a idx mask) m j
        * Scalar.select (mask (ix2 m j)) (Cert.Spec.feat X W (Cert.Spec.nodeOf idx m j) f) 0
  refine Finset.sum_congr rfl fun m _ => ?_
  -- one edge's term: its attention times its member's row, zero where the slot is unused
  have e25 : v25 (ix3 m j f) = Cert.Spec.att (Cert.Spec.logitR X W a idx mask) m j :=
    (bcast_ab1_abc _ v22 m j f).trans (h22 m j)
  have e24 : v24 (ix3 m j f)
      = Scalar.select (mask (ix2 m j)) (Cert.Spec.feat X W (Cert.Spec.nodeOf idx m j) f) 0 := by
    show Scalar.select (c1 (ix3 m j f)) (g (ix3 m j f)) (c2 (ix3 m j f)) = _
    rw [hg, show c1 (ix3 m j f) = mask (ix2 m j) from (bcast_ab1_abc _ v23 m j f).trans (bcast_ab_ab1 _ mask m j 0),
      show c2 (ix3 m j f) = 0 from Ideal.ofBits_zero_f32]
  show v25 (ix3 m j f) * v24 (ix3 m j f) = _
  rw [e25, e24]

end Cert.ReferenceIdeal.Hand

end
-- ==== Proof.Algebra.lean ====
/-
  The two closed forms agree when every entry of X, W and a is a real number: then every feature, score, logit
  and attention is real, sums and products are the reals', the two spellings of the rectifier agree (they
  differ only at zero, where both give zero), a masked-out slot contributes zero either way, and a finite
  double sum may be taken node by node or edge by edge.
-/
import proofs.«406324_j84542136254541_3_alg».proof.Proof.Spec
import proofs.«406324_j84542136254541_3_alg».proof.Proof.LibTileSum

noncomputable section

namespace Cert.Spec

open Idealize.ShloMosaic Idealize.ShloMosaic.ValueIdx Cert.Lib.TileSum

/-! ### The printed constants -/

/-- A pattern whose exponent field is not all ones denotes a real number. -/
private theorem ieee_real (e m : Nat) {w : Nat} (b : BitVec w) (h : (b.extractLsb' m e).toNat ≠ 2 ^ e - 1) :
    ∃ r : ℝ, Ideal.ieee e m b = (r : EReal) := by
  unfold Ideal.ieee
  simp only []
  rw [if_neg h]
  split_ifs <;> exact ⟨_, rfl⟩

private theorem slope_real : ∃ r : ℝ, slope = (r : EReal) := by
  show ∃ r : ℝ, Ideal.ieee 8 23 (0x3E4CCCCD#32) = (r : EReal)
  exact ieee_real 8 23 (0x3E4CCCCD#32) (by decide)

private theorem fillv_real : ∃ r : ℝ, fillv = (r : EReal) := by
  show ∃ r : ℝ, Ideal.ieee 8 23 (0xD9FFCB9E#32) = (r : EReal)
  exact ieee_real 8 23 (0xD9FFCB9E#32) (by decide)

/-- The maximum's starting value is the least extended real. -/
private theorem ninf_eq_bot : ninf = ⊥ := by
  show Ideal.ofBits .f32 0xFF800000#32 = ⊥
  simp [Ideal.ofBits, Ideal.ieee]

/-! ### Everything is real -/

private theorem select_real (c : BitVec 1) {x y : EReal} (hx : ∃ r : ℝ, x = (r : EReal)) (hy : ∃ r : ℝ, y = (r : EReal)) :
    ∃ r : ℝ, Scalar.select c x y = (r : EReal) := by
  unfold Scalar.select
  split_ifs <;> assumption

section

variable (X : SNode.Idx → EReal) (W : SWgt.Idx → EReal) (a : SVec.Idx → EReal)
variable (idx : SEdge.Idx → BitVec 32) (mask : SEdge.Idx → BitVec 1)

private theorem feat_real (hX : AllReal X) (hW : AllReal W) (n : Fin 100000) (f : Fin 128) :
    ∃ r : ℝ, feat X W n f = (r : EReal) :=
  exists_real_sum _ _ fun _ _ => exists_real_mul (hX _) (hW _)

/-- The two spellings of the rectifier are the same function: they differ only in which branch is taken at zero,
    and there both branches give zero. -/
private theorem leakyK_eq_leakyR (v : EReal) : leakyK v = leakyR v := by
  unfold leakyK leakyR
  simp only [Ideal.cmp, Scalar.select]
  rcases lt_trichotomy (0 : EReal) v with h | h | h
  · simp [h, h.le]
  · subst h; simp
  · simp [not_lt.mpr h.le, not_le.mpr h]

private theorem leakyR_real {v : EReal} (hv : ∃ r : ℝ, v = (r : EReal)) : ∃ r : ℝ, leakyR v = (r : EReal) :=
  select_real _ hv (exists_real_mul slope_real hv)

private theorem scoreK_eq_scoreR : scoreK X W a = scoreR X W a := by
  funext n
  unfold scoreK scoreR
  exact Finset.sum_congr rfl fun f _ => by rw [leakyK_eq_leakyR]

private theorem logitK_eq_logitR : logitK X W a idx mask = logitR X W a idx mask := by
  funext m j
  unfold logitK logitR
  rw [scoreK_eq_scoreR]

private theorem scoreR_real (hX : AllReal X) (hW : AllReal W) (ha : AllReal a) (n : Fin 100000) :
    ∃ r : ℝ, scoreR X W a n = (r : EReal) :=
  exists_real_sum _ _ fun f _ => exists_real_mul (leakyR_real (feat_real X W hX hW n f)) (ha _)

private theorem logitR_real (hX : AllReal X) (hW : AllReal W) (ha : AllReal a) (m : Fin 100000) (j : Fin 8) :
    ∃ r : ℝ, logitR X W a idx mask m j = (r : EReal) :=
  select_real _ (scoreR_real X W a hX hW ha _) fillv_real

end

/-! ### The softmax of real logits is real -/

/-- The row's maximum is one of the row's eight entries. -/
private theorem rowMax_mem (s : Fin 100000 → Fin 8 → EReal) (m : Fin 100000) : ∃ j, rowMax s m = s m j := by
  unfold rowMax
  rw [ninf_eq_bot, max_bot_left]
  obtain ⟨j, -, hj⟩ := Finset.exists_mem_eq_sup (Finset.univ : Finset (Fin 8)) Finset.univ_nonempty (s m)
  exact ⟨j, hj⟩

private theorem att_real (s : Fin 100000 → Fin 8 → EReal) (hs : ∀ m j, ∃ r : ℝ, s m j = (r : EReal))
    (m : Fin 100000) (j : Fin 8) : ∃ r : ℝ, att s m j = (r : EReal) := by
  obtain ⟨j0, hj0⟩ := rowMax_mem s m
  choose g hg using hs
  have hmax : rowMax s m = (g m j0 : EReal) := by rw [hj0, hg]
  have hexp : ∀ j, Ideal.exp (s m j - rowMax s m) = ((Real.exp (g m j - g m j0) : ℝ) : EReal) := by
    intro j
    rw [hmax, hg, ← EReal.coe_sub, Ideal.exp_coe]
  have hden : rowDen s m = ((∑ j : Fin 8, Real.exp (g m j - g m j0) : ℝ) : EReal) := by
    unfold rowDen
    rw [coe_finset_sum]
    exact Finset.sum_congr rfl fun j _ => hexp j
  have hpos : (0 : ℝ) < ∑ j : Fin 8, Real.exp (g m j - g m j0) :=
    Finset.sum_pos (fun j _ => Real.exp_pos _) Finset.univ_nonempty
  unfold att
  rw [hden, Ideal.div_coe hpos.ne', hexp, ← EReal.coe_mul]
  exact ⟨_, rfl⟩

/-! ### Node by node or edge by edge -/

section

variable (X : SNode.Idx → EReal) (W : SWgt.Idx → EReal) (a : SVec.Idx → EReal)
variable (idx : SEdge.Idx → BitVec 32) (mask : SEdge.Idx → BitVec 1)

private theorem regroup (hX : AllReal X) (hW : AllReal W) (ha : AllReal a) (j : Fin 8) (f : Fin 128) :
    ∑ n : Fin 100000, wgt X W a idx mask n j * feat X W n f
      = ∑ m : Fin 100000, att (logitR X W a idx mask) m j
          * Scalar.select (mask (ix2 m j)) (feat X W (nodeOf idx m j) f) 0 := by
  have hF : ∀ n, ∃ r : ℝ, feat X W n f = (r : EReal) := fun n => feat_real X W hX hW n f
  have hA : ∀ m, ∃ r : ℝ, att (logitR X W a idx mask) m j = (r : EReal) := fun m =>
    att_real _ (logitR_real X W a idx mask hX hW ha) m j
  choose F hF using hF
  choose A hA using hA
  -- the masked attention of edge m, as a real number
  let U : Fin 100000 → ℝ := fun m => if mask (ix2 m j) = 1 then A m else 0
  have hU : ∀ m, Scalar.select (mask (ix2 m j)) (att (logitK X W a idx mask) m j) 0 = (U m : EReal) := by
    intro m
    rw [logitK_eq_logitR, hA]
    simp only [Scalar.select, U]
    split_ifs <;> simp
  have hL : ∀ n, wgt X W a idx mask n j * feat X W n f
      = (((∑ m ∈ (Finset.univ : Finset (Fin 100000)).filter (fun m => nodeOf idx m j = n), U m) * F n : ℝ) : EReal) := by
    intro n
    unfold wgt
    rw [hF, EReal.coe_mul, coe_finset_sum]
    exact congrArg (· * (F n : EReal)) (Finset.sum_congr rfl fun m _ => hU m)
  have hR : ∀ m, att (logitR X W a idx mask) m j * Scalar.select (mask (ix2 m j)) (feat X W (nodeOf idx m j) f) 0
      = ((U m * F (nodeOf idx m j) : ℝ) : EReal) := by
    intro m
    rw [hA, hF]
    simp only [Scalar.select, U]
    split_ifs <;> simp
  rw [Finset.sum_congr rfl fun n _ => hL n, Finset.sum_congr rfl fun m _ => hR m, ← coe_finset_sum, ← coe_finset_sum]
  refine congrArg (fun x : ℝ => (x : EReal)) ?_
  rw [← Finset.sum_fiberwise Finset.univ (fun m => nodeOf idx m j) (fun m => U m * F (nodeOf idx m j))]
  refine Finset.sum_congr rfl fun n _ => ?_
  rw [Finset.sum_mul]
  refine Finset.sum_congr rfl fun m hm => ?_
  rw [(Finset.mem_filter.mp hm).2]

end

theorem kernelOut_eq_refOut (X : SNode.Idx → EReal) (W : SWgt.Idx → EReal) (a : SVec.Idx → EReal)
    (idx : SEdge.Idx → BitVec 32) (mask : SEdge.Idx → BitVec 1)
    (hX : AllReal X) (hW : AllReal W) (ha : AllReal a) :
    kernelOut X W a idx mask = refOut X W a idx mask := by
  funext i
  exact regroup X W a idx mask hX hW ha ⟨(i 0).val, idx2_lt0 i⟩ ⟨(i 1).val, idx2_lt1 i⟩

end Cert.Spec

end
-- ==== Proof.PreDecode.lean ====
/-
  What the precondition says of the argument arrays: every entry of the three float arrays the programs read is a
  real number (its absolute value is below +infinity), and every entry of the edge table, read signed, lies in
  [0, 100000).
-/
import proofs.«406324_j84542136254541_3_alg».proof.Defs
import proofs.«406324_j84542136254541_3_alg».proof.Proof.Gen.Pre_finite_inputs
import proofs.«406324_j84542136254541_3_alg».proof.Proof.Gen.KernelIdeal
import proofs.«406324_j84542136254541_3_alg».proof.Proof.Spec
import Idealize.ShloMosaic.Lib.ReduceAll
import Idealize.ShloMosaic.Lib.StableHlo.Predicate

noncomputable section

namespace Cert.PreDecode

open Idealize.ShloMosaic Idealize.ShloMosaic.TcCoe Idealize.ShloMosaic.ValueIdx Idealize.SL.Sem

/-- The scalar shape has a single index. -/
instance : Subsingleton Cert.Pre_finite_inputs.S_.Idx := ⟨fun a b => funext fun d => d.elim0⟩

/-- An extended real whose absolute value max x (-x) lies strictly below the pattern of +infinity is a real number:
    at the top element the maximum is the top, at the bottom element the negation is the top. -/
theorem real_of_abs_lt (x : EReal)
    (h : FloatOps.cmpf (F := Ideal) (φ := .f32) .olt (FloatOps.absf (F := Ideal) (φ := .f32) x) (FloatOps.ofBits .f32 0x7F800000#32) = 1#1) :
    ∃ r : ℝ, x = (r : EReal) := by
  have e : (FloatOps.ofBits (F := Ideal) .f32 0x7F800000#32 : EReal) = ⊤ := by
    show Ideal.ofBits .f32 0x7F800000#32 = ⊤
    simp [Ideal.ofBits, Ideal.ieee]
  rw [Ideal.cmpf_def, Ideal.absf_def, e] at h
  simp only [Ideal.cmp, StableHlo.Predicate.ofBool_eq_one_iff, decide_eq_true_eq] at h
  induction x using EReal.rec with
  | bot => simp at h
  | top => simp at h
  | coe r => exact ⟨r, rfl⟩

/-- A 32-bit word that is at least 0 and below 100000 in the signed order. -/
theorem range_of_cmp (w : BitVec 32) (h0 : IntOp.cmpi .sge w (0#32) = 1#1) (h1 : IntOp.cmpi .slt w (100000#32) = 1#1) :
    0 ≤ w.toInt ∧ w.toInt < 100000 := by
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have c : (100000#32 : BitVec 32).toInt = 100000 := by decide
  rw [z] at h0; rw [c] at h1
  exact ⟨h0, h1⟩

theorem decode (X : Cert.Spec.SNode.Idx → EReal) (X' : Cert.Spec.SNode.Idx → EReal) (idx : Cert.Spec.SEdge.Idx → BitVec 32)
    (mask : Cert.Spec.SEdge.Idx → BitVec 1) (W : Cert.Spec.SWgt.Idx → EReal) (a : Cert.Spec.SVec.Idx → EReal)
    (h : Cert.Pre_finite_inputs.fn (F := Ideal) X X' idx mask W a = (fun _ => 1#1)) :
    Cert.Spec.AllReal X ∧ Cert.Spec.AllReal W ∧ Cert.Spec.AllReal a ∧ Cert.Spec.InRange idx := by
  have e := congrFun h ValueIdx.ix0
  dsimp only [Cert.Pre_finite_inputs.fn, Cert.Pre_finite_inputs.fn_part1] at e
  simp only [andi, IntOp.andi_eq_one] at e
  obtain ⟨⟨⟨⟨⟨hX, -⟩, hW⟩, ha⟩, h0⟩, h1⟩ := e
  refine ⟨fun i => real_of_abs_lt (X i) (Host.reduce_andi_all _ _ _ _ _ hX i),
    fun i => real_of_abs_lt (W i) (Host.reduce_andi_all _ _ _ _ _ hW i),
    fun i => real_of_abs_lt (a i) (Host.reduce_andi_all _ _ _ _ _ ha i),
    fun m j => range_of_cmp (idx (ix2 m j)) (Host.reduce_andi_all _ _ _ _ _ h0 (ix2 m j))
      (Host.reduce_andi_all _ _ _ _ _ h1 (ix2 m j))⟩

end Cert.PreDecode

end
-- ==== Proof.lean ====
/-
  The certificate's five claims.

  Both printed kernel programs run to the end from any memory: the launch, then item after item (two pipelines among
  nine stretches of host operations), every unscoped buffer known at each boundary; no item writes an argument, which
  gives the two kernel frames. The reference is a host program whose run ends with its result at the composed term of
  the arguments. At the ideal values, under the precondition (every float entry real, every table entry naming a
  node), the kernel's result is "per node, the attention gathered from the edges that hold it, times the node's
  features, summed over the nodes", the reference's is "per edge, its attention times its member's features, summed
  over the edges", and the two are one finite double sum taken in two orders.
-/
import proofs.«406324_j84542136254541_3_alg».proof.Defs
import proofs.«406324_j84542136254541_3_alg».proof.Proof.Gen.Kernel
import proofs.«406324_j84542136254541_3_alg».proof.Proof.Gen.KernelIdeal
import proofs.«406324_j84542136254541_3_alg».proof.Proof.Gen.ReferenceIdeal
import proofs.«406324_j84542136254541_3_alg».proof.Proof.Gen.Pre_finite_inputs
import proofs.«406324_j84542136254541_3_alg».proof.Proof.K.Run
import proofs.«406324_j84542136254541_3_alg».proof.Proof.KI.Run
import proofs.«406324_j84542136254541_3_alg».proof.Proof.KI.ValOut
import proofs.«406324_j84542136254541_3_alg».proof.Proof.Ref.RefRun
import proofs.«406324_j84542136254541_3_alg».proof.Proof.Ref.RefValue
import proofs.«406324_j84542136254541_3_alg».proof.Proof.Algebra
import proofs.«406324_j84542136254541_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W11_main_arg0 m c),
     (h c _ (Cert.Kernel.Hand.mem_uc Cert.Kernel.main_arg1 (by decide))).trans (Cert.Kernel.Hand.W11_main_arg1 m c),
     (h c _ (Cert.Kernel.Hand.mem_uc Cert.Kernel.main_arg2 (by decide))).trans (Cert.Kernel.Hand.W11_main_arg2 m c),
     (h c _ (Cert.Kernel.Hand.mem_uc Cert.Kernel.main_arg3 (by decide))).trans (Cert.Kernel.Hand.W11_main_arg3 m c),
     (h c _ (Cert.Kernel.Hand.mem_uc Cert.Kernel.main_arg4 (by decide))).trans (Cert.Kernel.Hand.W11_main_arg4 m c),
     (h c _ (Cert.Kernel.Hand.mem_uc Cert.Kernel.main_arg5 (by decide))).trans (Cert.Kernel.Hand.W11_main_arg5 m c)⟩)
    (Cert.Kernel.Hand.run_all (F := Bits) m ρ)

/-- The idealized kernel's run with its result named: the last boundary's contents of the result buffer. -/
theorem run_ki (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v47) = Cert.KernelIdeal.Val.resultArr m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun r h c =>
    ⟨h c _ (Cert.KernelIdeal.Hand.mem_uc Cert.KernelIdeal.main_v47 (by decide)),
     (h c _ (Cert.KernelIdeal.Hand.mem_uc Cert.KernelIdeal.main_arg0 (by decide))).trans (Cert.KernelIdeal.Hand.W11_main_arg0 m c),
     (h c _ (Cert.KernelIdeal.Hand.mem_uc Cert.KernelIdeal.main_arg1 (by decide))).trans (Cert.KernelIdeal.Hand.W11_main_arg1 m c),
     (h c _ (Cert.KernelIdeal.Hand.mem_uc Cert.KernelIdeal.main_arg2 (by decide))).trans (Cert.KernelIdeal.Hand.W11_main_arg2 m c),
     (h c _ (Cert.KernelIdeal.Hand.mem_uc Cert.KernelIdeal.main_arg3 (by decide))).trans (Cert.KernelIdeal.Hand.W11_main_arg3 m c),
     (h c _ (Cert.KernelIdeal.Hand.mem_uc Cert.KernelIdeal.main_arg4 (by decide))).trans (Cert.KernelIdeal.Hand.W11_main_arg4 m c),
     (h c _ (Cert.KernelIdeal.Hand.mem_uc Cert.KernelIdeal.main_arg5 (by decide))).trans (Cert.KernelIdeal.Hand.W11_main_arg5 m c)⟩)
    (Cert.KernelIdeal.Hand.run_all (F := Ideal) m ρ)

/-- The idealized kernel runs and leaves its arguments as launched. -/
theorem frame_ki : Cert.frame_KernelIdeal := fun m ρ _ =>
  (θ_run Cert.KernelIdeal.defs _ _).mono (fun _ h c => (h c).2) (run_ki m ρ)

/-- The reference runs and leaves its arguments as launched. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing: there is nothing to preserve. -/
theorem preserves : Cert.preserves_Kernel_KernelIdeal := trivial

/-- At the ideal values, from memories that agree on the arguments, both programs end with one result: the
    kernel's sum over the nodes and the reference's sum over the edges are the same double sum. -/
theorem algebraic : Cert.algebraic_KernelIdeal_ReferenceIdeal := by
  intro m ρ m' ρ' hpre hagree
  have hdec := fun c => Cert.PreDecode.decode (Cert.KernelIdeal.Val.argX m c)
    (m ((c.tc : Thread Cert.KernelIdeal.nD Cert.KernelIdeal.τ).loc Cert.KernelIdeal.main_arg1))
    (Cert.KernelIdeal.Val.argIdx m c) (Cert.KernelIdeal.Val.argMask m c) (Cert.KernelIdeal.Val.argW m c)
    (Cert.KernelIdeal.Val.argA m c) (hpre c)
  refine ⟨fun c => Cert.KernelIdeal.Val.resultArr m c, run_ki m ρ, ?_⟩
  refine (θ_run Cert.ReferenceIdeal.defs _ _).mono (fun _ h c => ⟨(h c).1.trans ?_, (h c).2⟩)
    (Cert.ReferenceIdeal.Hand.run (F := Ideal) m' ρ')
  obtain ⟨hX, hW, ha, hidx⟩ := hdec c
  rw [(hagree c).1, (hagree c).2.2.1, (hagree c).2.2.2.1, (hagree c).2.2.2.2.1, (hagree c).2.2.2.2.2]
  exact ((Cert.ReferenceIdeal.Hand.refTerm_eq _ _ _ _ _ hidx).trans
    (Cert.Spec.kernelOut_eq_refOut _ _ _ _ _ hX hW ha).symm).trans (Cert.KernelIdeal.Val.result_eq m c hidx).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
